-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2x2048x2048 : Shape := ⟨3, ![2, 2048, 2048]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x2048x2048 : S_.BroadcastsInDim S2x2048x2048 (![] : Fin 0 → Fin S2x2048x2048.rank)
  reducesTo_S2x2048x2048_S_d0_1_2 : S2x2048x2048.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg1 : FVec F S2x2048x2048 .f32) (main_v48 : IVec S_ 1) (main_v50 : IVec S2x2048x2048 1) : IVec S_ 1 :=
  let main_cst_19 : FVec F S_ .f32 := constant S_ .f32 0x3F800000#32
  let main_v51 : FVec F S2x2048x2048 .f32 := broadcastInDim S2x2048x2048 ![] bcast_S_S2x2048x2048 main_cst_19
  let main_v52 : IVec S2x2048x2048 1 := cmpf .oeq main_arg1 main_v51
  let main_v53 : IVec S2x2048x2048 1 := ori main_v50 main_v52
  let main_c_20 : IVec S_ 1 := constantI S_ 1 1#1
  let main_v54 : IVec S_ 1 := (fun x v => Host.reduce IntOp.andi x v reducesTo_S2x2048x2048_S_d0_1_2 h_S_) main_v53 main_c_20
  let main_v55 : IVec S_ 1 := andi main_v48 main_v54
  main_v55

def fn_part2 {F : FTy → Type} [FloatOps F] (main_arg1 : FVec F S2x2048x2048 .f32) (main_arg7 : FVec F S1024 .f32) (main_arg8 : FVec F S1024x1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_cst_18 : FVec F S_ .f32 := constant S_ .f32 0x00000000#32
  let main_v49 : FVec F S2x2048x2048 .f32 := broadcastInDim S2x2048x2048 ![] bcast_S_S2x2048x2048 main_cst_18
  let main_v50 : IVec S2x2048x2048 1 := cmpf .oeq main_arg1 main_v49
  fn_part3 (F := F) main_arg1 main_v48 main_v50

def fn_part1 {F : FTy → Type} [FloatOps F] (main_arg1 : FVec F S2x2048x2048 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg1 main_arg7 main_arg8 main_arg9 main_v33

def fn {F : FTy → Type} [FloatOps F] (main_arg0 : FVec F S2x2048x1024 .f32) (main_arg1 : FVec F S2x2048x2048 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x2048 .f32 := Host.absf main_arg1
  let main_cst_0 : FVec F S_ .f32 := constant S_ .f32 0x7F800000#32
  let main_v5 : FVec F S2x2048x2048 .f32 := broadcastInDim S2x2048x2048 ![] bcast_S_S2x2048x2048 main_cst_0
  let main_v6 : IVec S2x2048x2048 1 := cmpf .olt main_v4 main_v5
  let main_c_1 : IVec S_ 1 := constantI S_ 1 1#1
  let main_v7 : IVec S_ 1 := (fun x v => Host.reduce IntOp.andi x v reducesTo_S2x2048x2048_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg1 main_arg4 main_arg5 main_arg6 main_arg7 main_arg8 main_arg9 main_v13 main_v16
-- ==== Kernel.lean ====
abbrev S2x2048x1024 : Shape := ⟨3, ![2, 2048, 1024]⟩
abbrev S2x2048x2048 : Shape := ⟨3, ![2, 2048, 2048]⟩
abbrev S1024x1024 : Shape := ⟨2, ![1024, 1024]⟩
abbrev S1024 : Shape := ⟨1, ![1024]⟩
abbrev S4096x1024 : Shape := ⟨2, ![4096, 1024]⟩
abbrev S1024x3072 : Shape := ⟨2, ![1024, 3072]⟩
abbrev S3072 : Shape := ⟨1, ![3072]⟩
abbrev S1x3072 : Shape := ⟨2, ![1, 3072]⟩
abbrev S4096x3072 : Shape := ⟨2, ![4096, 3072]⟩
abbrev S512x1024 : Shape := ⟨2, ![512, 1024]⟩
abbrev S512x3072 : Shape := ⟨2, ![512, 3072]⟩
abbrev S2x2048x3072 : Shape := ⟨3, ![2, 2048, 3072]⟩
abbrev S1x1024 : Shape := ⟨2, ![1, 1024]⟩
abbrev S1x512x128 : Shape := ⟨3, ![1, 512, 128]⟩
abbrev S1x2048x128 : Shape := ⟨3, ![1, 2048, 128]⟩
abbrev S1x512x2048 : Shape := ⟨3, ![1, 512, 2048]⟩
abbrev S128x1024 : Shape := ⟨2, ![128, 1024]⟩
abbrev S1x512x1024 : Shape := ⟨3, ![1, 512, 1024]⟩
abbrev S512x128 : Shape := ⟨2, ![512, 128]⟩
abbrev S2048x128 : Shape := ⟨2, ![2048, 128]⟩
abbrev S512x2048 : Shape := ⟨2, ![512, 2048]⟩
abbrev S512x64 : Shape := ⟨2, ![512, 64]⟩
abbrev S2048x64 : Shape := ⟨2, ![2048, 64]⟩
abbrev S512 : Shape := ⟨1, ![512]⟩
abbrev S512x1 : Shape := ⟨2, ![512, 1]⟩

abbrev nBuf : Space → Nat
  | .hbm => 18
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2048, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S4096x1024, .f32⟩
  | .hbm, ⟨11, _⟩ => ⟨S1024x3072, .f32⟩
  | .hbm, ⟨12, _⟩ => ⟨S3072, .f32⟩
  | .hbm, ⟨13, _⟩ => ⟨S1x3072, .f32⟩
  | .hbm, ⟨14, _⟩ => ⟨S4096x3072, .bf16⟩
  | .hbm, ⟨15, _⟩ => ⟨S2x2048x3072, .bf16⟩
  | .hbm, ⟨16, _⟩ => ⟨S1x1024, .f32⟩
  | .hbm, ⟨17, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .f32⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x512x128, .bf16⟩
  | .local _ .vmem, ⟨7, _⟩ => ⟨S1x512x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x512x2048, .f32⟩
  | .local _ .vmem, ⟨13, _⟩ => ⟨S1x512x2048, .f32⟩
  | .local _ .vmem, ⟨14, _⟩ => ⟨S128x1024, .f32⟩
  | .local _ .vmem, ⟨15, _⟩ => ⟨S128x1024, .f32⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | .local _ .vmem, ⟨19, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![2, 4, 8], ![false, false, false]⟩

def k1_cond2 (i : grid1.Coords) : BitVec 1 :=
  let arg2 : BitVec 32 := BitVec.ofNat 32 (i 2).val
  let c7_i32 : BitVec 32 := 7#32
  let v61 : BitVec 1 := Scalar.cmpi .eq arg2 c7_i32
  let v62 : BitVec 32 := Scalar.extui v61
  let c0_i32_31 : BitVec 32 := 0#32
  let v63 : BitVec 1 := Scalar.cmpi .ne v62 c0_i32_31
  v63

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg2
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, false, true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  shapeCasts_S2x2048x1024_S4096x1024 : S2x2048x1024.ShapeCasts S4096x1024
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S4096x3072_S2x2048x3072 : S4096x3072.ShapeCasts S2x2048x3072
  shapeCasts_S1024_S1x1024 : S1024.ShapeCasts S1x1024
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  inb_S128x1024_S128x1024_0_0 : ∀ a, (![0, 0] : Fin 2 → Nat) a + S128x1024.size a ≤ S128x1024.size a
  h_S128x1024 : 0 < S128x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x128_S128x1024_S512x1024_1_0_0_1_n_n_wf : DotDims.WF S512x128 S128x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .f32 = 32 ∨ (Rect.block (s := S1024x3072) S1024x3072.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S4096x3072.size a
  hwx0_3 : ∀ i : grid0.Coords, EltTy.bits .bf16 = 32 ∨ (Rect.block (s := S4096x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S2x2048x3072.size a
  hwx1_0 : ∀ i : grid1.Coords, EltTy.bits .bf16 = 32 ∨ (Rect.block (s := S2x2048x3072) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S2x2048x3072.size a
  hwx1_1 : ∀ i : grid1.Coords, EltTy.bits .bf16 = 32 ∨ (Rect.block (s := S2x2048x3072) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S2x2048x3072.size a
  hwx1_2 : ∀ i : grid1.Coords, EltTy.bits .bf16 = 32 ∨ (Rect.block (s := S2x2048x3072) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x2048.size a ≤ S2x2048x2048.size a
  hwx1_3 : ∀ i : grid1.Coords, EltTy.bits .f32 = 32 ∨ (Rect.block (s := S2x2048x2048) S1x512x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x1024.size a ≤ S1024x1024.size a
  hwx1_4 : ∀ i : grid1.Coords, EltTy.bits .f32 = 32 ∨ (Rect.block (s := S1024x1024) S128x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x1024.size a ≤ S2x2048x1024.size a
  hwx1_6 : ∀ i : grid1.Coords, EltTy.bits .f32 = 32 ∨ (Rect.block (s := S2x2048x1024) S1x512x1024.size (cc1_transform_6 i) (hinb1_6 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x512x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x512x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S2x2048x2048 : Shape := ⟨3, ![2, 2048, 2048]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x1x2048x2048 : Shape := ⟨4, ![2, 1, 2048, 2048]⟩
abbrev S2x16x2048 : Shape := ⟨3, ![2, 16, 2048]⟩
abbrev S2x16x2048x1 : Shape := ⟨4, ![2, 16, 2048, 1]⟩

abbrev nBuf : Space → Nat
  | .hbm => 62
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2048, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S2x2048x1024, .f32⟩
  | .hbm, ⟨11, _⟩ => ⟨S1x1x1024, .f32⟩
  | .hbm, ⟨12, _⟩ => ⟨S2x2048x1024, .f32⟩
  | .hbm, ⟨13, _⟩ => ⟨S2x2048x1024, .f32⟩
  | .hbm, ⟨14, _⟩ => ⟨S2x2048x16x64, .f32⟩
  | .hbm, ⟨15, _⟩ => ⟨S2x16x2048x64, .f32⟩
  | .hbm, ⟨16, _⟩ => ⟨S2x2048x1024, .f32⟩
  | .hbm, ⟨17, _⟩ => ⟨S1x1x1024, .f32⟩
  | .hbm, ⟨18, _⟩ => ⟨S2x2048x1024, .f32⟩
  | .hbm, ⟨19, _⟩ => ⟨S2x2048x1024, .f32⟩
  | .hbm, ⟨20, _⟩ => ⟨S2x2048x16x64, .f32⟩
  | .hbm, ⟨21, _⟩ => ⟨S2x16x2048x64, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S2x2048x16x64, .f32⟩
  | .hbm, ⟨27, _⟩ => ⟨S2x16x2048x64, .f32⟩
  | .hbm, ⟨28, _⟩ => ⟨S2x16x2048x2048, .f32⟩
  | .hbm, ⟨29, _⟩ => ⟨S_, .f32⟩
  | .hbm, ⟨30, _⟩ => ⟨S2x16x2048x2048, .f32⟩
  | .hbm, ⟨31, _⟩ => ⟨S2x16x2048x2048, .f32⟩
  | .hbm, ⟨32, _⟩ => ⟨S2x1x2048x2048, .f32⟩
  | .hbm, ⟨33, _⟩ => ⟨S_, .f32⟩
  | .hbm, ⟨34, _⟩ => ⟨S2x1x2048x2048, .f32⟩
  | .hbm, ⟨35, _⟩ => ⟨S2x1x2048x2048, .i1⟩
  | .hbm, ⟨36, _⟩ => ⟨S_, .f32⟩
  | .hbm, ⟨37, _⟩ => ⟨S_, .f32⟩
  | .hbm, ⟨38, _⟩ => ⟨S2x16x2048x2048, .i1⟩
  | .hbm, ⟨39, _⟩ => ⟨S2x16x2048x2048, .f32⟩
  | .hbm, ⟨40, _⟩ => ⟨S2x16x2048x2048, .f32⟩
  | .hbm, ⟨41, _⟩ => ⟨S_, .f32⟩
  | .hbm, ⟨42, _⟩ => ⟨S2x16x2048, .f32⟩
  | .hbm, ⟨43, _⟩ => ⟨S_, .f32⟩
  | .hbm, ⟨44, _⟩ => ⟨S2x16x2048, .f32⟩
  | .hbm, ⟨45, _⟩ => ⟨S2x16x2048, .f32⟩
  | .hbm, ⟨46, _⟩ => ⟨S2x16x2048x1, .f32⟩
  | .hbm, ⟨47, _⟩ => ⟨S2x16x2048x2048, .f32⟩
  | .hbm, ⟨48, _⟩ => ⟨S2x16x2048x2048, .f32⟩
  | .hbm, ⟨49, _⟩ => ⟨S2x16x2048x2048, .f32⟩
  | .hbm, ⟨50, _⟩ => ⟨S_, .f32⟩
  | .hbm, ⟨51, _⟩ => ⟨S2x16x2048, .f32⟩
  | .hbm, ⟨52, _⟩ => ⟨S2x16x2048x1, .f32⟩
  | .hbm, ⟨53, _⟩ => ⟨S2x16x2048x2048, .f32⟩
  | .hbm, ⟨54, _⟩ => ⟨S2x16x2048x2048, .f32⟩
  | .hbm, ⟨55, _⟩ => ⟨S2x16x2048x64, .f32⟩
  | .hbm, ⟨56, _⟩ => ⟨S2x2048x16x64, .f32⟩
  | .hbm, ⟨57, _⟩ => ⟨S2x2048x1024, .f32⟩
  | .hbm, ⟨58, _⟩ => ⟨S2x2048x1024, .f32⟩
  | .hbm, ⟨59, _⟩ => ⟨S1x1x1024, .f32⟩
  | .hbm, ⟨60, _⟩ => ⟨S2x2048x1024, .f32⟩
  | .hbm, ⟨61, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S2x2048x2048_S2x1x2048x2048_0_2_3 : S2x2048x2048.BroadcastsInDim S2x1x2048x2048 (![0, 2, 3] : Fin 3 → Fin S2x1x2048x2048.rank)
  bcast_S_S2x1x2048x2048 : S_.BroadcastsInDim S2x1x2048x2048 (![] : Fin 0 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_0_01_1_n_n_wf : DotDims.WF S2x2048x1024 S1024x1024 S2x2048x1024 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.K_Reg0.lean ====
/-
  The first kernel region, at the buffer contents `V` the region is entered from: a dense layer over row blocks.
  Grid point `t` holds rows [512·t, 512·t + 512) of the flattened input, the whole concatenated weight and bias,
  and stores the block's product plus bias into the same rows of the result. Here: each window's block read off
  `V`, what the body leaves in the output window's buffer as a function of the three input blocks, the body's
  triple, the pipeline's proof data and its obligation at every point.
-/
import proofs.«431443_j20203526160555_3_alg».proof.Proof.Gen.Kernel.Launch
import proofs.«431443_j20203526160555_3_alg».proof.Proof.Gen.Kernel.Skeleton
import proofs.«431443_j20203526160555_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S1x3072 := Rect.unit (s := S1x3072) ![0, 0] S1x3072.size inb_S1x3072_S1x3072_0_0
abbrev r0_o : Rect S512x3072 := Rect.unit (s := S512x3072) ![0, 0] S512x3072.size inb_S512x3072_S512x3072_0_0

/-- What the body leaves in the output window's buffer: its one store, of the payload of the three loaded blocks. -/
def out0_3 (x0 : Vec F S512x1024 .f32) (x1 : Vec F S1024x3072 .f32) (x2 : Vec F S1x3072 .f32) : Vec F S512x3072 .bf16 :=
  View.canon [⟨r0_o, k0_pay1 (View.ld x0 r0_x) (View.ld x1 r0_w) (View.ld x2 r0_b)⟩]

/-- The one store covers the buffer. -/
theorem cover0_3 (p0 : Vec F S512x3072 .bf16) (y : S512x3072.Idx) :
    ∃ pc ∈ ([⟨r0_o, p0⟩] : List (View.Piece (Elt F) S512x3072 .bf16)), y ∈ pc.1.set :=
  View.cover_of_tiled [⟨r0_o, p0⟩] S512x3072.size (by rfl) y

set_option maxHeartbeats 1000000 in
/-- The body on whole staging memrefs: the inputs' contents are kept, the output's buffer ends at `out0_3`. -/
theorem sound_kernel0 (c : Dev nD) (E : Set ℕ) (i : grid0.Coords) (arg2 : Memref sig .tc .vmem S512x1024 .f32) (harg2 : arg2.IsWhole)
    (arg3 : Memref sig .tc .vmem S1024x3072 .f32) (harg3 : arg3.IsWhole) (arg4 : Memref sig .tc .vmem S1x3072 .f32) (harg4 : arg4.IsWhole)
    (arg5 : Memref sig .tc .vmem S512x3072 .bf16) (harg5 : arg5.IsWhole)
    (x0 : Vec F S512x1024 .f32) (x1 : Vec F S1024x3072 .f32) (x2 : Vec F S1x3072 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__linear_qkv_kernel i arg2 harg2 arg3 harg3 arg4 harg4 arg5 harg5) K := by
  simp only [cc0__linear_qkv_kernel_eq_skeleton]; unfold cc0__linear_qkv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first pipeline on core `c`: the arrays as the region finds them; after the body each input's
    buffer at its block and the output's at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K_Reg1Runs.lean ====
/-
  The second kernel region (attention over one query tile and one pair of heads per grid point, the output
  projection accumulated across the eight head pairs of a tile): what its three control cases share. The grid is
  (batch 2) × (query tile 4) × (head pair 8), the head pair innermost; the body resets its accumulator at head
  pair 0, adds a head pair's contribution at every point, and stores accumulator + bias to the output tile at head
  pair 7. Here: the two branch conditions in closed form over the grid, where the output window is idle, the
  staging and scratch memrefs by name, and the region invariant with the scratch as an owned memref.
-/
import proofs.«431443_j20203526160555_3_alg».proof.Proof.K_Reg0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The accumulator is reset: the head-pair coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The output tile is stored: the head-pair coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where the output tile is not stored its window is idle and not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The memrefs the body is called with -/

abbrev VO1_6 : View sig .tc .vmem S1x512x1024 .f32 := (Memref.whole cc1_stg6_0 : Memref sig .tc .vmem S1x512x1024 .f32).view
abbrev ms1_0 (t : Fin cfg1.N) : Memref sig .tc .vmem S1x512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512x1024 .f32 := win1_6.stage (cfg1.slots t 6)
abbrev hs1_6 (t : Fin cfg1.N) : (ms1_6 t).IsWhole := hstage1_6 ((cfg1.slots t 6).cast nbuf1_6)
/-- The accumulator: a whole scoped buffer of the kernel's own. -/
abbrev scM1_0 : Memref sig .tc .vmem S512x1024 .f32 := Memref.whole cc1_scratch0
abbrev VS1_0 : View sig .tc .vmem S512x1024 .f32 := scM1_0.view

/-- The region's invariant at entry with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.K_Reg1RunA.lean ====
/-
  The second region's body at the first head pair of a tile: the accumulator is reset, then takes the head pair's
  contribution; the output tile is not stored.
-/
import proofs.«431443_j20203526160555_3_alg».proof.Proof.K_Reg1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces this case's stores leave in the output window's buffer and in the accumulator (last first), with the
    body's triple on whole memrefs: the six input blocks are handed back as found. -/
noncomputable def kernelRun1_A (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x2048 .f32) (harg6 : arg6.IsWhole) (arg7 : Memref sig .tc .vmem S128x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : cond1_0 i) (hc1 : ¬cond1_1 i)
    (x0 : Vec F S1x512x128 .bf16) (x1 : Vec F S1x2048x128 .bf16) (x2 : Vec F S1x2048x128 .bf16) (x3 : Vec F S1x512x2048 .f32) (x4 : Vec F S128x1024 .f32) (x5 : Vec F S1x1024 .f32) :
    Σ' (L6 : List (View.Piece (Elt F) S1x512x1024 .f32)), { LS0 : List (View.Piece (Elt F) S512x1024 .f32) //
      ∀ (xi6 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10) K } := by
  refine ⟨[], ?_, fun xi6 E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.Kernel.Hand

end
-- ==== Proof.K_Reg1RunB.lean ====
/-
  The second region's body at a head pair that is neither a tile's first nor its last: the accumulator takes the
  head pair's contribution over what the point before left; the output tile is not stored.
-/
import proofs.«431443_j20203526160555_3_alg».proof.Proof.K_Reg1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces this case's stores leave in the output window's buffer and in the accumulator (last first), with the
    body's triple on whole memrefs: the six input blocks are handed back as found. -/
noncomputable def kernelRun1_B (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x2048 .f32) (harg6 : arg6.IsWhole) (arg7 : Memref sig .tc .vmem S128x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : ¬cond1_1 i)
    (x0 : Vec F S1x512x128 .bf16) (x1 : Vec F S1x2048x128 .bf16) (x2 : Vec F S1x2048x128 .bf16) (x3 : Vec F S1x512x2048 .f32) (x4 : Vec F S128x1024 .f32) (x5 : Vec F S1x1024 .f32) (xs0 : Vec F S512x1024 .f32) :
    Σ' (L6 : List (View.Piece (Elt F) S1x512x1024 .f32)), { LS0 : List (View.Piece (Elt F) S512x1024 .f32) //
      ∀ (xi6 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10) K } := by
  refine ⟨[], ?_, fun xi6 E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.Kernel.Hand

end
-- ==== Proof.K_Reg1RunC.lean ====
/-
  The second region's body at the last head pair of a tile: the accumulator takes the head pair's contribution
  over what the point before left, and accumulator + bias is stored to the output tile.
-/
import proofs.«431443_j20203526160555_3_alg».proof.Proof.K_Reg1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces this case's stores leave in the output window's buffer and in the accumulator (last first), with the
    body's triple on whole memrefs: the six input blocks are handed back as found. -/
noncomputable def kernelRun1_C (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x2048 .f32) (harg6 : arg6.IsWhole) (arg7 : Memref sig .tc .vmem S128x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : cond1_1 i)
    (x0 : Vec F S1x512x128 .bf16) (x1 : Vec F S1x2048x128 .bf16) (x2 : Vec F S1x2048x128 .bf16) (x3 : Vec F S1x512x2048 .f32) (x4 : Vec F S128x1024 .f32) (x5 : Vec F S1x1024 .f32) (xs0 : Vec F S512x1024 .f32) :
    Σ' (L6 : List (View.Piece (Elt F) S1x512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10) K } := by
  refine ⟨?_, ?_, fun E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

end Cert.Kernel.Hand

end
-- ==== Proof.K_Reg1.lean ====
/-
  The second kernel region at the entry contents `V`: what the output tile's buffer and the accumulator hold after
  each grid point, by recursion on the point (the case the point is in, run on the point's blocks and on what the
  point before left in the accumulator), the region's invariant carrying the accumulator's contents from point to
  point, the pipeline's proof data and its obligation at every point. The three windows that read the projected
  queries, keys and values share one array; each holds a share of it.
-/
import proofs.«431443_j20203526160555_3_alg».proof.Proof.K_Reg1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The three cases at a point -/

/-- The run of the case "first head pair" at point `t`. -/
abbrev runA (c : Dev nD) (t : Fin cfg1.N) (h0 : t.val % 8 = 0) (h1 : ¬t.val % 8 = 7) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)
/-- The run of the case "inner head pair" at point `t`, over the accumulator's contents `xs0`. -/
abbrev runB (c : Dev nD) (t : Fin cfg1.N) (h0 : ¬t.val % 8 = 0) (h1 : ¬t.val % 8 = 7) (xs0 : Vec F S512x1024 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs0
/-- The run of the case "last head pair" at point `t`, over the accumulator's contents `xs0`. -/
abbrev runC (c : Dev nD) (t : Fin cfg1.N) (h0 : ¬t.val % 8 = 0) (h1 : t.val % 8 = 7) (xs0 : Vec F S512x1024 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs0

theorem scoverA (c : Dev nD) (t : Fin cfg1.N) (h0 : t.val % 8 = 0) (h1 : ¬t.val % 8 = 7) (y : S512x1024.Idx) :
    ∃ pc ∈ (runA V c t h0 h1).2.1, y ∈ pc.1.set :=
  View.cover_of_tiledL (runA V c t h0 h1).2.1 S512x1024.size (by sl_kernel_rfl) y
theorem scoverB (c : Dev nD) (t : Fin cfg1.N) (h0 : ¬t.val % 8 = 0) (h1 : ¬t.val % 8 = 7) (xs0 : Vec F S512x1024 .f32) (y : S512x1024.Idx) :
    ∃ pc ∈ (runB V c t h0 h1 xs0).2.1, y ∈ pc.1.set :=
  View.cover_of_tiledL (runB V c t h0 h1 xs0).2.1 S512x1024.size (by sl_kernel_rfl) y
theorem scoverC (c : Dev nD) (t : Fin cfg1.N) (h0 : ¬t.val % 8 = 0) (h1 : t.val % 8 = 7) (xs0 : Vec F S512x1024 .f32) (y : S512x1024.Idx) :
    ∃ pc ∈ (runC V c t h0 h1 xs0).2.1, y ∈ pc.1.set :=
  View.cover_of_tiledL (runC V c t h0 h1 xs0).2.1 S512x1024.size (by sl_kernel_rfl) y
theorem ocoverC (c : Dev nD) (t : Fin cfg1.N) (h0 : ¬t.val % 8 = 0) (h1 : t.val % 8 = 7) (xs0 : Vec F S512x1024 .f32) (y : S1x512x1024.Idx) :
    ∃ pc ∈ (runC V c t h0 h1 xs0).1, y ∈ pc.1.set :=
  View.cover_of_tiledL (runC V c t h0 h1 xs0).1 S1x512x1024.size (by sl_kernel_rfl) y

/-- What a case leaves: the output tile's buffer (a placeholder nothing reads where the case stores nothing into
    it) and the accumulator, its pieces read back. -/
def leftA (c : Dev nD) (t : Fin cfg1.N) (h0 : t.val % 8 = 0) (h1 : ¬t.val % 8 = 7) : Vec F S1x512x1024 .f32 × Vec F S512x1024 .f32 :=
  (VO1_6.read (Elt F) (VO1_6.writes (Elt F) VO1_6.junk (runA V c t h0 h1).1),
   VS1_0.read (Elt F) (VS1_0.writes (Elt F) VS1_0.junk (runA V c t h0 h1).2.1))
def leftB (c : Dev nD) (t : Fin cfg1.N) (h0 : ¬t.val % 8 = 0) (h1 : ¬t.val % 8 = 7) (xs0 : Vec F S512x1024 .f32) : Vec F S1x512x1024 .f32 × Vec F S512x1024 .f32 :=
  (VO1_6.read (Elt F) (VO1_6.writes (Elt F) VO1_6.junk (runB V c t h0 h1 xs0).1),
   VS1_0.read (Elt F) (VS1_0.writes (Elt F) VS1_0.junk (runB V c t h0 h1 xs0).2.1))
def leftC (c : Dev nD) (t : Fin cfg1.N) (h0 : ¬t.val % 8 = 0) (h1 : t.val % 8 = 7) (xs0 : Vec F S512x1024 .f32) : Vec F S1x512x1024 .f32 × Vec F S512x1024 .f32 :=
  (VO1_6.read (Elt F) (VO1_6.writes (Elt F) VO1_6.junk (runC V c t h0 h1 xs0).1),
   VS1_0.read (Elt F) (VS1_0.writes (Elt F) VS1_0.junk (runC V c t h0 h1 xs0).2.1))

/-! ## What the output tile's buffer and the accumulator hold after each point -/

/-- After position `n`: the case the position is in, over what position `n - 1` left in the accumulator. -/
def outsAt1 (c : Dev nD) : (n : ℕ) → n < cfg1.N → Vec F S1x512x1024 .f32 × Vec F S512x1024 .f32
  | 0, hn => leftA V c ⟨0, hn⟩ (Nat.zero_mod _) (by show ¬ 0 % 8 = 7; decide)
  | n + 1, hn =>
    if h0 : (n + 1) % 8 = 0 then leftA V c ⟨n + 1, hn⟩ h0 (by show ¬ (n + 1) % 8 = 7; omega)
    else if h1 : (n + 1) % 8 = 7 then leftC V c ⟨n + 1, hn⟩ h0 h1 (outsAt1 c n (Nat.lt_of_succ_lt hn)).2
    else leftB V c ⟨n + 1, hn⟩ h0 h1 (outsAt1 c n (Nat.lt_of_succ_lt hn)).2

theorem outsAt1_A (c : Dev nD) (t : Fin cfg1.N) (h0 : t.val % 8 = 0) (h1 : ¬t.val % 8 = 7) :
    outsAt1 V c t.val t.isLt = leftA V c t h0 h1 := by
  obtain ⟨n, hn⟩ := t
  cases n with
  | zero => rfl
  | succ n => exact (dif_pos h0)

theorem outsAt1_B (c : Dev nD) (t : Fin cfg1.N) (h0 : ¬t.val % 8 = 0) (h1 : ¬t.val % 8 = 7) :
    outsAt1 V c t.val t.isLt = leftB V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h1)

theorem outsAt1_C (c : Dev nD) (t : Fin cfg1.N) (h0 : ¬t.val % 8 = 0) (h1 : t.val % 8 = 7) :
    outsAt1 V c t.val t.isLt = leftC V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h1)

/-- The region invariant before position `n`: at entry the scoped buffers the region does not stage at anything; from
    then on the accumulator at what the position before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the second pipeline on core `c`. The query, key and value windows read one array and split it
    among them; every other array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q w := match w with
    | ⟨0, _⟩ => fullShare.left
    | ⟨1, _⟩ => fullShare.right.left
    | ⟨2, _⟩ => fullShare.right.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

set_option maxHeartbeats 4800000 in
/-- The body at any point: the closed forms say which case the point is in; the invariant hands the body the
    accumulator at what the point before left (at anything at the first point) and takes it back at this point's
    contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  ·
    have h1 : ¬t.val % 8 = 7 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [Dat.leavesExact_idle (dat1 V c) 6 t (idleAt1_6 t (fun h => h1 ((hcond1_1 t).mp h))) (noFlush1_6 t (fun h => h1 ((hcond1_1 t).mp h)))]
    rw [outsAt1_A V c t h0 h1]
    unfold leftA; (try dsimp only)
    by_cases hz : t.val = 0
    ·
      rw [PhiS1_castSucc V c t, PhiS1_zero V c _ _ hz, PhiA1_eq]
      iintro ⟨⟨⟨HE0, HE1, HE2, HE3, HE4, HE5, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((runA V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HE0 HE1 HE2 HE3 HE4 HE5 HS0 Hg]
      · isplitl [HE0 HE1 HE2 HE3 HE4 HE5 HS0]
        · isplitl [HE0]; · iexact HE0
          isplitl [HE1]; · iexact HE1
          isplitl [HE2]; · iexact HE2
          isplitl [HE3]; · iexact HE3
          isplitl [HE4]; · iexact HE4
          isplitl [HE5]; · iexact HE5
          unfold owns; iexists _; isplitr
          swap; · iexact HS0
          ipureintro; exact View.read_writes_of_cover _ _ _ _ _ (scoverA V c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    ·
      rw [PhiS1_castSucc V c t, PhiS1_pos V c _ _ hz]
      iintro ⟨⟨⟨HE0, HE1, HE2, HE3, HE4, HE5, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((runA V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HE0 HE1 HE2 HE3 HE4 HE5 HS0 Hg]
      · isplitl [HE0 HE1 HE2 HE3 HE4 HE5 HS0]
        · isplitl [HE0]; · iexact HE0
          isplitl [HE1]; · iexact HE1
          isplitl [HE2]; · iexact HE2
          isplitl [HE3]; · iexact HE3
          isplitl [HE4]; · iexact HE4
          isplitl [HE5]; · iexact HE5
          unfold owns; iexists _; isplitr
          swap; · iexact HS0
          ipureintro; exact View.read_writes_of_cover _ _ _ _ _ (scoverA V c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold leftC; (try dsimp only)
      rw [PhiS1_castSucc V c t, PhiS1_pos V c _ _ hz]
      iintro ⟨⟨⟨HE0, HE1, HE2, HE3, HE4, HE5, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((runC V c t h0 h1 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HE0 HE1 HE2 HE3 HE4 HE5 HS0 Hg]
      · isplitl [HE0 HE1 HE2 HE3 HE4 HE5 HS0]
        · isplitl [HE0]; · iexact HE0
          isplitl [HE1]; · iexact HE1
          isplitl [HE2]; · iexact HE2
          isplitl [HE3]; · iexact HE3
          isplitl [HE4]; · iexact HE4
          isplitl [HE5]; · iexact HE5
          unfold owns; iexists _; isplitr
          swap; · iexact HS0
          ipureintro; exact View.read_writes_of_cover _ _ _ _ _ (scoverC V c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (ocoverC V c t h0 h1 _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_B V c t h0 h1]
      unfold leftB; (try dsimp only)
      rw [PhiS1_castSucc V c t, PhiS1_pos V c _ _ hz]
      iintro ⟨⟨⟨HE0, HE1, HE2, HE3, HE4, HE5, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((runB V c t h0 h1 _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HE0 HE1 HE2 HE3 HE4 HE5 HS0 Hg]
      · isplitl [HE0 HE1 HE2 HE3 HE4 HE5 HS0]
        · isplitl [HE0]; · iexact HE0
          isplitl [HE1]; · iexact HE1
          isplitl [HE2]; · iexact HE2
          isplitl [HE3]; · iexact HE3
          isplitl [HE4]; · iexact HE4
          isplitl [HE5]; · iexact HE5
          unfold owns; iexists _; isplitr
          swap; · iexact HS0
          ipureintro; exact View.read_writes_of_cover _ _ _ _ _ (scoverB V c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HE0, HE1, HE2, HE3, HE4, HE5, HS0⟩, Hg⟩
  isplitl [HE0 HE1 HE2 HE3 HE4 HE5 HS0]
  · isplitl [HE0]; · iexact HE0
    isplitl [HE1]; · iexact HE1
    isplitl [HE2]; · iexact HE2
    isplitl [HE3]; · iexact HE3
    isplitl [HE4]; · iexact HE4
    isplitl [HE5]; · iexact HE5
    iexists _; iexact HS0
  iexact Hg

end Cert.Kernel.Hand

end
-- ==== Proof.K_Run.lean ====
/-
  The whole program: its two host stretches and two kernel regions from the launch to the return. The buffer
  contents at each boundary are a fold from the launch memory: a host stretch applies its operations, a region
  replaces its result array by what its write-backs leave. Every weakly fair execution terminates, faults
  nowhere, and ends with the result array at what the second region's write-backs leave and every argument
  array as launched. The second region's query, key and value windows read ONE array: at the region's entry the
  array is split into three shares, one per window, and at its exit the shares are joined again.
-/
import proofs.«431443_j20203526160555_3_alg».proof.Proof.K_Reg1
import proofs.«431443_j20203526160555_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- What the first region's write-backs leave in its result array. -/
def o4 (c : Dev nD) : Buf (Elt F) ((c : Thread nD τ).loc main_v4) := (dat0 (V1 m) c).arrAt 3 cfg0.N
/-- At the first region's exit: its result array at that, every other buffer as entered. -/
def W2 (c : Dev nD) : Valuation τ sig (Elt F) := Function.update (W1 m c) main_v4 (o4 m c)
abbrev V2 : (c : Dev nD) → (b : Ref sig .tc) → Buf (Elt F) ((c : Thread nD τ).loc b) := fun c b => W2 m c b
/-- After the second host stretch (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- What the second region's write-backs leave in the program's result array. -/
def o7 (c : Dev nD) : Buf (Elt F) ((c : Thread nD τ).loc main_v7) := (dat1 (V3 m) c).arrAt 6 cfg1.N
/-- At the second region's exit. -/
def W4 (c : Dev nD) : Valuation τ sig (Elt F) := Function.update (W3 m c) main_v7 (o7 m c)
abbrev V4 : (c : Dev nD) → (b : Ref sig .tc) → Buf (Elt F) ((c : Thread nD τ).loc b) := fun c b => W4 m c b

theorem W2_v4 (c : Dev nD) : W2 m c main_v4 = o4 m c := Function.update_self ..
theorem W2_of_ne (c : Dev nD) (b : Ref sig .tc) (hb : b ≠ main_v4) : W2 m c b = W1 m c b :=
  Function.update_of_ne (StableHlo.devRef_ne_of_ne hb) _ _
theorem W4_v7 (c : Dev nD) : W4 m c main_v7 = o7 m c := Function.update_self ..
theorem W4_of_ne (c : Dev nD) (b : Ref sig .tc) (hb : b ≠ main_v7) : W4 m c b = W3 m c b :=
  Function.update_of_ne (StableHlo.devRef_ne_of_ne hb) _ _

/-- A buffer no host operation writes and no region's result lands in reaches the end as launched. -/
theorem W4_arg (c : Dev nD) (r : Ref sig .tc) (h4 : r ≠ main_v4) (h7 : r ≠ main_v7) (h0 : r ∉ hostOps0_W) (h1 : r ∉ hostOps1_W) :
    W4 m c r = m ((c : Thread nD τ).loc r) :=
  (W4_of_ne m c r h7).trans <| (StableHlo.after_of_writes_sub hostOps1 _ hostOps1_writes h1).trans <|
    (W2_of_ne m c r h4).trans <| (StableHlo.after_of_writes_sub hostOps0 _ hostOps0_writes h0).trans rfl

theorem W4_main_arg0 (c : Dev nD) : W4 m c main_arg0 = m ((c : Thread nD τ).loc main_arg0) :=
  W4_arg m c main_arg0 (by decide) (by decide) (by decide) (by decide)
theorem W4_main_arg1 (c : Dev nD) : W4 m c main_arg1 = m ((c : Thread nD τ).loc main_arg1) :=
  W4_arg m c main_arg1 (by decide) (by decide) (by decide) (by decide)
theorem W4_main_arg2 (c : Dev nD) : W4 m c main_arg2 = m ((c : Thread nD τ).loc main_arg2) :=
  W4_arg m c main_arg2 (by decide) (by decide) (by decide) (by decide)
theorem W4_main_arg3 (c : Dev nD) : W4 m c main_arg3 = m ((c : Thread nD τ).loc main_arg3) :=
  W4_arg m c main_arg3 (by decide) (by decide) (by decide) (by decide)
theorem W4_main_arg4 (c : Dev nD) : W4 m c main_arg4 = m ((c : Thread nD τ).loc main_arg4) :=
  W4_arg m c main_arg4 (by decide) (by decide) (by decide) (by decide)
theorem W4_main_arg5 (c : Dev nD) : W4 m c main_arg5 = m ((c : Thread nD τ).loc main_arg5) :=
  W4_arg m c main_arg5 (by decide) (by decide) (by decide) (by decide)
theorem W4_main_arg6 (c : Dev nD) : W4 m c main_arg6 = m ((c : Thread nD τ).loc main_arg6) :=
  W4_arg m c main_arg6 (by decide) (by decide) (by decide) (by decide)
theorem W4_main_arg7 (c : Dev nD) : W4 m c main_arg7 = m ((c : Thread nD τ).loc main_arg7) :=
  W4_arg m c main_arg7 (by decide) (by decide) (by decide) (by decide)
theorem W4_main_arg8 (c : Dev nD) : W4 m c main_arg8 = m ((c : Thread nD τ).loc main_arg8) :=
  W4_arg m c main_arg8 (by decide) (by decide) (by decide) (by decide)
theorem W4_main_arg9 (c : Dev nD) : W4 m c main_arg9 = m ((c : Thread nD τ).loc main_arg9) :=
  W4_arg m c main_arg9 (by decide) (by decide) (by decide) (by decide)

/-! ## The first region's arrays at its exit -/

theorem hF0 (c : Dev nD) (w : Fin cfg0.W) : (dat0 (V1 m) c).arrAt w cfg0.N = V2 m c (Pipeline.arrRef spec0 w) :=
  match w with
  | ⟨0, _⟩ => ((dat0 (V1 m) c).arrAt_in 0 rfl _).trans ((A_eq0 (V1 m) c 0).trans (W2_of_ne m c main_v0 (by decide)).symm)
  | ⟨1, _⟩ => ((dat0 (V1 m) c).arrAt_in 1 rfl _).trans ((A_eq0 (V1 m) c 1).trans (W2_of_ne m c main_v1 (by decide)).symm)
  | ⟨2, _⟩ => ((dat0 (V1 m) c).arrAt_in 2 rfl _).trans ((A_eq0 (V1 m) c 2).trans (W2_of_ne m c main_v3 (by decide)).symm)
  | ⟨3, _⟩ => (W2_v4 m c).symm
theorem hrest0 (c : Dev nD) : ∀ b, b ∉ Finset.univ.image (Pipeline.arrRef spec0) → V2 m c b = V1 m c b :=
  fun b hb => W2_of_ne m c b fun e => hb (Finset.mem_image.mpr ⟨3, Finset.mem_univ _, e.symm⟩)

/-! ## The second region's arrays: five buffers behind seven windows -/

section Shared
variable (V : (c : Dev nD) → (b : Ref sig .tc) → Buf (Elt F) ((c : Thread nD τ).loc b))

/-- The second pipeline's arrays, window by window, each at its share. -/
theorem arrays1_eq (c : Dev nD) (Fv : (w : Fin cfg1.W) → Buf (Elt F) ((cfg1.win w).arr.view.loc (c : Thread nD τ))) :
    ((dat1 V c).arrays Fv : sProp 𝕄)
      = iprop((((c : Thread nD τ).loc main_v5) ↦{fullShare.left} Fv 0) ∗ (((c : Thread nD τ).loc main_v5) ↦{fullShare.right.left} Fv 1)
          ∗ (((c : Thread nD τ).loc main_v5) ↦{fullShare.right.right} Fv 2) ∗ (((c : Thread nD τ).loc main_arg1) ↦{fullShare} Fv 3)
          ∗ (((c : Thread nD τ).loc main_arg8) ↦{fullShare} Fv 4) ∗ (((c : Thread nD τ).loc main_v6) ↦{fullShare} Fv 5)
          ∗ (((c : Thread nD τ).loc main_v7) ↦{fullShare} Fv 6)) := by
  unfold Dat.arrays
  rw [bigSep_W1]
  rw [(arr_whole1 0).set_eq_univ, (arr_whole1 3).set_eq_univ, (arr_whole1 4).set_eq_univ, (arr_whole1 5).set_eq_univ, (arr_whole1 6).set_eq_univ]
  rfl

/-- The buffers behind them, one by one. -/
theorem arrBufs1_eq (c : Dev nD) (U : (b : Ref sig .tc) → Buf (Elt F) ((c : Thread nD τ).loc b)) :
    (Pipeline.arrBufs (Ix := Unit) (Name := ℕ) (U := UR sig nD τ) (Lvl := ℕ) spec1 c U : sProp 𝕄)
      = iprop((((c : Thread nD τ).loc main_v5) ↦{fullShare} U main_v5) ∗ (((c : Thread nD τ).loc main_arg1) ↦{fullShare} U main_arg1)
          ∗ (((c : Thread nD τ).loc main_arg8) ↦{fullShare} U main_arg8) ∗ (((c : Thread nD τ).loc main_v6) ↦{fullShare} U main_v6)
          ∗ (((c : Thread nD τ).loc main_v7) ↦{fullShare} U main_v7)) := by
  unfold Pipeline.arrBufs
  exact bigSep_eq_bigSepL_of_eq [main_v5, main_arg1, main_arg8, main_v6, main_v7] (by decide) (by decide) _

/-- One buffer held whole is three shares of it. -/
theorem three_shares {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  constructor
  · iintro H
    ihave H' := (pointsTo_share (PosShare.mem_left_op_right fullShare)).1 $$ H
    icases H' with ⟨Ha, Hb⟩
    ihave Hb' := (pointsTo_share (PosShare.mem_left_op_right fullShare.right)).1 $$ Hb
    icases Hb' with ⟨Hb, Hc⟩
    isplitl [Ha]; · iexact Ha
    isplitl [Hb]; · iexact Hb
    iexact Hc
  · iintro ⟨Ha, Hb, Hc⟩
    iapply (pointsTo_share (PosShare.mem_left_op_right fullShare)).2
    isplitl [Ha]; · iexact Ha
    iapply (pointsTo_share (PosShare.mem_left_op_right fullShare.right)).2
    isplitl [Hb]; · iexact Hb
    iexact Hc

/-- ENTRY: the five buffers at `V` are the seven windows' arrays at the proof data's entry contents. -/
theorem arrays1_in (c : Dev nD) :
    (Pipeline.arrBufs (Ix := Unit) (Name := ℕ) (U := UR sig nD τ) (Lvl := ℕ) spec1 c (V c) : sProp 𝕄) ⊢ (dat1 V c).arrays ((dat1 V c).arrAt · 0) := by
  rw [arrBufs1_eq, arrays1_eq]
  iintro ⟨H5, H1, H8, H6, H7⟩
  ihave H5' := (three_shares (V c main_v5)).1 $$ H5
  icases H5' with ⟨Ha, Hb, Hc⟩
  isplitl [Ha]; · iexact Ha
  isplitl [Hb]; · iexact Hb
  isplitl [Hc]; · iexact Hc
  isplitl [H1]; · iexact H1
  isplitl [H8]; · iexact H8
  isplitl [H6]; · iexact H6
  iexact H7

/-- EXIT: the seven windows' arrays after the last point are the five buffers at any contents `U` that has the result
    array at what the write-backs leave and the input arrays as entered. -/
theorem arrays1_out (c : Dev nD) (U : (b : Ref sig .tc) → Buf (Elt F) ((c : Thread nD τ).loc b))
    (h5 : U main_v5 = V c main_v5) (h1 : U main_arg1 = V c main_arg1) (h8 : U main_arg8 = V c main_arg8) (h6 : U main_v6 = V c main_v6)
    (h7 : U main_v7 = (dat1 V c).arrAt 6 cfg1.N) :
    ((dat1 V c).arrays ((dat1 V c).arrAt · cfg1.N) : sProp 𝕄) ⊢ Pipeline.arrBufs (Ix := Unit) (Name := ℕ) (U := UR sig nD τ) (Lvl := ℕ) spec1 c U := by
  rw [arrBufs1_eq, arrays1_eq, h5, h1, h8, h6, h7,
    (dat1 V c).arrAt_in 0 rfl, (dat1 V c).arrAt_in 1 rfl, (dat1 V c).arrAt_in 2 rfl, (dat1 V c).arrAt_in 3 rfl,
    (dat1 V c).arrAt_in 4 rfl, (dat1 V c).arrAt_in 5 rfl]
  iintro ⟨Ha, Hb, Hc, H1, H8, H6, H7⟩
  isplitl [Ha Hb Hc]
  · iapply (three_shares (V c main_v5)).2
    isplitl [Ha]; · iexact Ha
    isplitl [Hb]; · iexact Hb
    iexact Hc
  isplitl [H1]; · iexact H1
  isplitl [H8]; · iexact H8
  isplitl [H6]; · iexact H6
  iexact H7

end Shared

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W3`, left at `W4`. Its arrays are split out of the
    unscoped buffers share by share and joined again at the exit; the generator register and the scoped buffers it
    does not stage pass through its invariant. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsp := Pipeline.unscopedBufs_split₀ (Ix := Unit) (Name := ℕ) (U := UR sig nD τ) (Lvl := ℕ) (cfgs := cfgs) (p := 1) winFacts₀1.arr_unscoped c (V3 m c)
    rw [Pipeline.unscopedBufs_held] at hsp
    have hsplit : (StableHlo.held (c : Thread nD τ) (Pipeline.ucRefs τ sig) (W3 m c) : sProp 𝕄)
        ⊢ iprop((pdats m 1 c).arrays ((pdats m 1 c).arrAt · 0) ∗ Pipeline.unscopedRest spec1 c (V3 m c)) := by
      rw [hsp]; exact BIClass.sep_mono (arrays1_in (V3 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    iintro ⟨Hp, -, Hr⟩
    iapply (hin1 (V3 m) c)
    unfold Pipeline.ΦA
    isplitl [Hr]; · iexact Hr
    iexact Hp
  hout c := by
    rw [Pipeline.ownSems0_none, show (pdats m 1 c).Φ (Fin.last _) = (dat1 (V3 m) c).Φ (Fin.last cfg1.N) from rfl]
    iintro H
    ihave H' := (hout1 (V3 m) c) $$ H
    unfold Pipeline.ΦA
    icases H' with ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (cfgs := cfgs) (p := 1) winFacts₀1.arr_unscoped c (V4 m c)
    rw [Pipeline.unscopedBufs_held] at hsp
    have hrest : (Pipeline.unscopedRest (Ix := Unit) (Name := ℕ) (U := UR sig nD τ) (Lvl := ℕ) spec1 c (V4 m c) : sProp 𝕄)
        = Pipeline.unscopedRest spec1 c (V3 m c) := by
      unfold Pipeline.unscopedRest
      exact bigSep_congr fun b hb => by
        rw [show V4 m c b = V3 m c b from W4_of_ne m c b fun e => (Finset.mem_sdiff.mp hb).2 (Finset.mem_image.mpr ⟨6, Finset.mem_univ _, e.symm⟩)]
    have hjoin : iprop((pdats m 1 c).arrays ((pdats m 1 c).arrAt · cfg1.N) ∗ Pipeline.unscopedRest (Ix := Unit) (Name := ℕ) (U := UR sig nD τ) (Lvl := ℕ) spec1 c (V3 m c))
        ⊢ (StableHlo.held (c : Thread nD τ) (Pipeline.ucRefs τ sig) (W4 m c) : sProp 𝕄) := by
      rw [hsp]
      exact BIClass.sep_mono (arrays1_out (V3 m) c (V4 m c) (W4_of_ne m c main_v5 (by decide)) (W4_of_ne m c main_arg1 (by decide))
            (W4_of_ne m c main_arg8 (by decide)) (W4_of_ne m c main_v6 (by decide)) (W4_v7 m c)) (Entails.of_eq hrest.symm)
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final state has the result array at `o7` and every argument array as launched. -/
theorem run_main : θ_run defs (onTc (τ := τ) (main (F := F))) ⟨m, fun _ => 0, ρ⟩ (fun r => ∀ c : Dev nD,
      r.2.mem ((c.tc : Thread nD τ).loc main_v7) = o7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v7 (by decide))).trans (W4_v7 m c),
        (h c _ (mem_uc main_arg0 (by decide))).trans (W4_main_arg0 m c),
        (h c _ (mem_uc main_arg1 (by decide))).trans (W4_main_arg1 m c),
        (h c _ (mem_uc main_arg2 (by decide))).trans (W4_main_arg2 m c),
        (h c _ (mem_uc main_arg3 (by decide))).trans (W4_main_arg3 m c),
        (h c _ (mem_uc main_arg4 (by decide))).trans (W4_main_arg4 m c),
        (h c _ (mem_uc main_arg5 (by decide))).trans (W4_main_arg5 m c),
        (h c _ (mem_uc main_arg6 (by decide))).trans (W4_main_arg6 m c),
        (h c _ (mem_uc main_arg7 (by decide))).trans (W4_main_arg7 m c),
        (h c _ (mem_uc main_arg8 (by decide))).trans (W4_main_arg8 m c),
        (h c _ (mem_uc main_arg9 (by decide))).trans (W4_main_arg9 m c)⟩)

end Cert.Kernel.Hand

end
-- ==== Proof.KI_Reg0.lean ====
/-
  The first kernel region, at the buffer contents `V` the region is entered from: a dense layer over row blocks.
  Grid point `t` holds rows [512·t, 512·t + 512) of the flattened input, the whole concatenated weight and bias,
  and stores the block's product plus bias into the same rows of the result. Here: each window's block read off
  `V`, what the body leaves in the output window's buffer as a function of the three input blocks, the body's
  triple, the pipeline's proof data and its obligation at every point.
-/
import proofs.«431443_j20203526160555_3_alg».proof.Proof.Gen.KernelIdeal.Launch
import proofs.«431443_j20203526160555_3_alg».proof.Proof.Gen.KernelIdeal.Skeleton
import proofs.«431443_j20203526160555_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S1x3072 := Rect.unit (s := S1x3072) ![0, 0] S1x3072.size inb_S1x3072_S1x3072_0_0
abbrev r0_o : Rect S512x3072 := Rect.unit (s := S512x3072) ![0, 0] S512x3072.size inb_S512x3072_S512x3072_0_0

/-- What the body leaves in the output window's buffer: its one store, of the payload of the three loaded blocks. -/
def out0_3 (x0 : Vec F S512x1024 .f32) (x1 : Vec F S1024x3072 .f32) (x2 : Vec F S1x3072 .f32) : Vec F S512x3072 .bf16 :=
  View.canon [⟨r0_o, k0_pay1 (View.ld x0 r0_x) (View.ld x1 r0_w) (View.ld x2 r0_b)⟩]

/-- The one store covers the buffer. -/
theorem cover0_3 (p0 : Vec F S512x3072 .bf16) (y : S512x3072.Idx) :
    ∃ pc ∈ ([⟨r0_o, p0⟩] : List (View.Piece (Elt F) S512x3072 .bf16)), y ∈ pc.1.set :=
  View.cover_of_tiled [⟨r0_o, p0⟩] S512x3072.size (by rfl) y

set_option maxHeartbeats 1000000 in
/-- The body on whole staging memrefs: the inputs' contents are kept, the output's buffer ends at `out0_3`. -/
theorem sound_kernel0 (c : Dev nD) (E : Set ℕ) (i : grid0.Coords) (arg2 : Memref sig .tc .vmem S512x1024 .f32) (harg2 : arg2.IsWhole)
    (arg3 : Memref sig .tc .vmem S1024x3072 .f32) (harg3 : arg3.IsWhole) (arg4 : Memref sig .tc .vmem S1x3072 .f32) (harg4 : arg4.IsWhole)
    (arg5 : Memref sig .tc .vmem S512x3072 .bf16) (harg5 : arg5.IsWhole)
    (x0 : Vec F S512x1024 .f32) (x1 : Vec F S1024x3072 .f32) (x2 : Vec F S1x3072 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__linear_qkv_kernel i arg2 harg2 arg3 harg3 arg4 harg4 arg5 harg5) K := by
  simp only [cc0__linear_qkv_kernel_eq_skeleton]; unfold cc0__linear_qkv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first pipeline on core `c`: the arrays as the region finds them; after the body each input's
    buffer at its block and the output's at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI_Reg1Runs.lean ====
/-
  The second kernel region (attention over one query tile and one pair of heads per grid point, the output
  projection accumulated across the eight head pairs of a tile): what its three control cases share. The grid is
  (batch 2) × (query tile 4) × (head pair 8), the head pair innermost; the body resets its accumulator at head
  pair 0, adds a head pair's contribution at every point, and stores accumulator + bias to the output tile at head
  pair 7. Here: the two branch conditions in closed form over the grid, where the output window is idle, the
  staging and scratch memrefs by name, and the region invariant with the scratch as an owned memref.
-/
import proofs.«431443_j20203526160555_3_alg».proof.Proof.KI_Reg0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The body's branch conditions -/

/-- The accumulator is reset: the head-pair coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The output tile is stored: the head-pair coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where the output tile is not stored its window is idle and not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The memrefs the body is called with -/

abbrev VO1_6 : View sig .tc .vmem S1x512x1024 .f32 := (Memref.whole cc1_stg6_0 : Memref sig .tc .vmem S1x512x1024 .f32).view
abbrev ms1_0 (t : Fin cfg1.N) : Memref sig .tc .vmem S1x512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512x1024 .f32 := win1_6.stage (cfg1.slots t 6)
abbrev hs1_6 (t : Fin cfg1.N) : (ms1_6 t).IsWhole := hstage1_6 ((cfg1.slots t 6).cast nbuf1_6)
/-- The accumulator: a whole scoped buffer of the kernel's own. -/
abbrev scM1_0 : Memref sig .tc .vmem S512x1024 .f32 := Memref.whole cc1_scratch0
abbrev VS1_0 : View sig .tc .vmem S512x1024 .f32 := scM1_0.view

/-- The region's invariant at entry with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KI_Reg1RunA.lean ====
/-
  The second region's body at the first head pair of a tile: the accumulator is reset, then takes the head pair's
  contribution; the output tile is not stored.
-/
import proofs.«431443_j20203526160555_3_alg».proof.Proof.KI_Reg1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The pieces this case's stores leave in the output window's buffer and in the accumulator (last first), with the
    body's triple on whole memrefs: the six input blocks are handed back as found. -/
noncomputable def kernelRun1_A (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x2048 .f32) (harg6 : arg6.IsWhole) (arg7 : Memref sig .tc .vmem S128x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : cond1_0 i) (hc1 : ¬cond1_1 i)
    (x0 : Vec F S1x512x128 .bf16) (x1 : Vec F S1x2048x128 .bf16) (x2 : Vec F S1x2048x128 .bf16) (x3 : Vec F S1x512x2048 .f32) (x4 : Vec F S128x1024 .f32) (x5 : Vec F S1x1024 .f32) :
    Σ' (L6 : List (View.Piece (Elt F) S1x512x1024 .f32)), { LS0 : List (View.Piece (Elt F) S512x1024 .f32) //
      ∀ (xi6 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10) K } := by
  refine ⟨[], ?_, fun xi6 E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.KernelIdeal.Hand

end
-- ==== Proof.KI_Reg1RunB.lean ====
/-
  The second region's body at a head pair that is neither a tile's first nor its last: the accumulator takes the
  head pair's contribution over what the point before left; the output tile is not stored.
-/
import proofs.«431443_j20203526160555_3_alg».proof.Proof.KI_Reg1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The pieces this case's stores leave in the output window's buffer and in the accumulator (last first), with the
    body's triple on whole memrefs: the six input blocks are handed back as found. -/
noncomputable def kernelRun1_B (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x2048 .f32) (harg6 : arg6.IsWhole) (arg7 : Memref sig .tc .vmem S128x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : ¬cond1_1 i)
    (x0 : Vec F S1x512x128 .bf16) (x1 : Vec F S1x2048x128 .bf16) (x2 : Vec F S1x2048x128 .bf16) (x3 : Vec F S1x512x2048 .f32) (x4 : Vec F S128x1024 .f32) (x5 : Vec F S1x1024 .f32) (xs0 : Vec F S512x1024 .f32) :
    Σ' (L6 : List (View.Piece (Elt F) S1x512x1024 .f32)), { LS0 : List (View.Piece (Elt F) S512x1024 .f32) //
      ∀ (xi6 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10) K } := by
  refine ⟨[], ?_, fun xi6 E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.KernelIdeal.Hand

end
-- ==== Proof.KI_Reg1RunC.lean ====
/-
  The second region's body at the last head pair of a tile: the accumulator takes the head pair's contribution
  over what the point before left, and accumulator + bias is stored to the output tile.
-/
import proofs.«431443_j20203526160555_3_alg».proof.Proof.KI_Reg1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The pieces this case's stores leave in the output window's buffer and in the accumulator (last first), with the
    body's triple on whole memrefs: the six input blocks are handed back as found. -/
noncomputable def kernelRun1_C (c : Dev nD) (i : grid1.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x2048 .f32) (harg6 : arg6.IsWhole) (arg7 : Memref sig .tc .vmem S128x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : cond1_1 i)
    (x0 : Vec F S1x512x128 .bf16) (x1 : Vec F S1x2048x128 .bf16) (x2 : Vec F S1x2048x128 .bf16) (x3 : Vec F S1x512x2048 .f32) (x4 : Vec F S128x1024 .f32) (x5 : Vec F S1x1024 .f32) (xs0 : Vec F S512x1024 .f32) :
    Σ' (L6 : List (View.Piece (Elt F) S1x512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10) K } := by
  refine ⟨?_, ?_, fun E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

end Cert.KernelIdeal.Hand

end
-- ==== Proof.KI_Reg1.lean ====
/-
  The second kernel region at the entry contents `V`: what the output tile's buffer and the accumulator hold after
  each grid point, by recursion on the point (the case the point is in, run on the point's blocks and on what the
  point before left in the accumulator), the region's invariant carrying the accumulator's contents from point to
  point, the pipeline's proof data and its obligation at every point. The three windows that read the projected
  queries, keys and values share one array; each holds a share of it.
-/
import proofs.«431443_j20203526160555_3_alg».proof.Proof.KI_Reg1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The three cases at a point -/

/-- The run of the case "first head pair" at point `t`. -/
abbrev runA (c : Dev nD) (t : Fin cfg1.N) (h0 : t.val % 8 = 0) (h1 : ¬t.val % 8 = 7) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)
/-- The run of the case "inner head pair" at point `t`, over the accumulator's contents `xs0`. -/
abbrev runB (c : Dev nD) (t : Fin cfg1.N) (h0 : ¬t.val % 8 = 0) (h1 : ¬t.val % 8 = 7) (xs0 : Vec F S512x1024 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs0
/-- The run of the case "last head pair" at point `t`, over the accumulator's contents `xs0`. -/
abbrev runC (c : Dev nD) (t : Fin cfg1.N) (h0 : ¬t.val % 8 = 0) (h1 : t.val % 8 = 7) (xs0 : Vec F S512x1024 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs0

theorem scoverA (c : Dev nD) (t : Fin cfg1.N) (h0 : t.val % 8 = 0) (h1 : ¬t.val % 8 = 7) (y : S512x1024.Idx) :
    ∃ pc ∈ (runA V c t h0 h1).2.1, y ∈ pc.1.set :=
  View.cover_of_tiledL (runA V c t h0 h1).2.1 S512x1024.size (by sl_kernel_rfl) y
theorem scoverB (c : Dev nD) (t : Fin cfg1.N) (h0 : ¬t.val % 8 = 0) (h1 : ¬t.val % 8 = 7) (xs0 : Vec F S512x1024 .f32) (y : S512x1024.Idx) :
    ∃ pc ∈ (runB V c t h0 h1 xs0).2.1, y ∈ pc.1.set :=
  View.cover_of_tiledL (runB V c t h0 h1 xs0).2.1 S512x1024.size (by sl_kernel_rfl) y
theorem scoverC (c : Dev nD) (t : Fin cfg1.N) (h0 : ¬t.val % 8 = 0) (h1 : t.val % 8 = 7) (xs0 : Vec F S512x1024 .f32) (y : S512x1024.Idx) :
    ∃ pc ∈ (runC V c t h0 h1 xs0).2.1, y ∈ pc.1.set :=
  View.cover_of_tiledL (runC V c t h0 h1 xs0).2.1 S512x1024.size (by sl_kernel_rfl) y
theorem ocoverC (c : Dev nD) (t : Fin cfg1.N) (h0 : ¬t.val % 8 = 0) (h1 : t.val % 8 = 7) (xs0 : Vec F S512x1024 .f32) (y : S1x512x1024.Idx) :
    ∃ pc ∈ (runC V c t h0 h1 xs0).1, y ∈ pc.1.set :=
  View.cover_of_tiledL (runC V c t h0 h1 xs0).1 S1x512x1024.size (by sl_kernel_rfl) y

/-- What a case leaves: the output tile's buffer (a placeholder nothing reads where the case stores nothing into
    it) and the accumulator, its pieces read back. -/
def leftA (c : Dev nD) (t : Fin cfg1.N) (h0 : t.val % 8 = 0) (h1 : ¬t.val % 8 = 7) : Vec F S1x512x1024 .f32 × Vec F S512x1024 .f32 :=
  (VO1_6.read (Elt F) (VO1_6.writes (Elt F) VO1_6.junk (runA V c t h0 h1).1),
   VS1_0.read (Elt F) (VS1_0.writes (Elt F) VS1_0.junk (runA V c t h0 h1).2.1))
def leftB (c : Dev nD) (t : Fin cfg1.N) (h0 : ¬t.val % 8 = 0) (h1 : ¬t.val % 8 = 7) (xs0 : Vec F S512x1024 .f32) : Vec F S1x512x1024 .f32 × Vec F S512x1024 .f32 :=
  (VO1_6.read (Elt F) (VO1_6.writes (Elt F) VO1_6.junk (runB V c t h0 h1 xs0).1),
   VS1_0.read (Elt F) (VS1_0.writes (Elt F) VS1_0.junk (runB V c t h0 h1 xs0).2.1))
def leftC (c : Dev nD) (t : Fin cfg1.N) (h0 : ¬t.val % 8 = 0) (h1 : t.val % 8 = 7) (xs0 : Vec F S512x1024 .f32) : Vec F S1x512x1024 .f32 × Vec F S512x1024 .f32 :=
  (VO1_6.read (Elt F) (VO1_6.writes (Elt F) VO1_6.junk (runC V c t h0 h1 xs0).1),
   VS1_0.read (Elt F) (VS1_0.writes (Elt F) VS1_0.junk (runC V c t h0 h1 xs0).2.1))

/-! ## What the output tile's buffer and the accumulator hold after each point -/

/-- After position `n`: the case the position is in, over what position `n - 1` left in the accumulator. -/
def outsAt1 (c : Dev nD) : (n : ℕ) → n < cfg1.N → Vec F S1x512x1024 .f32 × Vec F S512x1024 .f32
  | 0, hn => leftA V c ⟨0, hn⟩ (Nat.zero_mod _) (by show ¬ 0 % 8 = 7; decide)
  | n + 1, hn =>
    if h0 : (n + 1) % 8 = 0 then leftA V c ⟨n + 1, hn⟩ h0 (by show ¬ (n + 1) % 8 = 7; omega)
    else if h1 : (n + 1) % 8 = 7 then leftC V c ⟨n + 1, hn⟩ h0 h1 (outsAt1 c n (Nat.lt_of_succ_lt hn)).2
    else leftB V c ⟨n + 1, hn⟩ h0 h1 (outsAt1 c n (Nat.lt_of_succ_lt hn)).2

theorem outsAt1_A (c : Dev nD) (t : Fin cfg1.N) (h0 : t.val % 8 = 0) (h1 : ¬t.val % 8 = 7) :
    outsAt1 V c t.val t.isLt = leftA V c t h0 h1 := by
  obtain ⟨n, hn⟩ := t
  cases n with
  | zero => rfl
  | succ n => exact (dif_pos h0)

theorem outsAt1_B (c : Dev nD) (t : Fin cfg1.N) (h0 : ¬t.val % 8 = 0) (h1 : ¬t.val % 8 = 7) :
    outsAt1 V c t.val t.isLt = leftB V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h1)

theorem outsAt1_C (c : Dev nD) (t : Fin cfg1.N) (h0 : ¬t.val % 8 = 0) (h1 : t.val % 8 = 7) :
    outsAt1 V c t.val t.isLt = leftC V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h1)

/-- The region invariant before position `n`: at entry the scoped buffers the region does not stage at anything; from
    then on the accumulator at what the position before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the second pipeline on core `c`. The query, key and value windows read one array and split it
    among them; every other array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q w := match w with
    | ⟨0, _⟩ => fullShare.left
    | ⟨1, _⟩ => fullShare.right.left
    | ⟨2, _⟩ => fullShare.right.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

set_option maxHeartbeats 4800000 in
/-- The body at any point: the closed forms say which case the point is in; the invariant hands the body the
    accumulator at what the point before left (at anything at the first point) and takes it back at this point's
    contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  ·
    have h1 : ¬t.val % 8 = 7 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [Dat.leavesExact_idle (dat1 V c) 6 t (idleAt1_6 t (fun h => h1 ((hcond1_1 t).mp h))) (noFlush1_6 t (fun h => h1 ((hcond1_1 t).mp h)))]
    rw [outsAt1_A V c t h0 h1]
    unfold leftA; (try dsimp only)
    by_cases hz : t.val = 0
    ·
      rw [PhiS1_castSucc V c t, PhiS1_zero V c _ _ hz, PhiA1_eq]
      iintro ⟨⟨⟨HE0, HE1, HE2, HE3, HE4, HE5, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((runA V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HE0 HE1 HE2 HE3 HE4 HE5 HS0 Hg]
      · isplitl [HE0 HE1 HE2 HE3 HE4 HE5 HS0]
        · isplitl [HE0]; · iexact HE0
          isplitl [HE1]; · iexact HE1
          isplitl [HE2]; · iexact HE2
          isplitl [HE3]; · iexact HE3
          isplitl [HE4]; · iexact HE4
          isplitl [HE5]; · iexact HE5
          unfold owns; iexists _; isplitr
          swap; · iexact HS0
          ipureintro; exact View.read_writes_of_cover _ _ _ _ _ (scoverA V c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    ·
      rw [PhiS1_castSucc V c t, PhiS1_pos V c _ _ hz]
      iintro ⟨⟨⟨HE0, HE1, HE2, HE3, HE4, HE5, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((runA V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HE0 HE1 HE2 HE3 HE4 HE5 HS0 Hg]
      · isplitl [HE0 HE1 HE2 HE3 HE4 HE5 HS0]
        · isplitl [HE0]; · iexact HE0
          isplitl [HE1]; · iexact HE1
          isplitl [HE2]; · iexact HE2
          isplitl [HE3]; · iexact HE3
          isplitl [HE4]; · iexact HE4
          isplitl [HE5]; · iexact HE5
          unfold owns; iexists _; isplitr
          swap; · iexact HS0
          ipureintro; exact View.read_writes_of_cover _ _ _ _ _ (scoverA V c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold leftC; (try dsimp only)
      rw [PhiS1_castSucc V c t, PhiS1_pos V c _ _ hz]
      iintro ⟨⟨⟨HE0, HE1, HE2, HE3, HE4, HE5, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((runC V c t h0 h1 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HE0 HE1 HE2 HE3 HE4 HE5 HS0 Hg]
      · isplitl [HE0 HE1 HE2 HE3 HE4 HE5 HS0]
        · isplitl [HE0]; · iexact HE0
          isplitl [HE1]; · iexact HE1
          isplitl [HE2]; · iexact HE2
          isplitl [HE3]; · iexact HE3
          isplitl [HE4]; · iexact HE4
          isplitl [HE5]; · iexact HE5
          unfold owns; iexists _; isplitr
          swap; · iexact HS0
          ipureintro; exact View.read_writes_of_cover _ _ _ _ _ (scoverC V c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (ocoverC V c t h0 h1 _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_B V c t h0 h1]
      unfold leftB; (try dsimp only)
      rw [PhiS1_castSucc V c t, PhiS1_pos V c _ _ hz]
      iintro ⟨⟨⟨HE0, HE1, HE2, HE3, HE4, HE5, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((runB V c t h0 h1 _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HE0 HE1 HE2 HE3 HE4 HE5 HS0 Hg]
      · isplitl [HE0 HE1 HE2 HE3 HE4 HE5 HS0]
        · isplitl [HE0]; · iexact HE0
          isplitl [HE1]; · iexact HE1
          isplitl [HE2]; · iexact HE2
          isplitl [HE3]; · iexact HE3
          isplitl [HE4]; · iexact HE4
          isplitl [HE5]; · iexact HE5
          unfold owns; iexists _; isplitr
          swap; · iexact HS0
          ipureintro; exact View.read_writes_of_cover _ _ _ _ _ (scoverB V c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HE0, HE1, HE2, HE3, HE4, HE5, HS0⟩, Hg⟩
  isplitl [HE0 HE1 HE2 HE3 HE4 HE5 HS0]
  · isplitl [HE0]; · iexact HE0
    isplitl [HE1]; · iexact HE1
    isplitl [HE2]; · iexact HE2
    isplitl [HE3]; · iexact HE3
    isplitl [HE4]; · iexact HE4
    isplitl [HE5]; · iexact HE5
    iexists _; iexact HS0
  iexact Hg

end Cert.KernelIdeal.Hand

end
-- ==== Proof.KI_Run.lean ====
/-
  The whole program: its two host stretches and two kernel regions from the launch to the return. The buffer
  contents at each boundary are a fold from the launch memory: a host stretch applies its operations, a region
  replaces its result array by what its write-backs leave. Every weakly fair execution terminates, faults
  nowhere, and ends with the result array at what the second region's write-backs leave and every argument
  array as launched. The second region's query, key and value windows read ONE array: at the region's entry the
  array is split into three shares, one per window, and at its exit the shares are joined again.
-/
import proofs.«431443_j20203526160555_3_alg».proof.Proof.KI_Reg1
import proofs.«431443_j20203526160555_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- What the first region's write-backs leave in its result array. -/
def o4 (c : Dev nD) : Buf (Elt F) ((c : Thread nD τ).loc main_v4) := (dat0 (V1 m) c).arrAt 3 cfg0.N
/-- At the first region's exit: its result array at that, every other buffer as entered. -/
def W2 (c : Dev nD) : Valuation τ sig (Elt F) := Function.update (W1 m c) main_v4 (o4 m c)
abbrev V2 : (c : Dev nD) → (b : Ref sig .tc) → Buf (Elt F) ((c : Thread nD τ).loc b) := fun c b => W2 m c b
/-- After the second host stretch (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- What the second region's write-backs leave in the program's result array. -/
def o7 (c : Dev nD) : Buf (Elt F) ((c : Thread nD τ).loc main_v7) := (dat1 (V3 m) c).arrAt 6 cfg1.N
/-- At the second region's exit. -/
def W4 (c : Dev nD) : Valuation τ sig (Elt F) := Function.update (W3 m c) main_v7 (o7 m c)
abbrev V4 : (c : Dev nD) → (b : Ref sig .tc) → Buf (Elt F) ((c : Thread nD τ).loc b) := fun c b => W4 m c b

theorem W2_v4 (c : Dev nD) : W2 m c main_v4 = o4 m c := Function.update_self ..
theorem W2_of_ne (c : Dev nD) (b : Ref sig .tc) (hb : b ≠ main_v4) : W2 m c b = W1 m c b :=
  Function.update_of_ne (StableHlo.devRef_ne_of_ne hb) _ _
theorem W4_v7 (c : Dev nD) : W4 m c main_v7 = o7 m c := Function.update_self ..
theorem W4_of_ne (c : Dev nD) (b : Ref sig .tc) (hb : b ≠ main_v7) : W4 m c b = W3 m c b :=
  Function.update_of_ne (StableHlo.devRef_ne_of_ne hb) _ _

/-- A buffer no host operation writes and no region's result lands in reaches the end as launched. -/
theorem W4_arg (c : Dev nD) (r : Ref sig .tc) (h4 : r ≠ main_v4) (h7 : r ≠ main_v7) (h0 : r ∉ hostOps0_W) (h1 : r ∉ hostOps1_W) :
    W4 m c r = m ((c : Thread nD τ).loc r) :=
  (W4_of_ne m c r h7).trans <| (StableHlo.after_of_writes_sub hostOps1 _ hostOps1_writes h1).trans <|
    (W2_of_ne m c r h4).trans <| (StableHlo.after_of_writes_sub hostOps0 _ hostOps0_writes h0).trans rfl

theorem W4_main_arg0 (c : Dev nD) : W4 m c main_arg0 = m ((c : Thread nD τ).loc main_arg0) :=
  W4_arg m c main_arg0 (by decide) (by decide) (by decide) (by decide)
theorem W4_main_arg1 (c : Dev nD) : W4 m c main_arg1 = m ((c : Thread nD τ).loc main_arg1) :=
  W4_arg m c main_arg1 (by decide) (by decide) (by decide) (by decide)
theorem W4_main_arg2 (c : Dev nD) : W4 m c main_arg2 = m ((c : Thread nD τ).loc main_arg2) :=
  W4_arg m c main_arg2 (by decide) (by decide) (by decide) (by decide)
theorem W4_main_arg3 (c : Dev nD) : W4 m c main_arg3 = m ((c : Thread nD τ).loc main_arg3) :=
  W4_arg m c main_arg3 (by decide) (by decide) (by decide) (by decide)
theorem W4_main_arg4 (c : Dev nD) : W4 m c main_arg4 = m ((c : Thread nD τ).loc main_arg4) :=
  W4_arg m c main_arg4 (by decide) (by decide) (by decide) (by decide)
theorem W4_main_arg5 (c : Dev nD) : W4 m c main_arg5 = m ((c : Thread nD τ).loc main_arg5) :=
  W4_arg m c main_arg5 (by decide) (by decide) (by decide) (by decide)
theorem W4_main_arg6 (c : Dev nD) : W4 m c main_arg6 = m ((c : Thread nD τ).loc main_arg6) :=
  W4_arg m c main_arg6 (by decide) (by decide) (by decide) (by decide)
theorem W4_main_arg7 (c : Dev nD) : W4 m c main_arg7 = m ((c : Thread nD τ).loc main_arg7) :=
  W4_arg m c main_arg7 (by decide) (by decide) (by decide) (by decide)
theorem W4_main_arg8 (c : Dev nD) : W4 m c main_arg8 = m ((c : Thread nD τ).loc main_arg8) :=
  W4_arg m c main_arg8 (by decide) (by decide) (by decide) (by decide)
theorem W4_main_arg9 (c : Dev nD) : W4 m c main_arg9 = m ((c : Thread nD τ).loc main_arg9) :=
  W4_arg m c main_arg9 (by decide) (by decide) (by decide) (by decide)

/-! ## The first region's arrays at its exit -/

theorem hF0 (c : Dev nD) (w : Fin cfg0.W) : (dat0 (V1 m) c).arrAt w cfg0.N = V2 m c (Pipeline.arrRef spec0 w) :=
  match w with
  | ⟨0, _⟩ => ((dat0 (V1 m) c).arrAt_in 0 rfl _).trans ((A_eq0 (V1 m) c 0).trans (W2_of_ne m c main_v0 (by decide)).symm)
  | ⟨1, _⟩ => ((dat0 (V1 m) c).arrAt_in 1 rfl _).trans ((A_eq0 (V1 m) c 1).trans (W2_of_ne m c main_v1 (by decide)).symm)
  | ⟨2, _⟩ => ((dat0 (V1 m) c).arrAt_in 2 rfl _).trans ((A_eq0 (V1 m) c 2).trans (W2_of_ne m c main_v3 (by decide)).symm)
  | ⟨3, _⟩ => (W2_v4 m c).symm
theorem hrest0 (c : Dev nD) : ∀ b, b ∉ Finset.univ.image (Pipeline.arrRef spec0) → V2 m c b = V1 m c b :=
  fun b hb => W2_of_ne m c b fun e => hb (Finset.mem_image.mpr ⟨3, Finset.mem_univ _, e.symm⟩)

/-! ## The second region's arrays: five buffers behind seven windows -/

section Shared
variable (V : (c : Dev nD) → (b : Ref sig .tc) → Buf (Elt F) ((c : Thread nD τ).loc b))

/-- The second pipeline's arrays, window by window, each at its share. -/
theorem arrays1_eq (c : Dev nD) (Fv : (w : Fin cfg1.W) → Buf (Elt F) ((cfg1.win w).arr.view.loc (c : Thread nD τ))) :
    ((dat1 V c).arrays Fv : sProp 𝕄)
      = iprop((((c : Thread nD τ).loc main_v5) ↦{fullShare.left} Fv 0) ∗ (((c : Thread nD τ).loc main_v5) ↦{fullShare.right.left} Fv 1)
          ∗ (((c : Thread nD τ).loc main_v5) ↦{fullShare.right.right} Fv 2) ∗ (((c : Thread nD τ).loc main_arg1) ↦{fullShare} Fv 3)
          ∗ (((c : Thread nD τ).loc main_arg8) ↦{fullShare} Fv 4) ∗ (((c : Thread nD τ).loc main_v6) ↦{fullShare} Fv 5)
          ∗ (((c : Thread nD τ).loc main_v7) ↦{fullShare} Fv 6)) := by
  unfold Dat.arrays
  rw [bigSep_W1]
  rw [(arr_whole1 0).set_eq_univ, (arr_whole1 3).set_eq_univ, (arr_whole1 4).set_eq_univ, (arr_whole1 5).set_eq_univ, (arr_whole1 6).set_eq_univ]
  rfl

/-- The buffers behind them, one by one. -/
theorem arrBufs1_eq (c : Dev nD) (U : (b : Ref sig .tc) → Buf (Elt F) ((c : Thread nD τ).loc b)) :
    (Pipeline.arrBufs (Ix := Unit) (Name := ℕ) (U := UR sig nD τ) (Lvl := ℕ) spec1 c U : sProp 𝕄)
      = iprop((((c : Thread nD τ).loc main_v5) ↦{fullShare} U main_v5) ∗ (((c : Thread nD τ).loc main_arg1) ↦{fullShare} U main_arg1)
          ∗ (((c : Thread nD τ).loc main_arg8) ↦{fullShare} U main_arg8) ∗ (((c : Thread nD τ).loc main_v6) ↦{fullShare} U main_v6)
          ∗ (((c : Thread nD τ).loc main_v7) ↦{fullShare} U main_v7)) := by
  unfold Pipeline.arrBufs
  exact bigSep_eq_bigSepL_of_eq [main_v5, main_arg1, main_arg8, main_v6, main_v7] (by decide) (by decide) _

/-- One buffer held whole is three shares of it. -/
theorem three_shares {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  constructor
  · iintro H
    ihave H' := (pointsTo_share (PosShare.mem_left_op_right fullShare)).1 $$ H
    icases H' with ⟨Ha, Hb⟩
    ihave Hb' := (pointsTo_share (PosShare.mem_left_op_right fullShare.right)).1 $$ Hb
    icases Hb' with ⟨Hb, Hc⟩
    isplitl [Ha]; · iexact Ha
    isplitl [Hb]; · iexact Hb
    iexact Hc
  · iintro ⟨Ha, Hb, Hc⟩
    iapply (pointsTo_share (PosShare.mem_left_op_right fullShare)).2
    isplitl [Ha]; · iexact Ha
    iapply (pointsTo_share (PosShare.mem_left_op_right fullShare.right)).2
    isplitl [Hb]; · iexact Hb
    iexact Hc

/-- ENTRY: the five buffers at `V` are the seven windows' arrays at the proof data's entry contents. -/
theorem arrays1_in (c : Dev nD) :
    (Pipeline.arrBufs (Ix := Unit) (Name := ℕ) (U := UR sig nD τ) (Lvl := ℕ) spec1 c (V c) : sProp 𝕄) ⊢ (dat1 V c).arrays ((dat1 V c).arrAt · 0) := by
  rw [arrBufs1_eq, arrays1_eq]
  iintro ⟨H5, H1, H8, H6, H7⟩
  ihave H5' := (three_shares (V c main_v5)).1 $$ H5
  icases H5' with ⟨Ha, Hb, Hc⟩
  isplitl [Ha]; · iexact Ha
  isplitl [Hb]; · iexact Hb
  isplitl [Hc]; · iexact Hc
  isplitl [H1]; · iexact H1
  isplitl [H8]; · iexact H8
  isplitl [H6]; · iexact H6
  iexact H7

/-- EXIT: the seven windows' arrays after the last point are the five buffers at any contents `U` that has the result
    array at what the write-backs leave and the input arrays as entered. -/
theorem arrays1_out (c : Dev nD) (U : (b : Ref sig .tc) → Buf (Elt F) ((c : Thread nD τ).loc b))
    (h5 : U main_v5 = V c main_v5) (h1 : U main_arg1 = V c main_arg1) (h8 : U main_arg8 = V c main_arg8) (h6 : U main_v6 = V c main_v6)
    (h7 : U main_v7 = (dat1 V c).arrAt 6 cfg1.N) :
    ((dat1 V c).arrays ((dat1 V c).arrAt · cfg1.N) : sProp 𝕄) ⊢ Pipeline.arrBufs (Ix := Unit) (Name := ℕ) (U := UR sig nD τ) (Lvl := ℕ) spec1 c U := by
  rw [arrBufs1_eq, arrays1_eq, h5, h1, h8, h6, h7,
    (dat1 V c).arrAt_in 0 rfl, (dat1 V c).arrAt_in 1 rfl, (dat1 V c).arrAt_in 2 rfl, (dat1 V c).arrAt_in 3 rfl,
    (dat1 V c).arrAt_in 4 rfl, (dat1 V c).arrAt_in 5 rfl]
  iintro ⟨Ha, Hb, Hc, H1, H8, H6, H7⟩
  isplitl [Ha Hb Hc]
  · iapply (three_shares (V c main_v5)).2
    isplitl [Ha]; · iexact Ha
    isplitl [Hb]; · iexact Hb
    iexact Hc
  isplitl [H1]; · iexact H1
  isplitl [H8]; · iexact H8
  isplitl [H6]; · iexact H6
  iexact H7

end Shared

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W3`, left at `W4`. Its arrays are split out of the
    unscoped buffers share by share and joined again at the exit; the generator register and the scoped buffers it
    does not stage pass through its invariant. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsp := Pipeline.unscopedBufs_split₀ (Ix := Unit) (Name := ℕ) (U := UR sig nD τ) (Lvl := ℕ) (cfgs := cfgs) (p := 1) winFacts₀1.arr_unscoped c (V3 m c)
    rw [Pipeline.unscopedBufs_held] at hsp
    have hsplit : (StableHlo.held (c : Thread nD τ) (Pipeline.ucRefs τ sig) (W3 m c) : sProp 𝕄)
        ⊢ iprop((pdats m 1 c).arrays ((pdats m 1 c).arrAt · 0) ∗ Pipeline.unscopedRest spec1 c (V3 m c)) := by
      rw [hsp]; exact BIClass.sep_mono (arrays1_in (V3 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    iintro ⟨Hp, -, Hr⟩
    iapply (hin1 (V3 m) c)
    unfold Pipeline.ΦA
    isplitl [Hr]; · iexact Hr
    iexact Hp
  hout c := by
    rw [Pipeline.ownSems0_none, show (pdats m 1 c).Φ (Fin.last _) = (dat1 (V3 m) c).Φ (Fin.last cfg1.N) from rfl]
    iintro H
    ihave H' := (hout1 (V3 m) c) $$ H
    unfold Pipeline.ΦA
    icases H' with ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (cfgs := cfgs) (p := 1) winFacts₀1.arr_unscoped c (V4 m c)
    rw [Pipeline.unscopedBufs_held] at hsp
    have hrest : (Pipeline.unscopedRest (Ix := Unit) (Name := ℕ) (U := UR sig nD τ) (Lvl := ℕ) spec1 c (V4 m c) : sProp 𝕄)
        = Pipeline.unscopedRest spec1 c (V3 m c) := by
      unfold Pipeline.unscopedRest
      exact bigSep_congr fun b hb => by
        rw [show V4 m c b = V3 m c b from W4_of_ne m c b fun e => (Finset.mem_sdiff.mp hb).2 (Finset.mem_image.mpr ⟨6, Finset.mem_univ _, e.symm⟩)]
    have hjoin : iprop((pdats m 1 c).arrays ((pdats m 1 c).arrAt · cfg1.N) ∗ Pipeline.unscopedRest (Ix := Unit) (Name := ℕ) (U := UR sig nD τ) (Lvl := ℕ) spec1 c (V3 m c))
        ⊢ (StableHlo.held (c : Thread nD τ) (Pipeline.ucRefs τ sig) (W4 m c) : sProp 𝕄) := by
      rw [hsp]
      exact BIClass.sep_mono (arrays1_out (V3 m) c (V4 m c) (W4_of_ne m c main_v5 (by decide)) (W4_of_ne m c main_arg1 (by decide))
            (W4_of_ne m c main_arg8 (by decide)) (W4_of_ne m c main_v6 (by decide)) (W4_v7 m c)) (Entails.of_eq hrest.symm)
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final state has the result array at `o7` and every argument array as launched. -/
theorem run_main : θ_run defs (onTc (τ := τ) (main (F := F))) ⟨m, fun _ => 0, ρ⟩ (fun r => ∀ c : Dev nD,
      r.2.mem ((c.tc : Thread nD τ).loc main_v7) = o7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v7 (by decide))).trans (W4_v7 m c),
        (h c _ (mem_uc main_arg0 (by decide))).trans (W4_main_arg0 m c),
        (h c _ (mem_uc main_arg1 (by decide))).trans (W4_main_arg1 m c),
        (h c _ (mem_uc main_arg2 (by decide))).trans (W4_main_arg2 m c),
        (h c _ (mem_uc main_arg3 (by decide))).trans (W4_main_arg3 m c),
        (h c _ (mem_uc main_arg4 (by decide))).trans (W4_main_arg4 m c),
        (h c _ (mem_uc main_arg5 (by decide))).trans (W4_main_arg5 m c),
        (h c _ (mem_uc main_arg6 (by decide))).trans (W4_main_arg6 m c),
        (h c _ (mem_uc main_arg7 (by decide))).trans (W4_main_arg7 m c),
        (h c _ (mem_uc main_arg8 (by decide))).trans (W4_main_arg8 m c),
        (h c _ (mem_uc main_arg9 (by decide))).trans (W4_main_arg9 m c)⟩)

end Cert.KernelIdeal.Hand

end
-- ==== Proof.Spec.lean ====
/-
  The function both programs compute, stated over plain coordinates: masked multi-head attention with a dense
  projection before and after. For a batch entry `β`, a sequence position `s`, a feature `e`:

    proj x W b β s e      = (Σ_k x β s k · W k e) + b e                          (Q, K, V from the three weights)
    score β h q k         = (Σ_{d<64} Q β q (h·64+d) · K β k (h·64+d)) · (1/8)   (16 heads of depth 64)
    masked β h q k        = ⊥ if the mask entry (β, q, k) is 0, else the score
    weight                = exp (masked − max over k), divided by its sum over k   (the row's softmax)
    headOut β q j         = Σ_k weight β (j/64) q k · V β k j                     (column j belongs to head j/64)
    out β q e             = (Σ_j headOut β q j · Wo j e) + bo e

  Every operation is the one of the extended reals the ideal instance gives the programs (`Ideal.exp`,
  `Ideal.div`, the lattice `max` folded from `⊥`), so a row whose every key is masked has the value those
  operations give it on both sides, and nothing here needs the entries to be finite.
-/
import Idealize.ShloMosaic.PureOps.Ideal

noncomputable section

namespace Cert.Attn

open Idealize.ShloMosaic
open scoped BigOperators

/-- An array of shape [2, 2048, n] over plain coordinates. -/
abbrev Arr3 (n : ℕ) : Type := Fin 2 → Fin 2048 → Fin n → EReal
/-- A square weight matrix and a bias vector. -/
abbrev Mat : Type := Fin 1024 → Fin 1024 → EReal
abbrev Vec1 : Type := Fin 1024 → EReal

/-- The scale 1/sqrt(64), exactly one eighth. -/
def c8 : EReal := ((1 / 8 : ℝ) : EReal)

/-- The dense projection `x · W + b`. -/
def proj (x : Arr3 1024) (W : Mat) (b : Vec1) : Arr3 1024 :=
  fun β s e => (∑ k : Fin 1024, x β s k * W k e) + b e

/-- Column `h·64 + d`: depth `d` of head `h`. -/
def col (h : Fin 16) (d : Fin 64) : Fin 1024 := ⟨h.val * 64 + d.val, by omega⟩

/-- The head a column belongs to. -/
def headOf (j : Fin 1024) : Fin 16 := ⟨j.val / 64, by omega⟩

/-- The scaled dot product of query row `q` and key row `k` in head `h`. -/
def score (Q K : Arr3 1024) (β : Fin 2) (h : Fin 16) (q k : Fin 2048) : EReal :=
  (∑ d : Fin 64, Q β q (col h d) * K β k (col h d)) * c8

/-- The score where the mask keeps the key, `⊥` where the mask entry is zero. -/
def masked (msk : Arr3 2048) (Q K : Arr3 1024) (β : Fin 2) (h : Fin 16) (q k : Fin 2048) : EReal :=
  if msk β q k = 0 then ⊥ else score Q K β h q k

/-- A row's maximum: `max` folded from `⊥`. -/
def rowMax (f : Fin 2048 → EReal) : EReal := (Finset.univ : Finset (Fin 2048)).fold max ⊥ f

/-- A row's unnormalised weights `exp (f k − max f)`. -/
def expRow (f : Fin 2048 → EReal) (k : Fin 2048) : EReal := Ideal.exp (f k - rowMax f)

/-- A row's softmax. -/
def softRow (f : Fin 2048 → EReal) (k : Fin 2048) : EReal := Ideal.div (expRow f k) (∑ k' : Fin 2048, expRow f k')

/-- The attention output before the last projection, column by column. -/
def headOut (msk : Arr3 2048) (Q K V : Arr3 1024) : Arr3 1024 :=
  fun β q j => ∑ k : Fin 2048, softRow (masked msk Q K β (headOf j) q) k * V β k j

/-- The whole function. -/
def out (x : Arr3 1024) (msk : Arr3 2048) (Wq : Mat) (bq : Vec1) (Wk : Mat) (bk : Vec1) (Wv : Mat) (bv : Vec1)
    (Wo : Mat) (bo : Vec1) : Arr3 1024 :=
  proj (headOut msk (proj x Wq bq) (proj x Wk bk) (proj x Wv bv)) Wo bo

end Cert.Attn

end
-- ==== Proof.Coords.lean ====
/-
  The programs' arrays read over plain coordinates: an array of shape [2, 2048, n], a [1024, 1024] matrix and a
  length-1024 vector as functions of their coordinates, and the specification's result laid back over the result
  array's index type.
-/
import proofs.«431443_j20203526160555_3_alg».proof.Proof.Spec
import Idealize.ShloMosaic.Lib.ValueIdx

noncomputable section

namespace Cert.Attn

open Idealize.ShloMosaic Idealize.ShloMosaic.ValueIdx

/-- An array of shape [2, 2048, n] over its three coordinates. -/
def arr3 {n : ℕ} (x : (⟨3, ![2, 2048, n]⟩ : Shape).Idx → EReal) : Arr3 n := fun β s k => x (ix3 β s k)
/-- A [1024, 1024] matrix over its two coordinates. -/
def mat (W : (⟨2, ![1024, 1024]⟩ : Shape).Idx → EReal) : Mat := fun k e => W (ix2 k e)
/-- A length-1024 vector over its coordinate. -/
def vec1 (b : (⟨1, ![1024]⟩ : Shape).Idx → EReal) : Vec1 := fun e => b (ix1 e)

/-- The specification's result as an array of shape [2, 2048, 1024]. -/
def outArr (x : (⟨3, ![2, 2048, 1024]⟩ : Shape).Idx → EReal) (msk : (⟨3, ![2, 2048, 2048]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (Wo : (⟨2, ![1024, 1024]⟩ : Shape).Idx → EReal) (bo : (⟨1, ![1024]⟩ : Shape).Idx → EReal) :
    (⟨3, ![2, 2048, 1024]⟩ : Shape).Idx → EReal :=
  fun i => out (arr3 x) (arr3 msk) (mat Wq) (vec1 bq) (mat Wk) (vec1 bk) (mat Wv) (vec1 bv) (mat Wo) (vec1 bo) (i 0) (i 1) (i 2)

theorem outArr_ix3 (x msk Wq bq Wk bk Wv bv Wo bo) (β : Fin 2) (s : Fin 2048) (e : Fin 1024) :
    outArr x msk Wq bq Wk bk Wv bv Wo bo (ix3 β s e)
      = out (arr3 x) (arr3 msk) (mat Wq) (vec1 bq) (mat Wk) (vec1 bk) (mat Wv) (vec1 bv) (mat Wo) (vec1 bo) β s e := rfl

end Cert.Attn

end
-- ==== Proof.Consts.lean ====
/- The float constants the two programs and the precondition spell, as the extended reals their bit patterns
   denote at the ideal instance, and the four comparisons the programs make on a mask entry that is 0 or 1.
   Stated once here so that the other modules read them and unfold neither the pattern decoder nor the
   comparison. -/
import Idealize.ShloMosaic.PureOps.Ideal

noncomputable section

namespace Cert.Consts

open Idealize.ShloMosaic

/-- The pattern of `+0.0` denotes `0`. -/
theorem ofBits_zero : Ideal.ofBits .f32 0x00000000#32 = 0 := by
  simp [Ideal.ofBits, Ideal.ieee]

/-- The pattern of `1.0` (exponent field 127, fraction 0) denotes `1`. -/
theorem ofBits_one : Ideal.ofBits .f32 0x3F800000#32 = 1 := by
  simp [Ideal.ofBits, Ideal.ieee, -EReal.coe_mul]; norm_num

/-- The pattern of `0.5` (exponent field 126, fraction 0) denotes `1/2`. -/
theorem ofBits_half : Ideal.ofBits .f32 0x3F000000#32 = ((1/2 : ℝ) : EReal) := by
  simp [Ideal.ofBits, Ideal.ieee, -EReal.coe_mul]; norm_num

/-- The pattern of `0.125` (exponent field 124, fraction 0) denotes `1/8`. -/
theorem ofBits_eighth : Ideal.ofBits .f32 0x3E000000#32 = ((1/8 : ℝ) : EReal) := by
  simp [Ideal.ofBits, Ideal.ieee, -EReal.coe_mul]; norm_num

/-- The pattern of `8.0` (exponent field 130, fraction 0) denotes `8`. -/
theorem ofBits_eight : Ideal.ofBits .f32 0x41000000#32 = ((8 : ℝ) : EReal) := by
  simp [Ideal.ofBits, Ideal.ieee, -EReal.coe_mul]; norm_num

/-- The pattern of `-inf` (sign set, exponent field all ones, fraction 0) denotes `⊥`. -/
theorem ofBits_neg_inf : Ideal.ofBits .f32 0xFF800000#32 = ⊥ := by
  simp [Ideal.ofBits, Ideal.ieee]

/-- `0 ≥ 1/2` is false. -/
theorem cmp_oge_half_zero : Ideal.cmp .oge (0 : EReal) ((1/2 : ℝ) : EReal) = 0#1 := by
  have h : ¬ (((1/2 : ℝ) : EReal) ≤ 0) := by
    rw [← EReal.coe_zero, EReal.coe_le_coe_iff]; norm_num
  simp only [Ideal.cmp, decide_eq_false h]; rfl

/-- `1 ≥ 1/2` is true. -/
theorem cmp_oge_half_one : Ideal.cmp .oge (1 : EReal) ((1/2 : ℝ) : EReal) = 1#1 := by
  have h : ((1/2 : ℝ) : EReal) ≤ 1 := by
    rw [← EReal.coe_one, EReal.coe_le_coe_iff]; norm_num
  simp only [Ideal.cmp, decide_eq_true h]; rfl

/-- `0 = 0` is true. -/
theorem cmp_oeq_zero_zero : Ideal.cmp .oeq (0 : EReal) 0 = 1#1 := by
  simp [Ideal.cmp]

/-- `1 = 0` is false. -/
theorem cmp_oeq_one_zero : Ideal.cmp .oeq (1 : EReal) 0 = 0#1 := by
  simp [Ideal.cmp]

end Cert.Consts

end
-- ==== Proof.RefValue.lean ====
/-
  The reference program read at an index, stage by stage, against the specification.

  The program computes three dense projections `x · W + b`, lays each out by heads (feature `j` of a row becomes
  depth `j % 64` of head `j / 64`), takes the dot products of query and key rows within a head and divides by `8`,
  replaces a score by `⊥` where the mask entry is zero, normalises each row by `exp (· − max)` over its sum, takes
  the weighted sum of the value rows, lays the heads back side by side and applies the last projection. Each stage
  is an identity on the extended reals: division by `8` is the product with one eighth, the maximum folded from
  `⊥` and taken once more with `⊥` is the row's maximum, a sum started from `0` is the sum. The index equations say
  which coordinates each layout step reads: `((β·2048 + s)·16 + h)·64 + d = (β·2048 + s)·1024 + (h·64 + d)`.
-/
import proofs.«431443_j20203526160555_3_alg».proof.Proof.Gen.ReferenceIdeal.Read
import proofs.«431443_j20203526160555_3_alg».proof.Proof.Spec
import proofs.«431443_j20203526160555_3_alg».proof.Proof.Coords
import proofs.«431443_j20203526160555_3_alg».proof.Proof.Consts
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Read Cert.Attn Cert.Consts Idealize.ShloMosaic Idealize.ShloMosaic.ValueIdx
open scoped BigOperators

/-! ## The dense projections -/

/-- The first projection at `(β, s, e)`: the sum over the features plus the bias. -/
theorem v3_ix3 (x0 : (⟨S2x2048x1024, .f32⟩ : BufTy).Contents (Elt Ideal)) (W : (⟨S1024x1024, .f32⟩ : BufTy).Contents (Elt Ideal))
    (b : (⟨S1024, .f32⟩ : BufTy).Contents (Elt Ideal)) (β : Fin 2) (s : Fin 2048) (e : Fin 1024) :
    val_main_v3 (F := Ideal) x0 W b (ix3 β s e) = proj (arr3 x0) (mat W) (vec1 b) β s e := by
  rw [val_main_v3_apply, val_main_v0_apply, val_main_v2_apply, val_main_v1_apply]
  have hl : ∀ k : Fin 1024, lidx_main_v0 (ix3 β s e) k = ix3 β s k := fun k =>
    funext fun a => match a with | ⟨0, _⟩ => rfl | ⟨1, _⟩ => rfl | ⟨2, _⟩ => rfl
  have hr : ∀ k : Fin 1024, ridx_main_v0 (ix3 β s e) k = ix2 k e := fun k =>
    funext fun a => match a with | ⟨0, _⟩ => rfl | ⟨1, _⟩ => rfl
  have hb : idx_main_v1 (idx_main_v2 (ix3 β s e)) = ix1 e :=
    funext fun a => match a with | ⟨0, _⟩ => rfl
  simp only [hl, hr, hb]
  rfl

/-! ## Heads: the reshape and transpose that split a feature into (head, depth) -/

/-- The projected rows laid out by heads: entry `(β, h, s, d)` is the projection at `(β, s, h·64+d)`. -/
theorem v5_ix4 (x0 : (⟨S2x2048x1024, .f32⟩ : BufTy).Contents (Elt Ideal)) (W : (⟨S1024x1024, .f32⟩ : BufTy).Contents (Elt Ideal))
    (b : (⟨S1024, .f32⟩ : BufTy).Contents (Elt Ideal)) (β : Fin 2) (h : Fin 16) (s : Fin 2048) (d : Fin 64) :
    val_main_v5 (F := Ideal) x0 W b (ix4 β h s d) = proj (arr3 x0) (mat W) (vec1 b) β s (col h d) := by
  rw [val_main_v5_apply, val_main_v4_apply]
  have hi : idx_main_v4 (idx_main_v5 (ix4 β h s d)) = ix3 β s (col h d) := by
    have h0 : β.val < 2 := β.isLt
    have h1 : s.val < 2048 := s.isLt
    have h2 : h.val < 16 := h.isLt
    have h3 : d.val < 64 := d.isLt
    funext a
    match a with
    | ⟨0, _⟩ => exact Fin.ext (by show (((β.val * 2048 + s.val) * 16 + h.val) * 64 + d.val) / 2097152 = β.val; omega)
    | ⟨1, _⟩ => exact Fin.ext (by show (((β.val * 2048 + s.val) * 16 + h.val) * 64 + d.val) / 1024 % 2048 = s.val; omega)
    | ⟨2, _⟩ => exact Fin.ext (by show (((β.val * 2048 + s.val) * 16 + h.val) * 64 + d.val) % 1024 = h.val * 64 + d.val; omega)
  rw [hi, v3_ix3]

/-- The second and third projections are the first one's term at their own weights. -/
theorem v11_eq (x0 : (⟨S2x2048x1024, .f32⟩ : BufTy).Contents (Elt Ideal)) (W : (⟨S1024x1024, .f32⟩ : BufTy).Contents (Elt Ideal))
    (b : (⟨S1024, .f32⟩ : BufTy).Contents (Elt Ideal)) : val_main_v11 (F := Ideal) x0 W b = val_main_v5 (F := Ideal) x0 W b := rfl
theorem v17_eq (x0 : (⟨S2x2048x1024, .f32⟩ : BufTy).Contents (Elt Ideal)) (W : (⟨S1024x1024, .f32⟩ : BufTy).Contents (Elt Ideal))
    (b : (⟨S1024, .f32⟩ : BufTy).Contents (Elt Ideal)) : val_main_v17 (F := Ideal) x0 W b = val_main_v5 (F := Ideal) x0 W b := rfl

/-! ## Scores -/

section Stages
variable (x0 : (⟨S2x2048x1024, .f32⟩ : BufTy).Contents (Elt Ideal)) (x1 : (⟨S2x2048x2048, .f32⟩ : BufTy).Contents (Elt Ideal))
  (x2 : (⟨S1024x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S1024, .f32⟩ : BufTy).Contents (Elt Ideal))
  (x8 : (⟨S1024x1024, .f32⟩ : BufTy).Contents (Elt Ideal)) (x9 : (⟨S1024, .f32⟩ : BufTy).Contents (Elt Ideal))

/-- The three projections of the specification, named. -/
abbrev Qs : Arr3 1024 := proj (arr3 x0) (mat x2) (vec1 x3)
abbrev Ks : Arr3 1024 := proj (arr3 x0) (mat x4) (vec1 x5)
abbrev Vs : Arr3 1024 := proj (arr3 x0) (mat x6) (vec1 x7)

/-- The scaled dot product at `(β, h, q, k)`: the quotient by `8` is the product with one eighth. -/
theorem v20_ix4 (β : Fin 2) (h : Fin 16) (q k : Fin 2048) :
    val_main_v20 (F := Ideal) x0 x2 x3 x4 x5 (ix4 β h q k) = score (Qs x0 x2 x3) (Ks x0 x4 x5) β h q k := by
  rw [val_main_v20_apply, val_main_v18_apply, val_main_v19_apply, val_main_cst_apply, Ideal.hostDivf_def, Ideal.ofBits_def,
    ofBits_eight, Ideal.div_coe (by norm_num)]
  have hl : ∀ d : Fin 64, lidx_main_v18 (ix4 β h q k) d = ix4 β h q d := fun d =>
    funext fun a => match a with | ⟨0, _⟩ => rfl | ⟨1, _⟩ => rfl | ⟨2, _⟩ => rfl | ⟨3, _⟩ => rfl
  have hr : ∀ d : Fin 64, ridx_main_v18 (ix4 β h q k) d = ix4 β h k d := fun d =>
    funext fun a => match a with | ⟨0, _⟩ => rfl | ⟨1, _⟩ => rfl | ⟨2, _⟩ => rfl | ⟨3, _⟩ => rfl
  simp only [hl, hr, v11_eq, v5_ix4]
  rfl

end Stages

/-! ## The mask -/

section Stages
variable (x0 : (⟨S2x2048x1024, .f32⟩ : BufTy).Contents (Elt Ideal)) (x1 : (⟨S2x2048x2048, .f32⟩ : BufTy).Contents (Elt Ideal))
  (x2 : (⟨S1024x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S1024, .f32⟩ : BufTy).Contents (Elt Ideal))
  (x8 : (⟨S1024x1024, .f32⟩ : BufTy).Contents (Elt Ideal)) (x9 : (⟨S1024, .f32⟩ : BufTy).Contents (Elt Ideal))

/-- The masked score at `(β, h, q, k)`: `⊥` where the mask entry `(β, q, k)` equals zero, the score elsewhere. -/
theorem v24_ix4 (β : Fin 2) (h : Fin 16) (q k : Fin 2048) :
    val_main_v24 (F := Ideal) x0 x1 x2 x3 x4 x5 (ix4 β h q k)
      = masked (arr3 x1) (Qs x0 x2 x3) (Ks x0 x4 x5) β h q k := by
  rw [val_main_v24_apply, val_main_call0_v1_apply, val_main_v23_apply, val_main_v21_apply, val_main_v22_apply,
    val_main_cst_0_apply, val_main_call0_v2_apply, val_main_call0_v0_apply, val_main_cst_1_apply, v20_ix4,
    Ideal.ofBits_def, Ideal.ofBits_def, ofBits_zero, ofBits_neg_inf, Ideal.cmpf_def]
  have hm : idx_main_v21 (idx_main_call0_v1 (ix4 β h q k)) = ix3 β q k :=
    funext fun a => match a with | ⟨0, _⟩ => rfl | ⟨1, _⟩ => rfl | ⟨2, _⟩ => rfl
  rw [hm]
  unfold masked
  show Scalar.select (Ideal.cmp .oeq (arr3 x1 β q k) 0) ⊥ _ = _
  by_cases hz : arr3 x1 β q k = 0
  · rw [if_pos hz, hz, cmp_oeq_zero_zero]
    exact select_one _ _
  · rw [if_neg hz]
    have hc : Ideal.cmp .oeq (arr3 x1 β q k) 0 = BitVec.ofBool (decide (arr3 x1 β q k = 0)) := rfl
    rw [hc, decide_eq_false hz]
    exact select_zero _ _

end Stages

/-! ## The row maximum -/

/-- The key axis of the score array is its last one: the witness that names the reduced index's sources. -/
theorem red3 : S2x16x2048x2048.Reduces [3] S2x16x2048 := by decide

/-- The source index over `(β, h, q)` with key `k` inserted is `(β, h, q, k)`. -/
theorem lift_ix3 (β : Fin 2) (h : Fin 16) (q k : Fin 2048) : red3.lift (ix3 β h q) k = ix4 β h q k :=
  funext fun a => match a with
    | ⟨0, _⟩ => Fin.ext rfl | ⟨1, _⟩ => Fin.ext rfl | ⟨2, _⟩ => Fin.ext rfl | ⟨3, _⟩ => Fin.ext rfl

section Stages
variable (x0 : (⟨S2x2048x1024, .f32⟩ : BufTy).Contents (Elt Ideal)) (x1 : (⟨S2x2048x2048, .f32⟩ : BufTy).Contents (Elt Ideal))
  (x2 : (⟨S1024x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S1024, .f32⟩ : BufTy).Contents (Elt Ideal))
  (x8 : (⟨S1024x1024, .f32⟩ : BufTy).Contents (Elt Ideal)) (x9 : (⟨S1024, .f32⟩ : BufTy).Contents (Elt Ideal))

/-- The masked row of query `q` in head `h`. -/
abbrev row (β : Fin 2) (h : Fin 16) (q : Fin 2048) : Fin 2048 → EReal :=
  masked (arr3 x1) (Qs x0 x2 x3) (Ks x0 x4 x5) β h q

/-- The reduction with `max` from `⊥` over the keys is the row's maximum. -/
theorem v25_ix3 (β : Fin 2) (h : Fin 16) (q : Fin 2048) :
    val_main_v25 (F := Ideal) x0 x1 x2 x3 x4 x5 (ix3 β h q) = rowMax (row x0 x1 x2 x3 x4 x5 β h q) := by
  unfold val_main_v25
  rw [Host.reduce_eq_fold_single FloatOps.maximumf _ _ Facts₀.reducesTo_S2x16x2048x2048_S2x16x2048_d3 red3 Facts₀.h_S_,
    val_main_cst_2_apply, Ideal.ofBits_def, ofBits_neg_inf]
  have hf : (val_main_v24 (F := Ideal) x0 x1 x2 x3 x4 x5 ∘ red3.lift (ix3 β h q)) = row x0 x1 x2 x3 x4 x5 β h q :=
    funext fun (k : Fin 2048) => by
      show val_main_v24 (F := Ideal) x0 x1 x2 x3 x4 x5 (red3.lift (ix3 β h q) k) = _
      rw [lift_ix3, v24_ix4]
  rw [hf]
  rfl

/-- The second maximum, with a broadcast `⊥`, changes nothing. -/
theorem v27_ix3 (β : Fin 2) (h : Fin 16) (q : Fin 2048) :
    val_main_v27 (F := Ideal) x0 x1 x2 x3 x4 x5 (ix3 β h q) = rowMax (row x0 x1 x2 x3 x4 x5 β h q) := by
  rw [val_main_v27_apply, val_main_v26_apply, val_main_cst_3_apply, v25_ix3, Ideal.ofBits_def, ofBits_neg_inf,
    Ideal.maximumf_def]
  exact max_eq_right bot_le

end Stages

/-! ## The softmax of a row -/

section Stages
variable (x0 : (⟨S2x2048x1024, .f32⟩ : BufTy).Contents (Elt Ideal)) (x1 : (⟨S2x2048x2048, .f32⟩ : BufTy).Contents (Elt Ideal))
  (x2 : (⟨S1024x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S1024, .f32⟩ : BufTy).Contents (Elt Ideal))
  (x8 : (⟨S1024x1024, .f32⟩ : BufTy).Contents (Elt Ideal)) (x9 : (⟨S1024, .f32⟩ : BufTy).Contents (Elt Ideal))

/-- The exponential of the masked score less its row's maximum. -/
theorem v31_ix4 (β : Fin 2) (h : Fin 16) (q k : Fin 2048) :
    val_main_v31 (F := Ideal) x0 x1 x2 x3 x4 x5 (ix4 β h q k) = expRow (row x0 x1 x2 x3 x4 x5 β h q) k := by
  rw [val_main_v31_apply, val_main_v30_apply, val_main_v29_apply, val_main_v28_apply, v24_ix4]
  have hi : idx_main_v28 (idx_main_v29 (ix4 β h q k)) = ix3 β h q :=
    funext fun a => match a with | ⟨0, _⟩ => rfl | ⟨1, _⟩ => rfl | ⟨2, _⟩ => rfl
  rw [hi, v27_ix3, Ideal.hostUnary_exp_def, Ideal.subf_def]
  rfl

/-- The sum from `0` over the keys is the row's normaliser. -/
theorem v32_ix3 (β : Fin 2) (h : Fin 16) (q : Fin 2048) :
    val_main_v32 (F := Ideal) x0 x1 x2 x3 x4 x5 (ix3 β h q) = ∑ k : Fin 2048, expRow (row x0 x1 x2 x3 x4 x5 β h q) k := by
  rw [val_main_v32_apply, val_main_cst_4_apply, Ideal.ofBits_def, ofBits_zero, zero_add]
  refine Finset.sum_congr rfl fun k _ => ?_
  have hi : idx_main_v32 (ix3 β h q) k = ix4 β h q k :=
    funext fun a => match a with | ⟨0, _⟩ => rfl | ⟨1, _⟩ => rfl | ⟨2, _⟩ => rfl | ⟨3, _⟩ => rfl
  rw [hi, v31_ix4]

/-- The attention weight at `(β, h, q, k)`. -/
theorem v35_ix4 (β : Fin 2) (h : Fin 16) (q k : Fin 2048) :
    val_main_v35 (F := Ideal) x0 x1 x2 x3 x4 x5 (ix4 β h q k) = softRow (row x0 x1 x2 x3 x4 x5 β h q) k := by
  rw [val_main_v35_apply, val_main_v34_apply, val_main_v33_apply, v31_ix4]
  have hi : idx_main_v33 (idx_main_v34 (ix4 β h q k)) = ix3 β h q :=
    funext fun a => match a with | ⟨0, _⟩ => rfl | ⟨1, _⟩ => rfl | ⟨2, _⟩ => rfl
  rw [hi, v32_ix3, Ideal.hostDivf_def]
  rfl

end Stages

/-! ## The heads' outputs and the last projection -/

/-- Column `h·64+d` belongs to head `h`. -/
theorem headOf_col (h : Fin 16) (d : Fin 64) : headOf (col h d) = h :=
  Fin.ext (by have := h.isLt; have := d.isLt; show (h.val * 64 + d.val) / 64 = h.val; omega)

/-- A column is its head's column at its depth. -/
theorem col_headOf (j : Fin 1024) : col (headOf j) ⟨j.val % 64, Nat.mod_lt _ (by decide)⟩ = j :=
  Fin.ext (by have := j.isLt; show j.val / 64 * 64 + j.val % 64 = j.val; omega)

section Stages
variable (x0 : (⟨S2x2048x1024, .f32⟩ : BufTy).Contents (Elt Ideal)) (x1 : (⟨S2x2048x2048, .f32⟩ : BufTy).Contents (Elt Ideal))
  (x2 : (⟨S1024x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S1024, .f32⟩ : BufTy).Contents (Elt Ideal))
  (x8 : (⟨S1024x1024, .f32⟩ : BufTy).Contents (Elt Ideal)) (x9 : (⟨S1024, .f32⟩ : BufTy).Contents (Elt Ideal))

/-- The weighted sum of the values at `(β, h, q, d)` is the head output's column `h·64+d`. -/
theorem v36_ix4 (β : Fin 2) (h : Fin 16) (q : Fin 2048) (d : Fin 64) :
    val_main_v36 (F := Ideal) x0 x1 x2 x3 x4 x5 x6 x7 (ix4 β h q d)
      = headOut (arr3 x1) (Qs x0 x2 x3) (Ks x0 x4 x5) (Vs x0 x6 x7) β q (col h d) := by
  rw [val_main_v36_apply]
  unfold headOut
  rw [headOf_col]
  refine Finset.sum_congr rfl fun k _ => ?_
  have hl : lidx_main_v36 (ix4 β h q d) k = ix4 β h q k :=
    funext fun a => match a with | ⟨0, _⟩ => rfl | ⟨1, _⟩ => rfl | ⟨2, _⟩ => rfl | ⟨3, _⟩ => rfl
  have hr : ridx_main_v36 (ix4 β h q d) k = ix4 β h k d :=
    funext fun a => match a with | ⟨0, _⟩ => rfl | ⟨1, _⟩ => rfl | ⟨2, _⟩ => rfl | ⟨3, _⟩ => rfl
  rw [hl, hr, v35_ix4, v17_eq, v5_ix4]

/-- Transposed and reshaped back, entry `(β, q, j)` is the head output's column `j`. -/
theorem v38_ix3 (β : Fin 2) (q : Fin 2048) (j : Fin 1024) :
    val_main_v38 (F := Ideal) x0 x1 x2 x3 x4 x5 x6 x7 (ix3 β q j)
      = headOut (arr3 x1) (Qs x0 x2 x3) (Ks x0 x4 x5) (Vs x0 x6 x7) β q j := by
  rw [val_main_v38_apply, val_main_v37_apply]
  have hi : idx_main_v37 (idx_main_v38 (ix3 β q j)) = ix4 β (headOf j) q ⟨j.val % 64, Nat.mod_lt _ (by decide)⟩ := by
    have h0 : β.val < 2 := β.isLt
    have h1 : q.val < 2048 := q.isLt
    have h2 : j.val < 1024 := j.isLt
    funext a
    match a with
    | ⟨0, _⟩ => exact Fin.ext (by show ((β.val * 2048 + q.val) * 1024 + j.val) / 2097152 = β.val; omega)
    | ⟨1, _⟩ => exact Fin.ext (by show ((β.val * 2048 + q.val) * 1024 + j.val) / 64 % 16 = j.val / 64; omega)
    | ⟨2, _⟩ => exact Fin.ext (by show ((β.val * 2048 + q.val) * 1024 + j.val) / 1024 % 2048 = q.val; omega)
    | ⟨3, _⟩ => exact Fin.ext (by show ((β.val * 2048 + q.val) * 1024 + j.val) % 64 = j.val % 64; omega)
  rw [hi, v36_ix4, col_headOf]

/-- The whole reference at `(β, s, e)`. -/
theorem v42_ix3 (β : Fin 2) (s : Fin 2048) (e : Fin 1024) :
    val_main_v42 (F := Ideal) x0 x1 x2 x3 x4 x5 x6 x7 x8 x9 (ix3 β s e)
      = out (arr3 x0) (arr3 x1) (mat x2) (vec1 x3) (mat x4) (vec1 x5) (mat x6) (vec1 x7) (mat x8) (vec1 x9) β s e := by
  rw [val_main_v42_apply, val_main_v39_apply, val_main_v41_apply, val_main_v40_apply]
  have hl : ∀ k : Fin 1024, lidx_main_v39 (ix3 β s e) k = ix3 β s k := fun k =>
    funext fun a => match a with | ⟨0, _⟩ => rfl | ⟨1, _⟩ => rfl | ⟨2, _⟩ => rfl
  have hr : ∀ k : Fin 1024, ridx_main_v39 (ix3 β s e) k = ix2 k e := fun k =>
    funext fun a => match a with | ⟨0, _⟩ => rfl | ⟨1, _⟩ => rfl
  have hb : idx_main_v40 (idx_main_v41 (ix3 β s e)) = ix1 e :=
    funext fun a => match a with | ⟨0, _⟩ => rfl
  simp only [hl, hr, hb, v38_ix3]
  rfl

end Stages

/-- The reference's result is the specification's, laid over the result array's indices. -/
theorem ref_out (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v42 (F := Ideal) m c
      = Cert.Attn.outArr
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9)) := by
  rw [val_main_v42_eq]
  funext i
  obtain ⟨β, s, e, rfl⟩ : ∃ β s e, i = ix3 β s e := ⟨i 0, i 1, i 2, eq_ix3 i⟩
  rw [v42_ix3]
  rfl

end Cert.ReferenceIdeal.RefValue

end
-- ==== Proof.LibHostLine.lean ====
/-
  Three facts about a straight line of host operations, general in the program.

  `after_app`: the buffer contents after two lines run one after the other are the second line's fold over the
  first's.  `nary3_result'`: an operation over a LITERAL family of three references (a concatenate of three
  operands) leaves in its result buffer its function of the three operands' contents, each read at its own reference, so
  that the rewriting of results can go on inside them.  `hlo_results` is the one simplifier pass that reads every
  operation of a literal list at a literal reference: at its own result the function's value, at any other reference what
  was there before.
-/
import Idealize.ShloMosaic.Lib.StableHlo.Run

namespace Idealize.ShloMosaic.StableHlo

open Idealize.ShloMosaic Idealize.SL.Sem

variable {nD : Nat} {τ : Topo} {sig : RefSig} {Val : EltTy → Type}

/-- Two lines in a row: the second folds over what the first left. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

variable {x a b y : Ref sig .tc}

/-- A three-operand operation's result, each operand's contents at its own reference. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Reads every operation of a literal list at a literal reference, in one pass. -/
macro "hlo_results" : tactic =>
  `(tactic| (simp (disch := decide) only [after_cons, after_nil,
      nullary_result', unary_result', binary_result', ternary_result', quaternary_result', reshape_result', nary4_result', nary3_result',
      nullary_result_ne', unary_result_ne', binary_result_ne', ternary_result_ne', quaternary_result_ne', reshape_result_ne',
      nary_result_ne']))

end Idealize.ShloMosaic.StableHlo
-- ==== Proof.KVal_Host.lean ====
/-
  The host lines of the kernel's program read at an index: the flattened input, the three weights side by side, the
  three biases end to end as one row, what the first region leaves re-shaped to [2, 2048, 3072], the last bias as a
  row; and the arrays the host lines leave alone.
-/
import proofs.«431443_j20203526160555_3_alg».proof.Proof.KI_Run
import proofs.«431443_j20203526160555_3_alg».proof.Proof.LibHostLine
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.ShloMosaic.StableHlo Idealize.ShloMosaic.ValueIdx
open Idealize.SL Idealize.SL.Sem
open Cert.KernelIdeal Cert.KernelIdeal.Gen Cert.KernelIdeal.Hand

variable (m : (ℓ : Loc nD τ sig) → Buf (Elt Ideal) ℓ)

/-- The arguments by name. -/
abbrev argX (c : Dev nD) : S2x2048x1024.Idx → EReal := m ((c : Thread nD τ).loc main_arg0)
abbrev argM (c : Dev nD) : S2x2048x2048.Idx → EReal := m ((c : Thread nD τ).loc main_arg1)
abbrev argWq (c : Dev nD) : S1024x1024.Idx → EReal := m ((c : Thread nD τ).loc main_arg2)
abbrev argBq (c : Dev nD) : S1024.Idx → EReal := m ((c : Thread nD τ).loc main_arg3)
abbrev argWk (c : Dev nD) : S1024x1024.Idx → EReal := m ((c : Thread nD τ).loc main_arg4)
abbrev argBk (c : Dev nD) : S1024.Idx → EReal := m ((c : Thread nD τ).loc main_arg5)
abbrev argWv (c : Dev nD) : S1024x1024.Idx → EReal := m ((c : Thread nD τ).loc main_arg6)
abbrev argBv (c : Dev nD) : S1024.Idx → EReal := m ((c : Thread nD τ).loc main_arg7)
abbrev argWo (c : Dev nD) : S1024x1024.Idx → EReal := m ((c : Thread nD τ).loc main_arg8)
abbrev argBo (c : Dev nD) : S1024.Idx → EReal := m ((c : Thread nD τ).loc main_arg9)

theorem V1_v0_apply (c : Dev nD) (β : Fin 2) (s : Fin 2048) (k : Fin 1024) :
    (Hand.V1 (F := Ideal) m c main_v0 : S4096x1024.Idx → EReal) (ix2 (⟨β.val * 2048 + s.val, by omega⟩ : Fin 4096) k) = argX m c (ix3 β s k) := by
  show StableHlo.after hostOps0 (fun b => m (c, b)) (Proc.devRef .tc main_v0) _ = _
  hlo_results
  refine shapeCast_apply _ _ _ (ix3 β s k) ?_
  refine (Shape.rowMajor_val_three _).trans (Eq.trans ?_ (Shape.rowMajor_val_two (d := ![4096, 1024]) _).symm)
  rfl

theorem V1_v1_apply (c : Dev nD) (k : Fin 1024) (j : Fin 3072) :
    (Hand.V1 (F := Ideal) m c main_v1 : S1024x3072.Idx → EReal) (ix2 k j)
      = if h1 : j.val < 1024 then argWq m c (ix2 k ⟨j.val, h1⟩)
        else if h2 : j.val < 2048 then argWk m c (ix2 k ⟨j.val - 1024, by omega⟩)
        else argWv m c (ix2 k ⟨j.val - 2048, by omega⟩) := by
  show StableHlo.after hostOps0 (fun b => m (c, b)) (Proc.devRef .tc main_v1) _ = _
  hlo_results
  by_cases h1 : j.val < 1024
  · rw [dif_pos h1]
    exact concatenate_apply_piece _ _ _ (ix2 k j) 0 (by show (0 : ℕ) < 3; omega) S1024x1024 _ rfl rfl 0 rfl (ix2 k ⟨j.val, h1⟩)
      (fun b hb => match b with | ⟨0, _⟩ => rfl | ⟨1, _⟩ => absurd rfl hb)
      (by show 0 + j.val = j.val; omega)
  · rw [dif_neg h1]
    by_cases h2 : j.val < 2048
    · rw [dif_pos h2]
      exact concatenate_apply_piece _ _ _ (ix2 k j) 1 (by show (1 : ℕ) < 3; omega) S1024x1024 _ rfl rfl 1024 rfl (ix2 k ⟨j.val - 1024, by omega⟩)
        (fun b hb => match b with | ⟨0, _⟩ => rfl | ⟨1, _⟩ => absurd rfl hb)
        (by show 1024 + (j.val - 1024) = j.val; omega)
    · rw [dif_neg h2]
      exact concatenate_apply_piece _ _ _ (ix2 k j) 2 (by show (2 : ℕ) < 3; omega) S1024x1024 _ rfl rfl 2048 rfl (ix2 k ⟨j.val - 2048, by omega⟩)
        (fun b hb => match b with | ⟨0, _⟩ => rfl | ⟨1, _⟩ => absurd rfl hb)
        (by show 2048 + (j.val - 2048) = j.val; omega)

theorem V1_v3_apply (c : Dev nD) (j : Fin 3072) :
    (Hand.V1 (F := Ideal) m c main_v3 : S1x3072.Idx → EReal) (ix2 (0 : Fin 1) j)
      = if h1 : j.val < 1024 then argBq m c (ix1 ⟨j.val, h1⟩)
        else if h2 : j.val < 2048 then argBk m c (ix1 ⟨j.val - 1024, by omega⟩)
        else argBv m c (ix1 ⟨j.val - 2048, by omega⟩) := by
  show StableHlo.after hostOps0 (fun b => m (c, b)) (Proc.devRef .tc main_v3) _ = _
  hlo_results
  refine (shapeCast_apply _ _ _ (ix1 j)
    ((Shape.rowMajor_val_one _).trans (Eq.trans (by show j.val = 0 * 3072 + j.val; omega) (Shape.rowMajor_val_two (d := ![1, 3072]) _).symm))).trans ?_
  by_cases h1 : j.val < 1024
  · rw [dif_pos h1]
    exact concatenate_apply_piece _ _ _ (ix1 j) 0 (by show (0 : ℕ) < 3; omega) S1024 _ rfl rfl 0 rfl (ix1 ⟨j.val, h1⟩)
      (fun b hb => match b with | ⟨0, _⟩ => absurd rfl hb)
      (by show 0 + j.val = j.val; omega)
  · rw [dif_neg h1]
    by_cases h2 : j.val < 2048
    · rw [dif_pos h2]
      exact concatenate_apply_piece _ _ _ (ix1 j) 1 (by show (1 : ℕ) < 3; omega) S1024 _ rfl rfl 1024 rfl (ix1 ⟨j.val - 1024, by omega⟩)
        (fun b hb => match b with | ⟨0, _⟩ => absurd rfl hb)
        (by show 1024 + (j.val - 1024) = j.val; omega)
    · rw [dif_neg h2]
      exact concatenate_apply_piece _ _ _ (ix1 j) 2 (by show (2 : ℕ) < 3; omega) S1024 _ rfl rfl 2048 rfl (ix1 ⟨j.val - 2048, by omega⟩)
        (fun b hb => match b with | ⟨0, _⟩ => absurd rfl hb)
        (by show 2048 + (j.val - 2048) = j.val; omega)

theorem V3_v5_apply (c : Dev nD) (β : Fin 2) (s : Fin 2048) (j : Fin 3072) :
    (Hand.V3 (F := Ideal) m c main_v5 : S2x2048x3072.Idx → EReal) (ix3 β s j)
      = (Hand.o4 (F := Ideal) m c : S4096x3072.Idx → EReal) (ix2 (⟨β.val * 2048 + s.val, by omega⟩ : Fin 4096) j) := by
  show StableHlo.after hostOps1 (W2 m c) (Proc.devRef .tc main_v5) _ = _
  hlo_results
  refine (shapeCast_apply _ _ _ (ix2 (⟨β.val * 2048 + s.val, by omega⟩ : Fin 4096) j) ?_).trans (congrFun (W2_v4 m c) _)
  refine (Shape.rowMajor_val_two (d := ![4096, 3072]) _).trans (Eq.trans ?_ (Shape.rowMajor_val_three (d := ![2, 2048, 3072]) _).symm)
  rfl

theorem V3_v6_apply (c : Dev nD) (e : Fin 1024) :
    (Hand.V3 (F := Ideal) m c main_v6 : S1x1024.Idx → EReal) (ix2 (0 : Fin 1) e) = argBo m c (ix1 e) := by
  show StableHlo.after hostOps1 (W2 m c) (Proc.devRef .tc main_v6) _ = _
  hlo_results
  refine (shapeCast_apply _ _ _ (ix1 e)
    ((Shape.rowMajor_val_one _).trans (Eq.trans (by show e.val = 0 * 1024 + e.val; omega) (Shape.rowMajor_val_two (d := ![1, 1024]) _).symm))).trans ?_
  exact congrFun ((W2_of_ne m c main_arg9 (by decide)).trans
    ((StableHlo.after_of_writes_sub hostOps0 _ hostOps0_writes (by decide)).trans rfl)) _

theorem V3_arg1 (c : Dev nD) : (Hand.V3 (F := Ideal) m c main_arg1 : S2x2048x2048.Idx → EReal) = argM m c := by
  show StableHlo.after hostOps1 (W2 m c) (Proc.devRef .tc main_arg1) = _
  exact (StableHlo.after_of_writes_sub hostOps1 _ hostOps1_writes (by decide)).trans
    ((W2_of_ne m c main_arg1 (by decide)).trans ((StableHlo.after_of_writes_sub hostOps0 _ hostOps0_writes (by decide)).trans rfl))

theorem V3_arg8 (c : Dev nD) : (Hand.V3 (F := Ideal) m c main_arg8 : S1024x1024.Idx → EReal) = argWo m c := by
  show StableHlo.after hostOps1 (W2 m c) (Proc.devRef .tc main_arg8) = _
  exact (StableHlo.after_of_writes_sub hostOps1 _ hostOps1_writes (by decide)).trans
    ((W2_of_ne m c main_arg8 (by decide)).trans ((StableHlo.after_of_writes_sub hostOps0 _ hostOps0_writes (by decide)).trans rfl))

end Cert.KernelIdeal.Val

end
-- ==== Proof.KVal_Reg0Pay.lean ====
/-
  The first kernel region's arithmetic, read at one entry of the output block: the product of the block's row with the
  weight's column, plus the bias entry of that column. At the ideal values the format changes are the identity, the
  matrix unit's product into a zero accumulator is the plain sum over the contraction index, and the one bias row
  broadcast over the block's rows reads the row's entry at the column.
-/
import proofs.«431443_j20203526160555_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-! ## The product's operand indices, axis by axis

  The product contracts the left operand's axis 1 with the right operand's axis 0; the output's row is the left
  operand's row and the output's column the right operand's column. -/

theorem lhs_qkv_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem lhs_qkv_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem rhs_qkv_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
theorem rhs_qkv_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The product into the zero accumulator, at row `p` and column `j`: the sum over `k` of the left operand's
    entry `(p, k)` times the right operand's entry `(k, j)`. -/
theorem matmul_qkv_apply (a : FVec Ideal S512x1024 .bf16) (b : FVec Ideal S1024x3072 .bf16) (p : Fin 512) (j : Fin 3072) :
    FloatOps.matmul dot_S512x1024_S1024x3072_S512x3072_1_0_0_1_n_n none a b (constant S512x3072 .f32 0x00000000#32) (ix2 p j)
      = ∑ k : Fin 1024, a (ix2 p k) * b (ix2 k j) := by
  rw [Ideal.matmul_constant_zero_apply, ← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p j) ((contrEquiv1 dot_S512x1024_S1024x3072_S512x3072_1_0_0_1_n_n 1024 rfl rfl).symm k) = ix2 p k := funext fun ax => Fin.ext (by
    match ax with
    | ⟨0, _⟩ => exact lhs_qkv_0 _ _
    | ⟨1, _⟩ => exact (lhs_qkv_1 _ _).trans hk)
  have er : dot_S512x1024_S1024x3072_S512x3072_1_0_0_1_n_n.rhsIdx (ix2 p j) ((contrEquiv1 dot_S512x1024_S1024x3072_S512x3072_1_0_0_1_n_n 1024 rfl rfl).symm k) = ix2 k j := funext fun ax => Fin.ext (by
    match ax with
    | ⟨0, _⟩ => exact (rhs_qkv_0 _ _).trans hk
    | ⟨1, _⟩ => exact rhs_qkv_1 _ _)
  rw [el, er]

/-- THE PAYLOAD AT AN ENTRY: row `p` of the input block times column `j` of the weight, plus the bias at `j`. -/
theorem k0_pay1_apply (x0 : Vec Ideal S512x1024 .f32) (x1 : Vec Ideal S1024x3072 .f32) (x2 : Vec Ideal S1x3072 .f32)
    (p : Fin 512) (j : Fin 3072) :
    (k0_pay1 (F := Ideal) x0 x1 x2 : S512x3072.Idx → EReal) (ix2 p j)
      = (∑ k : Fin 1024, (x0 : S512x1024.Idx → EReal) (ix2 p k) * (x1 : S1024x3072.Idx → EReal) (ix2 k j))
        + (x2 : S1x3072.Idx → EReal) (ix2 (0 : Fin 1) j) := by
  unfold k0_pay1
  simp only [shapeCast_self]
  rw [truncf_apply, addf_apply]
  refine congrArg₂ (· + ·) ?_ ?_
  · exact matmul_qkv_apply _ _ p j
  · exact broadcastTo_1b_ab_apply _ _ p j

end Cert.KernelIdeal.Val

end
-- ==== Proof.KVal_Reg0.lean ====
/-
  What the first kernel region leaves in its result array, at the ideal values: the dense layer of the whole input.
  Grid point `t` holds rows 512·t … 512·t + 511 of the input and the whole weight and bias, and writes back the same
  rows of the result; every point writes back, and the row blocks tile the result, so entry (r, j) of the array after
  the region is row r of the input times column j of the weight plus the bias at j, whatever the arrays held on entry.
-/
import proofs.«431443_j20203526160555_3_alg».proof.Proof.KI_Reg0
import proofs.«431443_j20203526160555_3_alg».proof.Proof.KVal_Reg0Pay
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Hand Idealize.ShloMosaic Idealize.ShloMosaic.ValueIdx
open Idealize.ShloMosaic.TcCoe
open Idealize.ShloMosaic.Pipeline (Dat)

/-! ## The dense layer on whole arrays -/

/-- Entry (r, j) of the dense layer: row `r` of `a` times column `j` of `w`, plus the bias row's entry `j`. -/
def denseAt (a : S4096x1024.Idx → EReal) (w : S1024x3072.Idx → EReal) (b : S1x3072.Idx → EReal)
    (r : Fin 4096) (j : Fin 3072) : EReal :=
  (∑ k : Fin 1024, a (ix2 r k) * w (ix2 k j)) + b (ix2 (0 : Fin 1) j)

/-- The dense layer as one function of the result's index. -/
def dense (a : S4096x1024.Idx → EReal) (w : S1024x3072.Idx → EReal) (b : S1x3072.Idx → EReal) :
    S4096x3072.Idx → EReal :=
  fun i => denseAt a w b (i 0) (i 1)

theorem hz : (![0, 0] : Fin 2 → Nat) = fun _ => 0 := funext fun a => by fin_cases a <;> rfl

/-! ## The printed index maps, decided once over the grid

  Point `t` takes row block `t` of the input and of the result, and block (0, 0) — the whole array — of the weight and
  of the bias. -/

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block of the result's row blocks is some point's: block `q` is point `q`'s. -/
theorem idx_onto0 : ∀ q : Fin 8, ∃ t : Fin cfg0.N, win0_3.index t (0 : Fin 2) = q.val ∧ win0_3.index t (1 : Fin 2) = 0 :=
  (by decide +kernel : ∀ q : Fin 8, ∃ t : Fin grid0.N, win0_3.index t (0 : Fin 2) = q.val ∧ win0_3.index t (1 : Fin 2) = 0)

/-! ## One point: the payload of three blocks is the dense layer's block

  Stated over any three blocks `x0`, `x1`, `x2` that read the arrays `a`, `w`, `b` where the point's rectangles say:
  `x0` rows 512·T + p of `a`, `x1` and `x2` the whole of `w` and `b`. -/

theorem pay_block (a : S4096x1024.Idx → EReal) (w : S1024x3072.Idx → EReal) (b : S1x3072.Idx → EReal)
    (x0 : Vec Ideal S512x1024 .f32) (x1 : Vec Ideal S1024x3072 .f32) (x2 : Vec Ideal S1x3072 .f32) (T : Nat)
    (h0 : ∀ (p : Fin 512) (k : Fin 1024) (r : Fin 4096), r.val = T * 512 + p.val →
      (x0 : S512x1024.Idx → EReal) (ix2 p k) = a (ix2 r k))
    (h1 : ∀ (k : Fin 1024) (j : Fin 3072), (x1 : S1024x3072.Idx → EReal) (ix2 k j) = w (ix2 k j))
    (h2 : ∀ j : Fin 3072, (x2 : S1x3072.Idx → EReal) (ix2 (0 : Fin 1) j) = b (ix2 (0 : Fin 1) j))
    (y : S512x3072.Idx) (i : S4096x3072.Idx)
    (hi0 : (i 0).val = T * 512 + (y 0).val) (hi1 : (i 1).val = (y 1).val) :
    (k0_pay1 (F := Ideal) x0 x1 x2 : S512x3072.Idx → EReal) y = dense a w b i := by
  obtain ⟨p, j, rfl⟩ : ∃ (p : Fin 512) (j : Fin 3072), y = ix2 p j := ⟨y 0, y 1, eq_ix2 y⟩
  obtain ⟨r, j', rfl⟩ : ∃ (r : Fin 4096) (j' : Fin 3072), i = ix2 r j' := ⟨i 0, i 1, eq_ix2 i⟩
  obtain rfl : j' = j := Fin.ext hi1
  rw [k0_pay1_apply]
  show _ = (∑ k : Fin 1024, a (ix2 r k) * w (ix2 k j')) + b (ix2 (0 : Fin 1) j')
  rw [h2 j']
  refine congrArg (· + b (ix2 (0 : Fin 1) j')) (Finset.sum_congr rfl fun k _ => ?_)
  rw [h0 p k r hi0, h1 k j']

/-! ## Each input block, read off its array -/

variable (V : (c : Dev nD) → (b : Ref sig .tc) → Buf (Elt Ideal) ((c : Thread nD τ).loc b))

/-- The input window's block at point `t` is rows 512·t … 512·t + 511 of the input. -/
theorem iblk0_0_apply (c : Dev nD) (t : Fin cfg0.N) (p : Fin 512) (k : Fin 1024) (r : Fin 4096)
    (hr : r.val = t.val * 512 + p.val) :
    (iblk0 (F := Ideal) V c 0 t : S512x1024.Idx → EReal) (ix2 p k) = (V c main_v0 : S4096x1024.Idx → EReal) (ix2 r k) := by
  obtain ⟨e0, e1, -⟩ := idx_facts0 t
  unfold iblk0
  rw [View.read_apply]
  show (V c main_v0 : S4096x1024.Idx → EReal) _ = (V c main_v0 : S4096x1024.Idx → EReal) _
  congr 1
  funext ax
  apply Fin.ext
  match ax with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- The weight window's block at every point is the whole weight. -/
theorem iblk0_1_apply (c : Dev nD) (t : Fin cfg0.N) (k : Fin 1024) (j : Fin 3072) :
    (iblk0 (F := Ideal) V c 1 t : S1024x3072.Idx → EReal) (ix2 k j) = (V c main_v1 : S1024x3072.Idx → EReal) (ix2 k j) := by
  obtain ⟨-, -, e0, e1, -⟩ := idx_facts0 t
  unfold iblk0
  rw [View.read_apply]
  show (V c main_v1 : S1024x3072.Idx → EReal) _ = (V c main_v1 : S1024x3072.Idx → EReal) _
  congr 1
  funext ax
  apply Fin.ext
  match ax with
  | ⟨0, _⟩ => show win0_1.index t (0 : Fin 2) * 1024 + 1 * k.val = k.val; rw [e0]; omega
  | ⟨1, _⟩ => show win0_1.index t (1 : Fin 2) * 3072 + 1 * j.val = j.val; rw [e1]; omega

/-- The bias window's block at every point is the whole bias row. -/
theorem iblk0_2_apply (c : Dev nD) (t : Fin cfg0.N) (j : Fin 3072) :
    (iblk0 (F := Ideal) V c 2 t : S1x3072.Idx → EReal) (ix2 (0 : Fin 1) j) = (V c main_v3 : S1x3072.Idx → EReal) (ix2 (0 : Fin 1) j) := by
  obtain ⟨-, -, -, -, e0, e1, -⟩ := idx_facts0 t
  unfold iblk0
  rw [View.read_apply]
  show (V c main_v3 : S1x3072.Idx → EReal) _ = (V c main_v3 : S1x3072.Idx → EReal) _
  congr 1
  funext ax
  apply Fin.ext
  match ax with
  | ⟨0, _⟩ => show win0_2.index t (0 : Fin 2) * 1 + 1 * 0 = 0; rw [e0]
  | ⟨1, _⟩ => show win0_2.index t (1 : Fin 2) * 3072 + 1 * j.val = j.val; rw [e1]; omega

/-! ## What a point writes back, and the array after the region -/

/-- WHAT POINT `t` WRITES BACK is block `t` of the dense layer of the arrays as the region finds them. -/
theorem flushed0_3_eq (c : Dev nD) (t : Fin cfg0.N) :
    (dat0 (F := Ideal) V c).flushed 3 t
      = ((cfg0.win 3).blk t).view.read (Elt Ideal)
          (dense (V c main_v0 : S4096x1024.Idx → EReal) (V c main_v1 : S1024x3072.Idx → EReal) (V c main_v3 : S1x3072.Idx → EReal)) := by
  show (cfg0.win 3).cut (grid0.coords t) ((dat0 (F := Ideal) V c).after 3 t) = _
  rw [after0_3]
  unfold out0_3
  rw [View.canon_unit_zero hz]
  simp only [View.ld_unit_zero (S := S512x1024) hz, View.ld_unit_zero (S := S1024x3072) hz, View.ld_unit_zero (S := S1x3072) hz]
  obtain ⟨-, -, -, -, -, -, e0, e1⟩ := idx_facts0 t
  funext y
  rw [View.read_apply]
  refine pay_block (V c main_v0 : S4096x1024.Idx → EReal) (V c main_v1 : S1024x3072.Idx → EReal) (V c main_v3 : S1x3072.Idx → EReal)
    (iblk0 (F := Ideal) V c 0 t) (iblk0 (F := Ideal) V c 1 t) (iblk0 (F := Ideal) V c 2 t) t.val
    (fun p k r hr => iblk0_0_apply V c t p k r hr) (fun k j => iblk0_1_apply V c t k j) (fun j => iblk0_2_apply V c t j)
    ((cfg0.win 3).xinj (grid0.coords t) y) (((cfg0.win 3).blk t).view.emb y) ?_ ?_
  · show win0_3.index t (0 : Fin 2) * 512 + 1 * (y 0).val = t.val * 512 + (y 0).val
    rw [e0]; omega
  · show win0_3.index t (1 : Fin 2) * 3072 + 1 * (y 1).val = (y 1).val
    rw [e1]; omega

/-- An index of the result is in point `t`'s block iff each coordinate is in the block's range on its axis. -/
theorem mem_blk0_3 (t : Fin cfg0.N) (i : S4096x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v4).slice (win0_3.rect t)).set ↔ _
  rw [View.set_slice_whole, Rect.mem_set_unit]
  exact Iff.rfl

/-- THE COVER: row `r` of the result is in the block of the point whose block index is `r / 512`. -/
theorem cover0_3_arr (i : S4096x3072.Idx) :
    ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, q0, q1⟩ := idx_onto0 ⟨(i 0).val / 512, by omega⟩
  refine ⟨t, flush0_3 t, ?_⟩
  rw [mem_blk0_3]
  intro a
  match a with
  | ⟨0, _⟩ => show win0_3.index t (0 : Fin 2) * 512 ≤ (i 0).val ∧ (i 0).val < win0_3.index t (0 : Fin 2) * 512 + 512; rw [q0]; show (i 0).val / 512 * 512 ≤ (i 0).val ∧ (i 0).val < (i 0).val / 512 * 512 + 512; omega
  | ⟨1, _⟩ => show win0_3.index t (1 : Fin 2) * 3072 ≤ (i 1).val ∧ (i 1).val < win0_3.index t (1 : Fin 2) * 3072 + 3072; rw [q1]; omega

/-- The result array after the region is the dense layer of the input, weight and bias as the region finds them. -/
theorem arrAt0_dense (c : Dev nD) :
    (dat0 (F := Ideal) V c).arrAt 3 cfg0.N
      = dense (V c main_v0 : S4096x1024.Idx → EReal) (V c main_v1 : S1024x3072.Idx → EReal) (V c main_v3 : S1x3072.Idx → EReal) :=
  (dat0 (F := Ideal) V c).arrAt_eq_of_cover 3
    (dense (V c main_v0 : S4096x1024.Idx → EReal) (V c main_v1 : S1024x3072.Idx → EReal) (V c main_v3 : S1x3072.Idx → EReal))
    (fun t _ => flushed0_3_eq V c t) cover0_3_arr

/-- THE RESULT ARRAY AFTER THE REGION, entry by entry: row `i 0` of the input times column `i 1` of the weight plus the
    bias at `i 1`, the sum and the product those of the extended reals. -/
theorem arrAt0 (V : (c : Dev nD) → (b : Ref sig .tc) → Buf (Elt Ideal) ((c : Thread nD τ).loc b)) (c : Dev nD) :
    ((dat0 (F := Ideal) V c).arrAt 3 cfg0.N : S4096x3072.Idx → EReal)
      = fun i : S4096x3072.Idx =>
          HAdd.hAdd (α := EReal) (β := EReal) (γ := EReal)
            (∑ k : Fin 1024, HMul.hMul (α := EReal) (β := EReal) (γ := EReal)
              ((V c main_v0 : S4096x1024.Idx → EReal) (ix2 (i 0) k)) ((V c main_v1 : S1024x3072.Idx → EReal) (ix2 k (i 1))))
            ((V c main_v3 : S1x3072.Idx → EReal) (ix2 0 (i 1))) :=
  arrAt0_dense V c

/-- The same at explicit coordinates: entry (r, j). -/
theorem arrAt0_apply (V : (c : Dev nD) → (b : Ref sig .tc) → Buf (Elt Ideal) ((c : Thread nD τ).loc b)) (c : Dev nD)
    (r : Fin 4096) (j : Fin 3072) :
    ((dat0 (F := Ideal) V c).arrAt 3 cfg0.N : S4096x3072.Idx → EReal) (ix2 r j)
      = HAdd.hAdd (α := EReal) (β := EReal) (γ := EReal)
          (∑ k : Fin 1024, HMul.hMul (α := EReal) (β := EReal) (γ := EReal)
            ((V c main_v0 : S4096x1024.Idx → EReal) (ix2 r k)) ((V c main_v1 : S1024x3072.Idx → EReal) (ix2 k j)))
          ((V c main_v3 : S1x3072.Idx → EReal) (ix2 0 j)) :=
  congrFun (arrAt0 V c) (ix2 r j)

end Cert.KernelIdeal.Val

end
-- ==== Proof.KVal_Pieces.lean ====
/-
  What each control case of the attention region leaves in the accumulator and in the output tile's buffer, as the
  body's pure payloads of the point's blocks: the new accumulator is the payload of the six input blocks and the
  accumulator's contents before the point (zeros at a tile's first head pair, which the body has just stored), and
  the output tile's buffer, at a tile's last head pair, is the payload "accumulator + bias" of the new accumulator.
-/
import proofs.«431443_j20203526160555_3_alg».proof.Proof.KI_Reg1
import Idealize.ShloMosaic.Lib.Pipeline.Value

set_option maxRecDepth 16384

noncomputable section

namespace Cert.KernelIdeal.Val

open Idealize.ShloMosaic Idealize.ShloMosaic.TcCoe Idealize.ShloMosaic.Tactic
open Idealize.SL Idealize.SL.Sem
open Cert.KernelIdeal Cert.KernelIdeal.Gen Cert.KernelIdeal.Hand

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- Reading the accumulator, a whole buffer, at the raw contents that read `X` gives `X`. -/
theorem sc_read_unread (h : scM1_0.IsWhole) (X : Vec Ideal S512x1024 .f32) :
    View.read (Elt Ideal) (View.whole cc1_scratch0) (h.unread X) = X := h.read_unread X

theorem leftA_acc (c : Dev nD) (t : Fin cfg1.N) (h0 : t.val % 8 = 0) (h1 : ¬t.val % 8 = 7) :
    (leftA (F := Ideal) V c t h0 h1).2 = k1_pay1 (F := Ideal) (k1_pay7 (iblk1 V c 3 t)) (k1_pay8 (iblk1 V c 0 t) (iblk1 V c 1 t) (iblk1 V c 2 t) (iblk1 V c 3 t)) (k1_pay9 (iblk1 V c 0 t)) (k1_pay10 (iblk1 V c 1 t)) (k1_pay11 (iblk1 V c 2 t)) (iblk1 V c 4 t) (k1_pay3 (F := Ideal)) := by
  unfold leftA
  dsimp only
  rw [View.read_writes_eq_canon _ _ _ (scoverA V c t h0 h1)]
  unfold runA kernelRun1_A
  dsimp only
  sl_unfold_words
  rw [View.canon_cons_unit_zero (S := S512x1024) hz2, View.readCov_unit_zero (S := S512x1024) _ hz2]
  simp only [View.readAt_eq_ld, Memref.IsWhole.read_unread, View.ld_unit_zero (S := S1x512x2048) hz3, View.ld_unit_zero (S := S1x512x128) hz3, View.ld_unit_zero (S := S1x2048x128) hz3, View.ld_unit_zero (S := S128x1024) hz2, View.ld_unit_zero (S := S512x1024) hz2, sc_read_unread]

theorem leftB_acc (c : Dev nD) (t : Fin cfg1.N) (h0 : ¬t.val % 8 = 0) (h1 : ¬t.val % 8 = 7) (xs0 : Vec Ideal S512x1024 .f32) :
    (leftB (F := Ideal) V c t h0 h1 xs0).2 = k1_pay1 (F := Ideal) (k1_pay7 (iblk1 V c 3 t)) (k1_pay8 (iblk1 V c 0 t) (iblk1 V c 1 t) (iblk1 V c 2 t) (iblk1 V c 3 t)) (k1_pay9 (iblk1 V c 0 t)) (k1_pay10 (iblk1 V c 1 t)) (k1_pay11 (iblk1 V c 2 t)) (iblk1 V c 4 t) xs0 := by
  unfold leftB
  dsimp only
  rw [View.read_writes_eq_canon _ _ _ (scoverB V c t h0 h1 xs0)]
  unfold runB kernelRun1_B
  dsimp only
  sl_unfold_words
  rw [View.canon_unit_zero hz2]
  simp only [View.readAt_eq_ld, Memref.IsWhole.read_unread, View.ld_unit_zero (S := S1x512x2048) hz3, View.ld_unit_zero (S := S1x512x128) hz3, View.ld_unit_zero (S := S1x2048x128) hz3, View.ld_unit_zero (S := S128x1024) hz2, View.ld_unit_zero (S := S512x1024) hz2, sc_read_unread]

theorem leftC_acc (c : Dev nD) (t : Fin cfg1.N) (h0 : ¬t.val % 8 = 0) (h1 : t.val % 8 = 7) (xs0 : Vec Ideal S512x1024 .f32) :
    (leftC (F := Ideal) V c t h0 h1 xs0).2 = k1_pay1 (F := Ideal) (k1_pay7 (iblk1 V c 3 t)) (k1_pay8 (iblk1 V c 0 t) (iblk1 V c 1 t) (iblk1 V c 2 t) (iblk1 V c 3 t)) (k1_pay9 (iblk1 V c 0 t)) (k1_pay10 (iblk1 V c 1 t)) (k1_pay11 (iblk1 V c 2 t)) (iblk1 V c 4 t) xs0 := by
  unfold leftC
  dsimp only
  rw [View.read_writes_eq_canon _ _ _ (scoverC V c t h0 h1 xs0)]
  unfold runC kernelRun1_C
  dsimp only
  sl_unfold_words
  rw [View.canon_unit_zero hz2]
  simp only [View.readAt_eq_ld, Memref.IsWhole.read_unread, View.ld_unit_zero (S := S1x512x2048) hz3, View.ld_unit_zero (S := S1x512x128) hz3, View.ld_unit_zero (S := S1x2048x128) hz3, View.ld_unit_zero (S := S128x1024) hz2, View.ld_unit_zero (S := S512x1024) hz2, sc_read_unread]

theorem leftC_out (c : Dev nD) (t : Fin cfg1.N) (h0 : ¬t.val % 8 = 0) (h1 : t.val % 8 = 7) (xs0 : Vec Ideal S512x1024 .f32) :
    (leftC (F := Ideal) V c t h0 h1 xs0).1 = k1_pay2 (F := Ideal) (k1_pay1 (F := Ideal) (k1_pay7 (iblk1 V c 3 t)) (k1_pay8 (iblk1 V c 0 t) (iblk1 V c 1 t) (iblk1 V c 2 t) (iblk1 V c 3 t)) (k1_pay9 (iblk1 V c 0 t)) (k1_pay10 (iblk1 V c 1 t)) (k1_pay11 (iblk1 V c 2 t)) (iblk1 V c 4 t) xs0) (iblk1 V c 5 t) := by
  unfold leftC
  dsimp only
  rw [View.read_writes_eq_canon _ _ _ (ocoverC V c t h0 h1 xs0)]
  unfold runC kernelRun1_C
  dsimp only
  sl_unfold_words
  rw [View.canon_unit_zero hz3]
  simp only [View.readAt_eq_ld, Memref.IsWhole.read_unread, View.readCov_unit_zero (S := S512x1024) _ hz2, View.ld_unit_zero (S := S1x512x2048) hz3, View.ld_unit_zero (S := S1x512x128) hz3, View.ld_unit_zero (S := S1x2048x128) hz3, View.ld_unit_zero (S := S128x1024) hz2, View.ld_unit_zero (S := S512x1024) hz2, View.ld_unit_zero (S := S1x1024) hz2, sc_read_unread]

end Cert.KernelIdeal.Val

end
-- ==== Proof.Spec2.lean ====
/-
  The kernel's arrangement of the same function, stated over plain coordinates so that the kernel side and the
  algebra can meet on it.

  One grid point of the attention region sees a query block `q` (512 rows × 128 columns: two heads side by side),
  the key and value blocks `k`, `v` (2048 rows × the same 128 columns), the mask block `mk` (512 × 2048), a block
  `wo` of 128 rows of the output weight and the accumulator `acc` (512 × 1024), and leaves
  `acc + (attention output of the two heads) · wo`. Over the eight head pairs of a tile the accumulator, started at
  zero, collects the whole output projection; the bias is added after the last one.
-/
import proofs.«431443_j20203526160555_3_alg».proof.Proof.Spec

noncomputable section

namespace Cert.Attn

open Idealize.ShloMosaic
open scoped BigOperators

/-! ## One grid point, on blocks -/

/-- Column `(j / 64) · 64 + d` of a 128-column block: depth `d` of the head column `j` belongs to. -/
def hcol (j : Fin 128) (d : Fin 64) : Fin 128 := ⟨(j.val / 64) * 64 + d.val, by omega⟩

/-- The scaled dot product of query row `r` and key row `kk` in the head column `j` belongs to. -/
def pairScore (q : Fin 512 → Fin 128 → EReal) (k : Fin 2048 → Fin 128 → EReal) (r : Fin 512) (j : Fin 128) (kk : Fin 2048) : EReal :=
  (∑ d : Fin 64, q r (hcol j d) * k kk (hcol j d)) * c8

/-- Column `j` of the two heads' attention output. -/
def blockAO (q : Fin 512 → Fin 128 → EReal) (k v : Fin 2048 → Fin 128 → EReal) (mk : Fin 512 → Fin 2048 → EReal)
    (r : Fin 512) (j : Fin 128) : EReal :=
  ∑ kk : Fin 2048, softRow (fun kk' => if mk r kk' = 0 then ⊥ else pairScore q k r j kk') kk * v kk j

/-- The accumulator after the point. -/
def blockStep (acc : Fin 512 → Fin 1024 → EReal) (q : Fin 512 → Fin 128 → EReal) (k v : Fin 2048 → Fin 128 → EReal)
    (mk : Fin 512 → Fin 2048 → EReal) (wo : Fin 128 → Fin 1024 → EReal) (r : Fin 512) (e : Fin 1024) : EReal :=
  acc r e + ∑ j : Fin 128, blockAO q k v mk r j * wo j e

/-! ## The region, on whole arrays -/

/-- Rows of a query tile, columns of a head pair, in the [2, 2048, 3072] array of projected queries, keys and values
    (queries in columns [0, 1024), keys in [1024, 2048), values in [2048, 3072)). -/
def qrow (qi : Fin 4) (r : Fin 512) : Fin 2048 := ⟨qi.val * 512 + r.val, by omega⟩
def qcol (hp : Fin 8) (j : Fin 128) : Fin 3072 := ⟨hp.val * 128 + j.val, by omega⟩
def kcol (hp : Fin 8) (j : Fin 128) : Fin 3072 := ⟨1024 + hp.val * 128 + j.val, by omega⟩
def vcol (hp : Fin 8) (j : Fin 128) : Fin 3072 := ⟨2048 + hp.val * 128 + j.val, by omega⟩
def worow (hp : Fin 8) (j : Fin 128) : Fin 1024 := ⟨hp.val * 128 + j.val, by omega⟩

/-- The accumulator of tile (β, qi) after head pair `n` (counted from 0), started from zero before head pair 0. -/
def accAfter (Y : Arr3 3072) (msk : Arr3 2048) (Wo : Mat) (β : Fin 2) (qi : Fin 4) : (n : ℕ) → n < 8 → Fin 512 → Fin 1024 → EReal
  | 0, h => blockStep (fun _ _ => 0) (fun r j => Y β (qrow qi r) (qcol ⟨0, h⟩ j)) (fun k j => Y β k (kcol ⟨0, h⟩ j))
      (fun k j => Y β k (vcol ⟨0, h⟩ j)) (fun r k => msk β (qrow qi r) k) (fun j e => Wo (worow ⟨0, h⟩ j) e)
  | n + 1, h => blockStep (accAfter Y msk Wo β qi n (Nat.lt_of_succ_lt h)) (fun r j => Y β (qrow qi r) (qcol ⟨n + 1, h⟩ j))
      (fun k j => Y β k (kcol ⟨n + 1, h⟩ j)) (fun k j => Y β k (vcol ⟨n + 1, h⟩ j)) (fun r k => msk β (qrow qi r) k)
      (fun j e => Wo (worow ⟨n + 1, h⟩ j) e)

/-- What the region leaves in the result array: the accumulator after the last head pair, plus the bias. -/
def regionOut (Y : Arr3 3072) (msk : Arr3 2048) (Wo : Mat) (bo : Vec1) : Arr3 1024 :=
  fun β s e => accAfter Y msk Wo β ⟨s.val / 512, by omega⟩ 7 (by decide) ⟨s.val % 512, Nat.mod_lt _ (by decide)⟩ e + bo e

/-- The three projections side by side: what the first region leaves, over coordinates. -/
def qkv (x : Arr3 1024) (Wq : Mat) (bq : Vec1) (Wk : Mat) (bk : Vec1) (Wv : Mat) (bv : Vec1) : Arr3 3072 :=
  fun β s j =>
    if h1 : j.val < 1024 then proj x Wq bq β s ⟨j.val, h1⟩
    else if h2 : j.val < 2048 then proj x Wk bk β s ⟨j.val - 1024, by omega⟩
    else proj x Wv bv β s ⟨j.val - 2048, by omega⟩

end Cert.Attn

end
-- ==== Proof.KVal_Dots.lean ====
/- The three block products of the attention body read at an output index, at the ideal instance: each is the sum
   over its one contraction coordinate of the operands' products. Query times key contracts the depth of both
   operands (the key block enters untransposed); weights times value and output times projection contract the
   left operand's columns with the right operand's rows. -/
import proofs.«431443_j20203526160555_3_alg».proof.Proof.Gen.KernelIdeal.Skeleton
import Idealize.ShloMosaic.Lib.ValueIdx
import Idealize.ShloMosaic.PureOps.Ideal.Laws

noncomputable section

namespace Cert.KernelIdeal.Val

open Cert.KernelIdeal Cert.KernelIdeal.Gen Idealize.ShloMosaic Idealize.ShloMosaic.ValueIdx
open scoped BigOperators

/-! ## Query rows against key rows, contracting the depth -/

theorem qk_lhs_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem qk_lhs_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem qk_rhs_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem qk_rhs_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- Query rows against key rows, contracting the depth: at `(a, b)` the product into the zero splat is the sum over the contraction coordinate of the
    operands' products. -/
theorem qk_apply (x : FVec Ideal S512x64 .bf16) (y : FVec Ideal S2048x64 .bf16) (a : Fin 512) (b : Fin 2048) :
    matmul (F := Ideal) dot_S512x64_S2048x64_S512x2048_1_1_0_0_n_n none x y (constant S512x2048 .f32 0x00000000#32) (ix2 a b)
      = ∑ k : Fin 64, x (ix2 a k) * y (ix2 b k) := by
  simp only [matmul]
  rw [Ideal.matmul_constant_zero_apply, ← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 a b) ((contrEquiv1 dot_S512x64_S2048x64_S512x2048_1_1_0_0_n_n 64 rfl rfl).symm k) = ix2 a k := funext fun ax => Fin.ext (by
    match ax with
    | ⟨0, _⟩ => exact qk_lhs_0 _ _
    | ⟨1, _⟩ => exact (qk_lhs_1 _ _).trans hk)
  have er : dot_S512x64_S2048x64_S512x2048_1_1_0_0_n_n.rhsIdx (ix2 a b) ((contrEquiv1 dot_S512x64_S2048x64_S512x2048_1_1_0_0_n_n 64 rfl rfl).symm k) = ix2 b k := funext fun ax => Fin.ext (by
    match ax with
    | ⟨0, _⟩ => exact qk_rhs_0 _ _
    | ⟨1, _⟩ => exact (qk_rhs_1 _ _).trans hk)
  rw [el, er]

/-! ## Weights against values, contracting the keys -/

theorem pv_lhs_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem pv_lhs_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem pv_rhs_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem pv_rhs_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Weights against values, contracting the keys: at `(a, b)` the product into the zero splat is the sum over the contraction coordinate of the
    operands' products. -/
theorem pv_apply (x : FVec Ideal S512x2048 .bf16) (y : FVec Ideal S2048x64 .bf16) (a : Fin 512) (b : Fin 64) :
    matmul (F := Ideal) dot_S512x2048_S2048x64_S512x64_1_0_0_1_n_n none x y (constant S512x64 .f32 0x00000000#32) (ix2 a b)
      = ∑ k : Fin 2048, x (ix2 a k) * y (ix2 k b) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 a b) ((contrEquiv1 dot_S512x2048_S2048x64_S512x64_1_0_0_1_n_n 2048 rfl rfl).symm k) = ix2 a k := funext fun ax => Fin.ext (by
    match ax with
    | ⟨0, _⟩ => exact pv_lhs_0 _ _
    | ⟨1, _⟩ => exact (pv_lhs_1 _ _).trans hk)
  have er : dot_S512x2048_S2048x64_S512x64_1_0_0_1_n_n.rhsIdx (ix2 a b) ((contrEquiv1 dot_S512x2048_S2048x64_S512x64_1_0_0_1_n_n 2048 rfl rfl).symm k) = ix2 k b := funext fun ax => Fin.ext (by
    match ax with
    | ⟨0, _⟩ => exact (pv_rhs_0 _ _).trans hk
    | ⟨1, _⟩ => exact pv_rhs_1 _ _)
  rw [el, er]

/-! ## Attention output against the projection block, contracting the 128 columns -/

theorem ow_lhs_0 (i : S512x1024.Idx) (q : dot_S512x128_S128x1024_S512x1024_1_0_0_1_n_n.contr.Idx) :
    (dot_S512x128_S128x1024_S512x1024_1_0_0_1_n_n.lhsIdx i q 0).val = (i 0).val := by
  unfold DotDims.lhsIdx
  rw [dif_neg (show ¬(0 : Fin S512x128.rank) ∈ dot_S512x128_S128x1024_S512x1024_1_0_0_1_n_n.lhsBatch by decide), dif_pos (show (0 : Fin S512x128.rank) ∈ dot_S512x128_S128x1024_S512x1024_1_0_0_1_n_n.lhsNonContracting by decide)]
  rfl
theorem ow_lhs_1 (i : S512x1024.Idx) (q : dot_S512x128_S128x1024_S512x1024_1_0_0_1_n_n.contr.Idx) :
    (dot_S512x128_S128x1024_S512x1024_1_0_0_1_n_n.lhsIdx i q 1).val = (q ⟨0, by decide⟩).val :=
  dot_S512x128_S128x1024_S512x1024_1_0_0_1_n_n.lhsIdx_val_of_single rfl i q
theorem ow_rhs_0 (i : S512x1024.Idx) (q : dot_S512x128_S128x1024_S512x1024_1_0_0_1_n_n.contr.Idx) :
    (dot_S512x128_S128x1024_S512x1024_1_0_0_1_n_n.rhsIdx i q 0).val = (q ⟨0, by decide⟩).val :=
  dot_S512x128_S128x1024_S512x1024_1_0_0_1_n_n.rhsIdx_val_of_single rfl i q
theorem ow_rhs_1 (i : S512x1024.Idx) (q : dot_S512x128_S128x1024_S512x1024_1_0_0_1_n_n.contr.Idx) :
    (dot_S512x128_S128x1024_S512x1024_1_0_0_1_n_n.rhsIdx i q 1).val = (i 1).val := by
  unfold DotDims.rhsIdx
  rw [dif_neg (show ¬(1 : Fin S128x1024.rank) ∈ dot_S512x128_S128x1024_S512x1024_1_0_0_1_n_n.rhsBatch by decide), dif_pos (show (1 : Fin S128x1024.rank) ∈ dot_S512x128_S128x1024_S512x1024_1_0_0_1_n_n.rhsNonContracting by decide)]
  rfl

/-- Attention output against the projection block, contracting the 128 columns: at `(a, b)` the product into the zero splat is the sum over the contraction coordinate of the
    operands' products. -/
theorem ow_apply (x : FVec Ideal S512x128 .bf16) (y : FVec Ideal S128x1024 .bf16) (a : Fin 512) (b : Fin 1024) :
    matmul (F := Ideal) dot_S512x128_S128x1024_S512x1024_1_0_0_1_n_n none x y (constant S512x1024 .f32 0x00000000#32) (ix2 a b)
      = ∑ k : Fin 128, x (ix2 a k) * y (ix2 k b) := by
  simp only [matmul]
  rw [Ideal.matmul_constant_zero_apply, ← Equiv.sum_comp (contrEquiv1 dot_S512x128_S128x1024_S512x1024_1_0_0_1_n_n 128 rfl rfl).symm]
  refine Finset.sum_congr rfl fun k _ => ?_
  have hk := contrEquiv1_symm_val dot_S512x128_S128x1024_S512x1024_1_0_0_1_n_n 128 rfl rfl k
  have el : dot_S512x128_S128x1024_S512x1024_1_0_0_1_n_n.lhsIdx (ix2 a b) ((contrEquiv1 dot_S512x128_S128x1024_S512x1024_1_0_0_1_n_n 128 rfl rfl).symm k) = ix2 a k := funext fun ax => Fin.ext (by
    match ax with
    | ⟨0, _⟩ => exact ow_lhs_0 _ _
    | ⟨1, _⟩ => exact (ow_lhs_1 _ _).trans hk)
  have er : dot_S512x128_S128x1024_S512x1024_1_0_0_1_n_n.rhsIdx (ix2 a b) ((contrEquiv1 dot_S512x128_S128x1024_S512x1024_1_0_0_1_n_n 128 rfl rfl).symm k) = ix2 k b := funext fun ax => Fin.ext (by
    match ax with
    | ⟨0, _⟩ => exact (ow_rhs_0 _ _).trans hk
    | ⟨1, _⟩ => exact ow_rhs_1 _ _)
  rw [el, er]

end Cert.KernelIdeal.Val

end
-- ==== Proof.KVal_Soft.lean ====
/- A row's softmax as the attention body computes it, read at an index: the row maximum kept as a column and spread
   back over the row, the exponential of the difference, the row sum kept and spread the same way, the quotient.
   At the ideal instance this is the softmax of the row over plain coordinates; the change of format after it is
   the identity. -/
import proofs.«431443_j20203526160555_3_alg».proof.Proof.Gen.KernelIdeal.Skeleton
import proofs.«431443_j20203526160555_3_alg».proof.Proof.Spec
import proofs.«431443_j20203526160555_3_alg».proof.Proof.Consts
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx
open Cert.Attn
open scoped BigOperators

/-! ## The keepdims column forms -/

/-- A vector of 512 entries kept as a 512 × 1 column reads, at `(r, u)`, the vector at `r`. -/
theorem keepCol_apply {α : Type} (x : S512.Idx → α) (h : S512.ShapeCasts S512x1) (r : Fin 512) (u : Fin 1) :
    shapeCast S512x1 x h (ix2 r u) = x (ix1 r) :=
  shapeCast_apply x h _ _ (by
    have hu : u.val = 0 := by omega
    rw [Shape.rowMajor_val_one, Shape.rowMajor_val_two]
    show r.val = r.val * 1 + u.val
    rw [hu, Nat.mul_one, Nat.add_zero])

/-- A 512 × 1 column spread over 2048 columns reads, at `(r, k)`, the column at `r`. -/
theorem spreadCol_apply {α : Type} (x : S512x1.Idx → α) (h : S512x1.Broadcasts S512x2048) (r : Fin 512) (k : Fin 2048) :
    broadcastTo S512x2048 x h (ix2 r k) = x (ix2 r (0 : Fin 1)) := by
  refine broadcastTo_apply x h (ix2 r k) (ix2 r (0 : Fin 1)) fun ax => ?_
  match ax with
  | ⟨0, _⟩ => rfl
  | ⟨1, _⟩ => rfl

/-- The index a reduction over the columns inserts coordinate `k` into at row `r` is `(r, k)`. -/
theorem lift_row (h : S512x2048.Reduces [1] S512) (r : Fin 512) (k : Fin 2048) : h.lift (ix1 r) k = ix2 r k :=
  funext fun ax => Fin.ext (by
    match ax with
    | ⟨0, _⟩ => rfl
    | ⟨1, _⟩ => rfl)

/-! ## The two row reductions -/

/-- The maximum over the columns from the pattern of `-∞`, at row `r`, is the row's maximum folded from `⊥`. -/
theorem rowMaxK_apply (s : FVec Ideal S512x2048 .f32) (r : Fin 512) :
    multiReduction (F := Ideal) .maximumf [1] S512 s 0xFF800000#32 reduces_S512x2048_S512 (.inl rfl) rfl (ix1 r)
      = rowMax (fun k => s (ix2 r k)) := by
  refine (Ideal.multiReduction_maximumf_single s 0xFF800000#32 reduces_S512x2048_S512 (.inl rfl) rfl (ix1 r)).trans ?_
  have e : (fun k : Fin 2048 => s (reduces_S512x2048_S512.lift (ix1 r) k)) = fun k => s (ix2 r k) :=
    funext fun k => congrArg s (lift_row _ r k)
  exact congrArg₂ (fun a f => (Finset.univ : Finset (Fin 2048)).fold max a f) Consts.ofBits_neg_inf e

/-- The sum over the columns from the pattern of zero, at row `r`, is the row's sum. -/
theorem rowSumK_apply (s : FVec Ideal S512x2048 .f32) (r : Fin 512) :
    multiReduction (F := Ideal) .add [1] S512 s 0x00000000#32 reduces_S512x2048_S512 (.inl rfl) rfl (ix1 r)
      = ∑ k : Fin 2048, s (ix2 r k) := by
  refine (Ideal.multiReduction_add_single s 0x00000000#32 reduces_S512x2048_S512 (.inl rfl) rfl (ix1 r)).trans ?_
  show ∑ k : Fin 2048, s (reduces_S512x2048_S512.lift (ix1 r) k) = ∑ k : Fin 2048, s (ix2 r k)
  exact Finset.sum_congr rfl fun k _ => congrArg s (lift_row _ r k)

/-! ## The softmax of the rows -/

/-- The exponential of each entry less its row's maximum. -/
def expK (s : FVec Ideal S512x2048 .f32) : FVec Ideal S512x2048 .f32 :=
  exp (subf s (broadcastTo S512x2048 (shapeCast S512x1
    (multiReduction (F := Ideal) .maximumf [1] S512 s 0xFF800000#32 reduces_S512x2048_S512 (.inl rfl) rfl)
    shapeCasts_S512_S512x1) broadcasts_S512x1_S512x2048))

/-- Each exponential over its row's sum of exponentials, then the change of format. -/
def softK (s : FVec Ideal S512x2048 .f32) : FVec Ideal S512x2048 .bf16 :=
  truncf .bf16 (divf (expK s) (broadcastTo S512x2048 (shapeCast S512x1
    (multiReduction (F := Ideal) .add [1] S512 (expK s) 0x00000000#32 reduces_S512x2048_S512 (.inl rfl) rfl)
    shapeCasts_S512_S512x1) broadcasts_S512x1_S512x2048)) bitsLt_bf16_f32

theorem expK_apply (s : FVec Ideal S512x2048 .f32) (r : Fin 512) (k : Fin 2048) :
    expK s (ix2 r k) = expRow (fun k' => s (ix2 r k')) k := by
  show Ideal.exp (s (ix2 r k) - broadcastTo S512x2048 _ broadcasts_S512x1_S512x2048 (ix2 r k)) = _
  rw [spreadCol_apply, keepCol_apply, rowMaxK_apply]
  rfl

theorem softK_apply (s : FVec Ideal S512x2048 .f32) (r : Fin 512) (k : Fin 2048) :
    softK s (ix2 r k) = softRow (fun k' => s (ix2 r k')) k := by
  show Ideal.div (expK s (ix2 r k)) (broadcastTo S512x2048 _ broadcasts_S512x1_S512x2048 (ix2 r k)) = _
  rw [spreadCol_apply, keepCol_apply, rowSumK_apply]
  simp only [expK_apply]
  rfl

end Cert.KernelIdeal.Val

end
-- ==== Proof.KVal_Head.lean ====
/- One head of the attention body at an index, at the ideal instance: the scaled scores of query rows against key
   rows, the mask's choice between a score and `⊥`, the softmax of each row, and the weighted sum of the value rows.
   Stated for any three operand blocks of depth 64 and any mask bits, so that the first head (columns [0, 64) of the
   pair) and the second (columns [64, 128)) are two readings of one lemma. -/
import proofs.«431443_j20203526160555_3_alg».proof.Proof.KVal_Dots
import proofs.«431443_j20203526160555_3_alg».proof.Proof.KVal_Soft
import Idealize.ShloMosaic.PureOps.IdealRules

noncomputable section

namespace Cert.KernelIdeal.Val

open Cert.KernelIdeal Cert.KernelIdeal.Gen Idealize.ShloMosaic Idealize.ShloMosaic.ValueIdx
open Cert.Attn
open scoped BigOperators

/-! ## Scores -/

/-- The scores of a head: query rows against key rows, times one eighth. -/
def scoresK (q : FVec Ideal S512x64 .bf16) (k : FVec Ideal S2048x64 .bf16) : FVec Ideal S512x2048 .f32 :=
  mulf (matmul (F := Ideal) dot_S512x64_S2048x64_S512x2048_1_1_0_0_n_n none q k (constant S512x2048 .f32 0x00000000#32))
    (broadcast S512x2048 (Scalar.ofBits .f32 0x3E000000#32))

theorem scoresK_apply (q : FVec Ideal S512x64 .bf16) (k : FVec Ideal S2048x64 .bf16) (r : Fin 512) (kk : Fin 2048) :
    scoresK q k (ix2 r kk) = (∑ d : Fin 64, q (ix2 r d) * k (ix2 kk d)) * c8 := by
  show matmul (F := Ideal) dot_S512x64_S2048x64_S512x2048_1_1_0_0_n_n none q k (constant S512x2048 .f32 0x00000000#32) (ix2 r kk)
      * Ideal.ofBits .f32 0x3E000000#32 = _
  rw [qk_apply, Consts.ofBits_eighth]
  rfl

/-! ## The mask -/

/-- The named large negative constant denotes `⊥` at the ideal instance, by the certificate's table. -/
theorem neg_big : Named.named (F := Ideal) κ "neg_big" (φ := .f32) 0xFF333332#32 = (⊥ : EReal) :=
  IdealRules.named_const.ideal_named_scalar _ _ _ _ rfl

/-- A score where the mask bit is set, the named constant where it is not. -/
def maskedK (b : IVec S512x2048 1) (s : FVec Ideal S512x2048 .f32) : FVec Ideal S512x2048 .f32 :=
  select b s (broadcast S512x2048 (Named.named (F := Ideal) κ "neg_big" 0xFF333332#32))

theorem maskedK_apply (b : IVec S512x2048 1) (s : FVec Ideal S512x2048 .f32) (r : Fin 512) (kk : Fin 2048) :
    maskedK b s (ix2 r kk) = if b (ix2 r kk) = 1#1 then s (ix2 r kk) else ⊥ := by
  show Scalar.select (b (ix2 r kk)) (s (ix2 r kk)) (Named.named (F := Ideal) κ "neg_big" (φ := .f32) 0xFF333332#32) = _
  rw [neg_big]
  rfl

/-! ## A head -/

/-- A head's output: the softmax of its masked scores, row by row, against its value rows. -/
def headK (b : IVec S512x2048 1) (q : FVec Ideal S512x64 .bf16) (k v : FVec Ideal S2048x64 .bf16) : FVec Ideal S512x64 .f32 :=
  matmul (F := Ideal) dot_S512x2048_S2048x64_S512x64_1_0_0_1_n_n none (softK (maskedK b (scoresK q k))) v
    (constant S512x64 .f32 0x00000000#32)

/-- At `(r, d)` a head's output is the sum over the keys of the row's softmax weight times the value row at depth `d`. -/
theorem headK_apply (b : IVec S512x2048 1) (q : FVec Ideal S512x64 .bf16) (k v : FVec Ideal S2048x64 .bf16)
    (r : Fin 512) (d : Fin 64) :
    headK b q k v (ix2 r d)
      = ∑ kk : Fin 2048, softRow (fun kk' => if b (ix2 r kk') = 1#1
            then (∑ d' : Fin 64, q (ix2 r d') * k (ix2 kk' d')) * c8 else ⊥) kk * v (ix2 kk d) := by
  unfold headK
  rw [pv_apply]
  refine Finset.sum_congr rfl fun kk _ => ?_
  rw [softK_apply]
  simp only [maskedK_apply, scoresK_apply]

end Cert.KernelIdeal.Val

end
-- ==== Proof.KVal_Pair.lean ====
/- The two heads of a pair, side by side. The body cuts the first head out of columns [0, 64) of the query, key and
   value blocks and the second out of columns [64, 128), runs the same head computation on each, and lays the two
   outputs side by side again. Column `j` of the result therefore belongs to head `j / 64` at depth `j % 64`, and is
   the pair's attention output at `(r, j)` over plain coordinates. Where the mask entries are 0 or 1 the comparison
   `mask ≥ 1/2` is "the entry is not 0". -/
import proofs.«431443_j20203526160555_3_alg».proof.Proof.KVal_Head
import proofs.«431443_j20203526160555_3_alg».proof.Proof.Spec2

noncomputable section

namespace Cert.KernelIdeal.Val

open Cert.KernelIdeal Cert.KernelIdeal.Gen Idealize.ShloMosaic Idealize.ShloMosaic.ValueIdx
open Cert.Attn
open scoped BigOperators

/-! ## The blocks without their leading unit axis, and the mask bits -/

theorem pay4_apply (x0 : Vec Ideal S1x512x128 .bf16) (r : Fin 512) (j : Fin 128) :
    k1_pay4 (F := Ideal) x0 (ix2 r j) = x0 (ix3 0 r j) :=
  shapeCast_1ab_ab_apply x0 _ r j

theorem pay5_apply (x1 : Vec Ideal S1x2048x128 .bf16) (k : Fin 2048) (j : Fin 128) :
    k1_pay5 (F := Ideal) x1 (ix2 k j) = x1 (ix3 0 k j) :=
  shapeCast_1ab_ab_apply x1 _ k j

theorem pay6_apply (x2 : Vec Ideal S1x2048x128 .bf16) (k : Fin 2048) (j : Fin 128) :
    k1_pay6 (F := Ideal) x2 (ix2 k j) = x2 (ix3 0 k j) :=
  shapeCast_1ab_ab_apply x2 _ k j

/-- The mask bit at `(r, k)` is the comparison of the mask entry with one half. -/
theorem pay7_apply (x3 : Vec Ideal S1x512x2048 .f32) (r : Fin 512) (k : Fin 2048) :
    k1_pay7 (F := Ideal) x3 (ix2 r k) = Ideal.cmp .oge (x3 (ix3 0 r k)) ((1/2 : ℝ) : EReal) := by
  show Ideal.cmp .oge (shapeCast S512x2048 x3 shapeCasts_S1x512x2048_S512x2048 (ix2 r k)) (Ideal.ofBits .f32 0x3F000000#32) = _
  rw [shapeCast_1ab_ab_apply, Consts.ofBits_half]

/-- On a mask entry that is 0 or 1, choosing by the mask bit is choosing by "the entry is not 0". -/
theorem pay7_ite (x3 : Vec Ideal S1x512x2048 .f32)
    (hbin : ∀ (r : Fin 512) (k : Fin 2048), x3 (ix3 0 r k) = (0 : EReal) ∨ x3 (ix3 0 r k) = (1 : EReal))
    (r : Fin 512) (k : Fin 2048) (s : EReal) :
    (if k1_pay7 (F := Ideal) x3 (ix2 r k) = 1#1 then s else ⊥) = if x3 (ix3 0 r k) = 0 then ⊥ else s := by
  rw [pay7_apply]
  rcases hbin r k with h | h
  · rw [h, Consts.cmp_oge_half_zero, if_neg (by decide), if_pos rfl]
  · rw [h, Consts.cmp_oge_half_one, if_pos rfl, if_neg one_ne_zero]

/-! ## A half of the pair -/

/-- Column `o + d` of a 128-column block. -/
def shift (o : ℕ) (ho : o + 64 ≤ 128) (d : Fin 64) : Fin 128 := ⟨o + d.val, by have := d.isLt; omega⟩

/-- A block of 128 columns cut to the 64 from `o` on reads, at `(a, d)`, the block at column `o + d`. -/
theorem sliceCol_apply {α : Type} {n : ℕ} (o : ℕ) (ho : o + 64 ≤ 128) (X : (⟨2, ![n, 128]⟩ : Shape).Idx → α)
    (h : (⟨2, ![n, 128]⟩ : Shape).Slices ![0, o] ⟨2, ![n, 64]⟩) (a : Fin n) (d : Fin 64) :
    extractStridedSlice ⟨2, ![n, 64]⟩ ![0, o] X h (ix2 a d) = X (ix2 a (shift o ho d)) :=
  slice2_axis1_apply o X h a d _ rfl

/-- The head cut out of the columns from `o` on, at `(r, d)`, over the blocks' own coordinates. -/
theorem half_apply (o : ℕ) (ho : o + 64 ≤ 128) (hq : S512x128.Slices ![0, o] S512x64) (hk : S2048x128.Slices ![0, o] S2048x64)
    (b : IVec S512x2048 1) (x0 : Vec Ideal S1x512x128 .bf16) (x1 x2 : Vec Ideal S1x2048x128 .bf16) (r : Fin 512) (d : Fin 64) :
    headK b (extractStridedSlice S512x64 ![0, o] (k1_pay4 (F := Ideal) x0) hq)
        (extractStridedSlice S2048x64 ![0, o] (k1_pay5 (F := Ideal) x1) hk)
        (extractStridedSlice S2048x64 ![0, o] (k1_pay6 (F := Ideal) x2) hk) (ix2 r d)
      = ∑ kk : Fin 2048, softRow (fun kk' => if b (ix2 r kk') = 1#1
            then (∑ d' : Fin 64, x0 (ix3 0 r (shift o ho d')) * x1 (ix3 0 kk' (shift o ho d'))) * c8 else ⊥) kk
          * x2 (ix3 0 kk (shift o ho d)) := by
  rw [headK_apply]
  simp only [sliceCol_apply o ho, pay4_apply, pay5_apply, pay6_apply]

/-- With the mask's own bits, and for the column `j = o + d` of head `j / 64`, that is the pair's attention output at `(r, j)`. -/
theorem half_blockAO (o : ℕ) (ho : o + 64 ≤ 128) (hq : S512x128.Slices ![0, o] S512x64) (hk : S2048x128.Slices ![0, o] S2048x64)
    (x0 : Vec Ideal S1x512x128 .bf16) (x1 x2 : Vec Ideal S1x2048x128 .bf16) (x3 : Vec Ideal S1x512x2048 .f32)
    (hbin : ∀ (r : Fin 512) (k : Fin 2048), x3 (ix3 0 r k) = (0 : EReal) ∨ x3 (ix3 0 r k) = (1 : EReal))
    (r : Fin 512) (j : Fin 128) (d : Fin 64) (hj : j.val = o + d.val) (hd : j.val / 64 * 64 = o) :
    headK (k1_pay7 (F := Ideal) x3) (extractStridedSlice S512x64 ![0, o] (k1_pay4 (F := Ideal) x0) hq)
        (extractStridedSlice S2048x64 ![0, o] (k1_pay5 (F := Ideal) x1) hk)
        (extractStridedSlice S2048x64 ![0, o] (k1_pay6 (F := Ideal) x2) hk) (ix2 r d)
      = blockAO (fun r j => x0 (ix3 0 r j)) (fun k j => x1 (ix3 0 k j)) (fun k j => x2 (ix3 0 k j))
          (fun r k => x3 (ix3 0 r k)) r j := by
  rw [half_apply o ho]
  have hs : ∀ d' : Fin 64, shift o ho d' = hcol j d' := fun d' => Fin.ext (by
    show o + d'.val = j.val / 64 * 64 + d'.val
    omega)
  have hjd : shift o ho d = j := Fin.ext (by
    show o + d.val = j.val
    omega)
  simp only [pay7_ite x3 hbin, hjd]
  simp only [hs]
  rfl

/-! ## The two halves side by side -/

/-- Two 64-column blocks laid side by side read, at column `j`, the first below 64 and the second from 64 on. -/
theorem cat_apply (u w : FVec Ideal S512x64 .f32) (r : Fin 512) (j : Fin 128) :
    concatenate S512x128 1 [⟨S512x64, u⟩, ⟨S512x64, w⟩] concatenates_S512x64_S512x64_S512x128_d1 (ix2 r j)
      = if h : j.val < 64 then u (ix2 r ⟨j.val, h⟩) else w (ix2 r ⟨j.val - 64, by have := j.isLt; omega⟩) := by
  split
  · next h =>
    exact concatenate_pair_apply_left 1 u w _ (ix2 r j) rfl (ix2 r ⟨j.val, h⟩) (fun b => by
      match b with
      | ⟨0, _⟩ => rfl
      | ⟨1, _⟩ => rfl)
  · next h =>
    exact concatenate_pair_apply_right 1 u w _ (ix2 r j) rfl rfl (ix2 r ⟨j.val - 64, by have := j.isLt; omega⟩) (fun b hb => by
      match b with
      | ⟨0, _⟩ => rfl
      | ⟨1, _⟩ => exact absurd rfl hb) (by
      show (j.val - 64) + 64 = j.val
      omega)

/-- The first head is the half from column 0, the second head's operands are the halves from column 64. -/
theorem pay8_eq (x0 : Vec Ideal S1x512x128 .bf16) (x1 x2 : Vec Ideal S1x2048x128 .bf16) (x3 : Vec Ideal S1x512x2048 .f32) :
    k1_pay8 (F := Ideal) x0 x1 x2 x3
      = headK (k1_pay7 (F := Ideal) x3) (extractStridedSlice S512x64 ![0, 0] (k1_pay4 (F := Ideal) x0) slices_S512x128_o0_0_S512x64)
          (extractStridedSlice S2048x64 ![0, 0] (k1_pay5 (F := Ideal) x1) slices_S2048x128_o0_0_S2048x64)
          (extractStridedSlice S2048x64 ![0, 0] (k1_pay6 (F := Ideal) x2) slices_S2048x128_o0_0_S2048x64) := rfl

/-- Column `j` of the two heads' outputs side by side is the pair's attention output at `(r, j)`. -/
theorem pairAO_apply (x0 : Vec Ideal S1x512x128 .bf16) (x1 x2 : Vec Ideal S1x2048x128 .bf16) (x3 : Vec Ideal S1x512x2048 .f32)
    (hbin : ∀ (r : Fin 512) (k : Fin 2048), x3 (ix3 0 r k) = (0 : EReal) ∨ x3 (ix3 0 r k) = (1 : EReal))
    (r : Fin 512) (j : Fin 128) :
    concatenate S512x128 1 [⟨S512x64, k1_pay8 (F := Ideal) x0 x1 x2 x3⟩,
        ⟨S512x64, headK (k1_pay7 (F := Ideal) x3) (k1_pay9 (F := Ideal) x0) (k1_pay10 (F := Ideal) x1) (k1_pay11 (F := Ideal) x2)⟩]
        concatenates_S512x64_S512x64_S512x128_d1 (ix2 r j)
      = blockAO (fun r j => x0 (ix3 0 r j)) (fun k j => x1 (ix3 0 k j)) (fun k j => x2 (ix3 0 k j))
          (fun r k => x3 (ix3 0 r k)) r j := by
  rw [cat_apply]
  split
  · next h =>
    rw [pay8_eq]
    exact half_blockAO 0 (by decide) _ _ x0 x1 x2 x3 hbin r j ⟨j.val, h⟩ (by show j.val = 0 + j.val; omega) (by omega)
  · next h =>
    have := j.isLt
    exact half_blockAO 64 (by decide) slices_S512x128_o0_64_S512x64 slices_S2048x128_o0_64_S2048x64 x0 x1 x2 x3 hbin r j
      ⟨j.val - 64, by omega⟩ (by show j.val = 64 + (j.val - 64); omega) (by omega)

end Cert.KernelIdeal.Val

end
-- ==== Proof.KVal_Pay.lean ====
/- The arithmetic of the attention region's body at an index, at the ideal instance: the new accumulator is one
   step of the blockwise attention-and-projection recurrence (the accumulator plus the pair's attention output
   against the 128 rows of the output weight), the final store adds the bias row, the first store is zero. -/
import proofs.«431443_j20203526160555_3_alg».proof.Proof.Gen.KernelIdeal.Skeleton
import proofs.«431443_j20203526160555_3_alg».proof.Proof.Spec2
import proofs.«431443_j20203526160555_3_alg».proof.Proof.Consts
import proofs.«431443_j20203526160555_3_alg».proof.Proof.KVal_Pair
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx Cert.Attn
open scoped BigOperators

/-- The new accumulator is the old one plus the product of the two heads' outputs, side by side, with the weight
    block; the changes of format and the shape cast to the same shape are the identity. -/
theorem pay1_unfold (b : IVec S512x2048 1) (v31 : FVec Ideal S512x64 .f32) (q : FVec Ideal S512x64 .bf16)
    (k v : FVec Ideal S2048x64 .bf16) (w : Vec Ideal S128x1024 .f32) (acc : Vec Ideal S512x1024 .f32) :
    k1_pay1 (F := Ideal) b v31 q k v w acc
      = shapeCast S512x1024 (addf acc (matmul (F := Ideal) dot_S512x128_S128x1024_S512x1024_1_0_0_1_n_n none
          (truncf .bf16 (concatenate S512x128 1 [⟨S512x64, v31⟩, ⟨S512x64, headK b q k v⟩]
            concatenates_S512x64_S512x64_S512x128_d1) bitsLt_bf16_f32)
          (truncf .bf16 w bitsLt_bf16_f32) (constant S512x1024 .f32 0x00000000#32))) shapeCasts_S512x1024_S512x1024 := rfl

theorem pay1_eq (x0 : Vec Ideal S1x512x128 .bf16) (x1 x2 : Vec Ideal S1x2048x128 .bf16) (x3 : Vec Ideal S1x512x2048 .f32) (x4 : Vec Ideal S128x1024 .f32) (acc : Vec Ideal S512x1024 .f32)
    (hbin : ∀ (r : Fin 512) (k : Fin 2048), x3 (ix3 0 r k) = (0 : EReal) ∨ x3 (ix3 0 r k) = (1 : EReal)) (r : Fin 512) (e : Fin 1024) :
    k1_pay1 (F := Ideal) (k1_pay7 x3) (k1_pay8 x0 x1 x2 x3) (k1_pay9 x0) (k1_pay10 x1) (k1_pay11 x2) x4 acc (ix2 r e)
      = blockStep (fun r e => acc (ix2 r e)) (fun r j => x0 (ix3 0 r j)) (fun k j => x1 (ix3 0 k j)) (fun k j => x2 (ix3 0 k j)) (fun r k => x3 (ix3 0 r k)) (fun j e => x4 (ix2 j e)) r e := by
  rw [pay1_unfold, shapeCast_self]
  show acc (ix2 r e) + matmul (F := Ideal) dot_S512x128_S128x1024_S512x1024_1_0_0_1_n_n none _ _ (constant S512x1024 .f32 0x00000000#32) (ix2 r e) = _
  rw [ow_apply]
  unfold blockStep
  refine congrArg (acc (ix2 r e) + ·) (Finset.sum_congr rfl fun j _ => ?_)
  exact congrArg (· * x4 (ix2 j e)) (pairAO_apply x0 x1 x2 x3 hbin r j)

theorem pay2_eq (acc : Vec Ideal S512x1024 .f32) (x5 : Vec Ideal S1x1024 .f32) (r : Fin 512) (e : Fin 1024) :
    k1_pay2 (F := Ideal) acc x5 (ix3 0 r e) = acc (ix2 r e) + x5 (ix2 0 e) := by
  show shapeCast S1x512x1024 (addf (F := Ideal) (φ := .f32) acc (broadcastTo S512x1024 (shapeCast S1x1024 x5 shapeCasts_S1x1024_S1x1024)
    broadcasts_S1x1024_S512x1024)) shapeCasts_S512x1024_S1x512x1024 (ix3 0 r e) = _
  rw [shapeCast_ab_1ab_apply, shapeCast_self]
  show acc (ix2 r e) + broadcastTo S512x1024 x5 broadcasts_S1x1024_S512x1024 (ix2 r e) = _
  rw [broadcastTo_1b_ab_apply]

theorem pay3_eq (r : Fin 512) (e : Fin 1024) : k1_pay3 (F := Ideal) (ix2 r e) = (0 : EReal) := by
  show shapeCast S512x1024 (broadcast S512x1024 (Scalar.ofBits (F := Ideal) .f32 0x00000000#32))
    shapeCasts_S512x1024_S512x1024 (ix2 r e) = _
  rw [shapeCast_self]
  exact Consts.ofBits_zero

end Cert.KernelIdeal.Val

end
-- ==== Proof.KVal_Blocks.lean ====
/-
  The attention region's blocks read off their arrays. Point `t` of the grid (batch 2) × (query tile 4) × (head pair 8)
  has batch `t / 32`, query tile `t / 8 % 4` and head pair `t % 8`; a block's coordinate in its array is the block
  index times the block's size plus the coordinate inside the block, so the query block holds rows
  `qi·512 + r` and columns `hp·128 + j` of the projected array, the key and value blocks the same columns shifted by
  1024 and 2048 over every row, the mask block the tile's rows over every key, the weight block rows `hp·128 + j`.
-/
import proofs.«431443_j20203526160555_3_alg».proof.Proof.KI_Reg1
import proofs.«431443_j20203526160555_3_alg».proof.Proof.Coords
import proofs.«431443_j20203526160555_3_alg».proof.Proof.Spec2
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Hand

variable (V : (c : Dev nD) → (b : Ref sig .tc) → Buf (Elt Ideal) ((c : Thread nD τ).loc b))

/-! ## The grid and the index maps -/

/-- Point `t` of the grid (batch 2) × (query tile 4) × (head pair 8), head pair innermost, has batch `t / 32`, query
    tile `t / 8 % 4` and head pair `t % 8`; each window's block index in those terms. -/
theorem idx_facts1 : ∀ t : Fin cfg1.N,
    win1_0.index t (0 : Fin 3) = t.val / 32 ∧ win1_0.index t (1 : Fin 3) = t.val / 8 % 4 ∧ win1_0.index t (2 : Fin 3) = t.val % 8
    ∧ win1_1.index t (0 : Fin 3) = t.val / 32 ∧ win1_1.index t (1 : Fin 3) = 0 ∧ win1_1.index t (2 : Fin 3) = 8 + t.val % 8
    ∧ win1_2.index t (0 : Fin 3) = t.val / 32 ∧ win1_2.index t (1 : Fin 3) = 0 ∧ win1_2.index t (2 : Fin 3) = 16 + t.val % 8
    ∧ win1_3.index t (0 : Fin 3) = t.val / 32 ∧ win1_3.index t (1 : Fin 3) = t.val / 8 % 4 ∧ win1_3.index t (2 : Fin 3) = 0
    ∧ win1_4.index t (0 : Fin 2) = t.val % 8 ∧ win1_4.index t (1 : Fin 2) = 0
    ∧ win1_5.index t (0 : Fin 2) = 0 ∧ win1_5.index t (1 : Fin 2) = 0
    ∧ win1_6.index t (0 : Fin 3) = t.val / 32 ∧ win1_6.index t (1 : Fin 3) = t.val / 8 % 4 ∧ win1_6.index t (2 : Fin 3) = 0 :=
  (by decide +kernel : ∀ t : Fin grid1.N, _)

/-! ## The blocks and the arrays, by their literal types -/

abbrev qblk (c : Dev nD) (t : Fin cfg1.N) : Vec Ideal S1x512x128 .bf16 := iblk1 V c 0 t
abbrev kblk (c : Dev nD) (t : Fin cfg1.N) : Vec Ideal S1x2048x128 .bf16 := iblk1 V c 1 t
abbrev vblk (c : Dev nD) (t : Fin cfg1.N) : Vec Ideal S1x2048x128 .bf16 := iblk1 V c 2 t
abbrev mblk (c : Dev nD) (t : Fin cfg1.N) : Vec Ideal S1x512x2048 .f32 := iblk1 V c 3 t
abbrev wblk (c : Dev nD) (t : Fin cfg1.N) : Vec Ideal S128x1024 .f32 := iblk1 V c 4 t
abbrev bblk (c : Dev nD) (t : Fin cfg1.N) : Vec Ideal S1x1024 .f32 := iblk1 V c 5 t
abbrev yarr (c : Dev nD) : Vec Ideal S2x2048x3072 .bf16 := V c main_v5
abbrev marr (c : Dev nD) : Vec Ideal S2x2048x2048 .f32 := V c main_arg1
abbrev warr (c : Dev nD) : Vec Ideal S1024x1024 .f32 := V c main_arg8
abbrev barr (c : Dev nD) : Vec Ideal S1x1024 .f32 := V c main_v6

/-! ## Each block read off its array -/

/-- The query block: rows of the point's query tile, columns of its head pair. -/
theorem qblk_apply (c : Dev nD) (t : Fin cfg1.N) (r : Fin 512) (j : Fin 128) (i : S2x2048x3072.Idx)
    (h0 : (i 0).val = t.val / 32) (h1 : (i 1).val = t.val / 8 % 4 * 512 + r.val) (h2 : (i 2).val = t.val % 8 * 128 + j.val) :
    qblk V c t (ix3 0 r j) = yarr V c i := by
  obtain ⟨e0, e1, e2, -⟩ := idx_facts1 t
  show V c main_v5 (((cfg1.win 0).blk t).view.emb (ix3 0 r j)) = V c main_v5 i
  congr 1
  funext a
  apply Fin.ext
  match a with
  | ⟨0, _⟩ => show win1_0.index t (0 : Fin 3) * 1 + 1 * 0 = (i 0).val; rw [e0, h0]; omega
  | ⟨1, _⟩ => show win1_0.index t (1 : Fin 3) * 512 + 1 * r.val = (i 1).val; rw [e1, h1]; omega
  | ⟨2, _⟩ => show win1_0.index t (2 : Fin 3) * 128 + 1 * j.val = (i 2).val; rw [e2, h2]; omega

/-- The key block: every row, the head pair's columns among the keys' (from column 1024). -/
theorem kblk_apply (c : Dev nD) (t : Fin cfg1.N) (k : Fin 2048) (j : Fin 128) (i : S2x2048x3072.Idx)
    (h0 : (i 0).val = t.val / 32) (h1 : (i 1).val = k.val) (h2 : (i 2).val = 1024 + t.val % 8 * 128 + j.val) :
    kblk V c t (ix3 0 k j) = yarr V c i := by
  obtain ⟨-, -, -, e0, e1, e2, -⟩ := idx_facts1 t
  show V c main_v5 (((cfg1.win 1).blk t).view.emb (ix3 0 k j)) = V c main_v5 i
  congr 1
  funext a
  apply Fin.ext
  match a with
  | ⟨0, _⟩ => show win1_1.index t (0 : Fin 3) * 1 + 1 * 0 = (i 0).val; rw [e0, h0]; omega
  | ⟨1, _⟩ => show win1_1.index t (1 : Fin 3) * 2048 + 1 * k.val = (i 1).val; rw [e1, h1]; omega
  | ⟨2, _⟩ => show win1_1.index t (2 : Fin 3) * 128 + 1 * j.val = (i 2).val; rw [e2, h2]; omega

/-- The value block: every row, the head pair's columns among the values' (from column 2048). -/
theorem vblk_apply (c : Dev nD) (t : Fin cfg1.N) (k : Fin 2048) (j : Fin 128) (i : S2x2048x3072.Idx)
    (h0 : (i 0).val = t.val / 32) (h1 : (i 1).val = k.val) (h2 : (i 2).val = 2048 + t.val % 8 * 128 + j.val) :
    vblk V c t (ix3 0 k j) = yarr V c i := by
  obtain ⟨-, -, -, -, -, -, e0, e1, e2, -⟩ := idx_facts1 t
  show V c main_v5 (((cfg1.win 2).blk t).view.emb (ix3 0 k j)) = V c main_v5 i
  congr 1
  funext a
  apply Fin.ext
  match a with
  | ⟨0, _⟩ => show win1_2.index t (0 : Fin 3) * 1 + 1 * 0 = (i 0).val; rw [e0, h0]; omega
  | ⟨1, _⟩ => show win1_2.index t (1 : Fin 3) * 2048 + 1 * k.val = (i 1).val; rw [e1, h1]; omega
  | ⟨2, _⟩ => show win1_2.index t (2 : Fin 3) * 128 + 1 * j.val = (i 2).val; rw [e2, h2]; omega

/-- The mask block: rows of the point's query tile, every key. -/
theorem mblk_apply (c : Dev nD) (t : Fin cfg1.N) (r : Fin 512) (k : Fin 2048) (i : S2x2048x2048.Idx)
    (h0 : (i 0).val = t.val / 32) (h1 : (i 1).val = t.val / 8 % 4 * 512 + r.val) (h2 : (i 2).val = k.val) :
    mblk V c t (ix3 0 r k) = marr V c i := by
  obtain ⟨-, -, -, -, -, -, -, -, -, e0, e1, e2, -⟩ := idx_facts1 t
  show V c main_arg1 (((cfg1.win 3).blk t).view.emb (ix3 0 r k)) = V c main_arg1 i
  congr 1
  funext a
  apply Fin.ext
  match a with
  | ⟨0, _⟩ => show win1_3.index t (0 : Fin 3) * 1 + 1 * 0 = (i 0).val; rw [e0, h0]; omega
  | ⟨1, _⟩ => show win1_3.index t (1 : Fin 3) * 512 + 1 * r.val = (i 1).val; rw [e1, h1]; omega
  | ⟨2, _⟩ => show win1_3.index t (2 : Fin 3) * 2048 + 1 * k.val = (i 2).val; rw [e2, h2]; omega

/-- The weight block: the head pair's 128 rows of the output weight. -/
theorem wblk_apply (c : Dev nD) (t : Fin cfg1.N) (j : Fin 128) (e : Fin 1024) (i : S1024x1024.Idx)
    (h0 : (i 0).val = t.val % 8 * 128 + j.val) (h1 : (i 1).val = e.val) :
    wblk V c t (ix2 j e) = warr V c i := by
  obtain ⟨-, -, -, -, -, -, -, -, -, -, -, -, e0, e1, -⟩ := idx_facts1 t
  show V c main_arg8 (((cfg1.win 4).blk t).view.emb (ix2 j e)) = V c main_arg8 i
  congr 1
  funext a
  apply Fin.ext
  match a with
  | ⟨0, _⟩ => show win1_4.index t (0 : Fin 2) * 128 + 1 * j.val = (i 0).val; rw [e0, h0]; omega
  | ⟨1, _⟩ => show win1_4.index t (1 : Fin 2) * 1024 + 1 * e.val = (i 1).val; rw [e1, h1]; omega

/-- The bias block is the whole bias row. -/
theorem bblk_apply (c : Dev nD) (t : Fin cfg1.N) (e : Fin 1024) :
    bblk V c t (ix2 0 e) = barr V c (ix2 0 e) := by
  obtain ⟨-, -, -, -, -, -, -, -, -, -, -, -, -, -, e0, e1, -⟩ := idx_facts1 t
  show V c main_v6 (((cfg1.win 5).blk t).view.emb (ix2 0 e)) = V c main_v6 (ix2 0 e)
  congr 1
  funext a
  apply Fin.ext
  match a with
  | ⟨0, _⟩ => show win1_5.index t (0 : Fin 2) * 1 + 1 * 0 = 0; rw [e0]
  | ⟨1, _⟩ => show win1_5.index t (1 : Fin 2) * 1024 + 1 * e.val = e.val; rw [e1]; omega

end Cert.KernelIdeal.Val

end
-- ==== Proof.KVal_Reg1.lean ====
/-
  What the attention region leaves in the program's result array: for every batch entry, sequence position and
  feature, the accumulator of the position's query tile after its last head pair, plus the bias.

  The point of batch `β`, query tile `qi` and head pair `hp` is position `β·32 + qi·8 + hp`. At every point the body
  replaces the accumulator by one step of the blockwise recurrence over the point's blocks, which are the arrays'
  entries at the tile's rows and the head pair's columns; at head pair 0 the step starts from zero, so by induction
  on the head pair the accumulator after the point is the specification's. At head pair 7 the output tile's buffer
  takes the accumulator plus the bias and is written back to rows `qi·512 … qi·512 + 511` of batch `β`; those blocks
  tile the result array, the block of row `s` being the one of tile `s / 512`.
-/
import proofs.«431443_j20203526160555_3_alg».proof.Proof.KVal_Pieces
import proofs.«431443_j20203526160555_3_alg».proof.Proof.KVal_Pay
import proofs.«431443_j20203526160555_3_alg».proof.Proof.KVal_Blocks
import proofs.«431443_j20203526160555_3_alg».proof.Proof.Coords
import proofs.«431443_j20203526160555_3_alg».proof.Proof.Spec2
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Hand

variable (V : (c : Dev nD) → (b : Ref sig .tc) → Buf (Elt Ideal) ((c : Thread nD τ).loc b))

/-! ## The accumulator after each point -/

open Cert.Attn

theorem pt_lt (β : Fin 2) (qi : Fin 4) (hp : ℕ) (h : hp < 8) : β.val * 32 + qi.val * 8 + hp < cfg1.N := by
  rw [show cfg1.N = 64 from N_1]; have := β.isLt; have := qi.isLt; omega

/-- One step of the accumulator at the point of batch `β`, query tile `qi`, head pair `hp`, over the arrays: the
    body's payload of the point's blocks, over any accumulator contents. -/
theorem step_eq (c : Dev nD)
    (hbin : ∀ i : S2x2048x2048.Idx, marr V c i = (0 : EReal) ∨ marr V c i = (1 : EReal))
    (β : Fin 2) (qi : Fin 4) (hp : ℕ) (h : hp < 8) (acc : Vec Ideal S512x1024 .f32) (r : Fin 512) (e : Fin 1024) :
    k1_pay1 (F := Ideal) (k1_pay7 (mblk V c ⟨_, pt_lt β qi hp h⟩))
        (k1_pay8 (qblk V c ⟨_, pt_lt β qi hp h⟩) (kblk V c ⟨_, pt_lt β qi hp h⟩) (vblk V c ⟨_, pt_lt β qi hp h⟩) (mblk V c ⟨_, pt_lt β qi hp h⟩))
        (k1_pay9 (qblk V c ⟨_, pt_lt β qi hp h⟩)) (k1_pay10 (kblk V c ⟨_, pt_lt β qi hp h⟩)) (k1_pay11 (vblk V c ⟨_, pt_lt β qi hp h⟩))
        (wblk V c ⟨_, pt_lt β qi hp h⟩) acc (ix2 r e)
      = blockStep (fun r e => acc (ix2 r e))
          (fun r j => arr3 (yarr V c) β (qrow qi r) (qcol ⟨hp, h⟩ j)) (fun k j => arr3 (yarr V c) β k (kcol ⟨hp, h⟩ j))
          (fun k j => arr3 (yarr V c) β k (vcol ⟨hp, h⟩ j)) (fun r k => arr3 (marr V c) β (qrow qi r) k)
          (fun j e => mat (warr V c) (worow ⟨hp, h⟩ j) e) r e := by
  have hβ := β.isLt
  have hqi := qi.isLt
  have hq : ∀ (r : Fin 512) (j : Fin 128), qblk V c ⟨_, pt_lt β qi hp h⟩ (ix3 0 r j) = arr3 (yarr V c) β (qrow qi r) (qcol ⟨hp, h⟩ j) := fun r j =>
    qblk_apply V c ⟨_, pt_lt β qi hp h⟩ r j (ix3 β (qrow qi r) (qcol ⟨hp, h⟩ j))
      (by show β.val = (β.val * 32 + qi.val * 8 + hp) / 32; omega)
      (by show qi.val * 512 + r.val = (β.val * 32 + qi.val * 8 + hp) / 8 % 4 * 512 + r.val; omega)
      (by show hp * 128 + j.val = (β.val * 32 + qi.val * 8 + hp) % 8 * 128 + j.val; omega)
  have hk : ∀ (k : Fin 2048) (j : Fin 128), kblk V c ⟨_, pt_lt β qi hp h⟩ (ix3 0 k j) = arr3 (yarr V c) β k (kcol ⟨hp, h⟩ j) := fun k j =>
    kblk_apply V c ⟨_, pt_lt β qi hp h⟩ k j (ix3 β k (kcol ⟨hp, h⟩ j))
      (by show β.val = (β.val * 32 + qi.val * 8 + hp) / 32; omega)
      rfl
      (by show 1024 + hp * 128 + j.val = 1024 + (β.val * 32 + qi.val * 8 + hp) % 8 * 128 + j.val; omega)
  have hv : ∀ (k : Fin 2048) (j : Fin 128), vblk V c ⟨_, pt_lt β qi hp h⟩ (ix3 0 k j) = arr3 (yarr V c) β k (vcol ⟨hp, h⟩ j) := fun k j =>
    vblk_apply V c ⟨_, pt_lt β qi hp h⟩ k j (ix3 β k (vcol ⟨hp, h⟩ j))
      (by show β.val = (β.val * 32 + qi.val * 8 + hp) / 32; omega)
      rfl
      (by show 2048 + hp * 128 + j.val = 2048 + (β.val * 32 + qi.val * 8 + hp) % 8 * 128 + j.val; omega)
  have hm : ∀ (r : Fin 512) (k : Fin 2048), mblk V c ⟨_, pt_lt β qi hp h⟩ (ix3 0 r k) = arr3 (marr V c) β (qrow qi r) k := fun r k =>
    mblk_apply V c ⟨_, pt_lt β qi hp h⟩ r k (ix3 β (qrow qi r) k)
      (by show β.val = (β.val * 32 + qi.val * 8 + hp) / 32; omega)
      (by show qi.val * 512 + r.val = (β.val * 32 + qi.val * 8 + hp) / 8 % 4 * 512 + r.val; omega)
      rfl
  have hw : ∀ (j : Fin 128) (e : Fin 1024), wblk V c ⟨_, pt_lt β qi hp h⟩ (ix2 j e) = mat (warr V c) (worow ⟨hp, h⟩ j) e := fun j e =>
    wblk_apply V c ⟨_, pt_lt β qi hp h⟩ j e (ix2 (worow ⟨hp, h⟩ j) e)
      (by show hp * 128 + j.val = (β.val * 32 + qi.val * 8 + hp) % 8 * 128 + j.val; omega)
      rfl
  rw [pay1_eq (qblk V c ⟨_, pt_lt β qi hp h⟩) (kblk V c ⟨_, pt_lt β qi hp h⟩) (vblk V c ⟨_, pt_lt β qi hp h⟩) (mblk V c ⟨_, pt_lt β qi hp h⟩)
    (wblk V c ⟨_, pt_lt β qi hp h⟩) acc (fun r k => by rw [hm]; exact hbin _) r e]
  simp only [hq, hk, hv, hm, hw]

/-- The accumulator after the point of batch `β`, query tile `qi`, head pair `hp` is the specification's. -/
theorem acc_inv (c : Dev nD)
    (hbin : ∀ i : S2x2048x2048.Idx, marr V c i = (0 : EReal) ∨ marr V c i = (1 : EReal))
    (β : Fin 2) (qi : Fin 4) (hp : ℕ) : ∀ (h : hp < 8) (r : Fin 512) (e : Fin 1024),
    (outsAt1 (F := Ideal) V c (β.val * 32 + qi.val * 8 + hp) (pt_lt β qi hp h)).2 (ix2 r e)
      = accAfter (arr3 (yarr V c)) (arr3 (marr V c)) (mat (warr V c)) β qi hp h r e := by
  have hβ := β.isLt
  have hqi := qi.isLt
  induction hp with
  | zero =>
    intro h r e
    have h0 : (⟨_, pt_lt β qi 0 h⟩ : Fin cfg1.N).val % 8 = 0 := by show (β.val * 32 + qi.val * 8 + 0) % 8 = 0; omega
    have h1 : ¬(⟨_, pt_lt β qi 0 h⟩ : Fin cfg1.N).val % 8 = 7 := by show ¬(β.val * 32 + qi.val * 8 + 0) % 8 = 7; omega
    rw [show outsAt1 (F := Ideal) V c (β.val * 32 + qi.val * 8 + 0) (pt_lt β qi 0 h) = leftA V c ⟨_, pt_lt β qi 0 h⟩ h0 h1 from
      outsAt1_A V c ⟨_, pt_lt β qi 0 h⟩ h0 h1, leftA_acc V c ⟨_, pt_lt β qi 0 h⟩ h0 h1]
    refine (step_eq V c hbin β qi 0 h (k1_pay3 (F := Ideal)) r e).trans ?_
    have hz : (fun (r : Fin 512) (e : Fin 1024) => k1_pay3 (F := Ideal) (ix2 r e)) = fun _ _ => (0 : EReal) :=
      funext fun r => funext fun e => pay3_eq r e
    rw [hz]
    rfl
  | succ hp ih =>
    intro h r e
    have h0 : ¬(⟨_, pt_lt β qi (hp + 1) h⟩ : Fin cfg1.N).val % 8 = 0 := by show ¬(β.val * 32 + qi.val * 8 + (hp + 1)) % 8 = 0; omega
    have hacc : (fun (r : Fin 512) (e : Fin 1024) => (outsAt1 (F := Ideal) V c (β.val * 32 + qi.val * 8 + hp) (pt_lt β qi hp (Nat.lt_of_succ_lt h))).2 (ix2 r e))
        = accAfter (arr3 (yarr V c)) (arr3 (marr V c)) (mat (warr V c)) β qi hp (Nat.lt_of_succ_lt h) :=
      funext fun r => funext fun e => ih (Nat.lt_of_succ_lt h) r e
    by_cases h1 : (⟨_, pt_lt β qi (hp + 1) h⟩ : Fin cfg1.N).val % 8 = 7
    · rw [show outsAt1 (F := Ideal) V c (β.val * 32 + qi.val * 8 + (hp + 1)) (pt_lt β qi (hp + 1) h)
          = leftC V c ⟨_, pt_lt β qi (hp + 1) h⟩ h0 h1 (outsAt1 (F := Ideal) V c (β.val * 32 + qi.val * 8 + hp) (pt_lt β qi hp (Nat.lt_of_succ_lt h))).2 from
        outsAt1_C V c ⟨_, pt_lt β qi (hp + 1) h⟩ h0 h1, leftC_acc V c ⟨_, pt_lt β qi (hp + 1) h⟩ h0 h1]
      refine (step_eq V c hbin β qi (hp + 1) h _ r e).trans ?_
      rw [hacc]
      rfl
    · rw [show outsAt1 (F := Ideal) V c (β.val * 32 + qi.val * 8 + (hp + 1)) (pt_lt β qi (hp + 1) h)
          = leftB V c ⟨_, pt_lt β qi (hp + 1) h⟩ h0 h1 (outsAt1 (F := Ideal) V c (β.val * 32 + qi.val * 8 + hp) (pt_lt β qi hp (Nat.lt_of_succ_lt h))).2 from
        outsAt1_B V c ⟨_, pt_lt β qi (hp + 1) h⟩ h0 h1, leftB_acc V c ⟨_, pt_lt β qi (hp + 1) h⟩ h0 h1]
      refine (step_eq V c hbin β qi (hp + 1) h _ r e).trans ?_
      rw [hacc]
      rfl

/-! ## The output tile at a tile's last head pair -/

/-- At head pair 7 the output tile's buffer holds the accumulator after the point plus the bias. -/
theorem out_eq (c : Dev nD)
    (hbin : ∀ i : S2x2048x2048.Idx, marr V c i = (0 : EReal) ∨ marr V c i = (1 : EReal))
    (β : Fin 2) (qi : Fin 4) (r : Fin 512) (e : Fin 1024) :
    (outsAt1 (F := Ideal) V c (β.val * 32 + qi.val * 8 + 7) (pt_lt β qi 7 (by decide))).1 (ix3 0 r e)
      = accAfter (arr3 (yarr V c)) (arr3 (marr V c)) (mat (warr V c)) β qi 7 (by decide) r e + barr V c (ix2 0 e) := by
  have hβ := β.isLt
  have hqi := qi.isLt
  have h0 : ¬(⟨_, pt_lt β qi 7 (by decide)⟩ : Fin cfg1.N).val % 8 = 0 := by show ¬(β.val * 32 + qi.val * 8 + 7) % 8 = 0; omega
  have h1 : (⟨_, pt_lt β qi 7 (by decide)⟩ : Fin cfg1.N).val % 8 = 7 := by show (β.val * 32 + qi.val * 8 + 7) % 8 = 7; omega
  have hacc : (fun (r : Fin 512) (e : Fin 1024) => (outsAt1 (F := Ideal) V c (β.val * 32 + qi.val * 8 + 6) (pt_lt β qi 6 (by decide))).2 (ix2 r e))
      = accAfter (arr3 (yarr V c)) (arr3 (marr V c)) (mat (warr V c)) β qi 6 (by decide) :=
    funext fun r => funext fun e => acc_inv V c hbin β qi 6 (by decide) r e
  rw [show outsAt1 (F := Ideal) V c (β.val * 32 + qi.val * 8 + 7) (pt_lt β qi 7 (by decide))
        = leftC V c ⟨_, pt_lt β qi 7 (by decide)⟩ h0 h1 (outsAt1 (F := Ideal) V c (β.val * 32 + qi.val * 8 + 6) (pt_lt β qi 6 (by decide))).2 from
      outsAt1_C V c ⟨_, pt_lt β qi 7 (by decide)⟩ h0 h1, leftC_out V c ⟨_, pt_lt β qi 7 (by decide)⟩ h0 h1]
  refine (pay2_eq _ (bblk V c ⟨_, pt_lt β qi 7 (by decide)⟩) r e).trans ?_
  rw [bblk_apply V c ⟨_, pt_lt β qi 7 (by decide)⟩ e]
  refine congrArg (· + barr V c (ix2 0 e)) ?_
  refine (step_eq V c hbin β qi 7 (by decide) _ r e).trans ?_
  rw [hacc]
  rfl

/-! ## From the tiles to the array -/

/-- The specification's result at row `qi·512 + r`. -/
theorem regionOut_at (Y : Arr3 3072) (M : Arr3 2048) (Wo : Mat) (bo : Vec1) (β : Fin 2) (s : Fin 2048) (e : Fin 1024)
    (qi : Fin 4) (r : Fin 512) (hs : s.val = qi.val * 512 + r.val) :
    regionOut Y M Wo bo β s e = accAfter Y M Wo β qi 7 (by decide) r e + bo e := by
  have hr := r.isLt
  have hq : (⟨s.val / 512, by have := s.isLt; omega⟩ : Fin 4) = qi := Fin.ext (by show s.val / 512 = qi.val; omega)
  have hr' : (⟨s.val % 512, Nat.mod_lt _ (by decide)⟩ : Fin 512) = r := Fin.ext (by show s.val % 512 = r.val; omega)
  unfold regionOut
  rw [hq, hr']

/-- What the region's result array ends holding, as one function of its indices. -/
abbrev Gout (c : Dev nD) : Vec Ideal S2x2048x1024 .f32 :=
  fun i => regionOut (arr3 (yarr V c)) (arr3 (marr V c)) (mat (warr V c)) (fun e => barr V c (ix2 0 e)) (i 0) (i 1) (i 2)

/-- The recursion's value depends on the position only. -/
theorem outsAt1_congr (c : Dev nD) (n n' : ℕ) (hn : n < cfg1.N) (hn' : n' < cfg1.N) (h : n = n') :
    outsAt1 (F := Ideal) V c n hn = outsAt1 (F := Ideal) V c n' hn' := by
  subst h; rfl

/-- The output tile's buffer at a point of head pair 7, entry `(0, r, e)`: the specification's result at the tile's
    row `r`. -/
theorem tile_apply (c : Dev nD)
    (hbin : ∀ i : S2x2048x2048.Idx, marr V c i = (0 : EReal) ∨ marr V c i = (1 : EReal))
    (t : Fin cfg1.N) (h7 : t.val % 8 = 7) (r : Fin 512) (e : Fin 1024) (i : S2x2048x1024.Idx)
    (h0 : (i 0).val = t.val / 32) (h1 : (i 1).val = t.val / 8 % 4 * 512 + r.val) (h2 : (i 2).val = e.val) :
    (outsAt1 (F := Ideal) V c t.val t.isLt).1 (ix3 0 r e) = Gout V c i := by
  have hN : t.val < 64 := lt_of_lt_of_eq t.isLt (show cfg1.N = 64 from N_1)
  have hi : (i 1).val = (⟨t.val / 8 % 4, by omega⟩ : Fin 4).val * 512 + r.val := h1
  rw [outsAt1_congr V c t.val ((⟨t.val / 32, by omega⟩ : Fin 2).val * 32 + (⟨t.val / 8 % 4, by omega⟩ : Fin 4).val * 8 + 7) t.isLt
      (pt_lt ⟨t.val / 32, by omega⟩ ⟨t.val / 8 % 4, by omega⟩ 7 (by decide)) (by show t.val = t.val / 32 * 32 + t.val / 8 % 4 * 8 + 7; omega),
    out_eq V c hbin ⟨t.val / 32, by omega⟩ ⟨t.val / 8 % 4, by omega⟩ r e]
  show _ = regionOut _ _ _ _ (i 0) (i 1) (i 2)
  rw [regionOut_at _ _ _ _ (i 0) (i 1) (i 2) ⟨t.val / 8 % 4, by omega⟩ r hi,
    show i 0 = (⟨t.val / 32, by omega⟩ : Fin 2) from Fin.ext h0, show i 2 = e from Fin.ext h2]

/-- An index of the array is in point `t`'s block iff each coordinate is in the block's range on its axis. -/
theorem mem_blk6 (t : Fin cfg1.N) (i : S2x2048x1024.Idx) :
    i ∈ ((cfg1.win 6).blk t).view.set ↔ ∀ a : Fin 3, win1_6.index t a * S1x512x1024.size a ≤ (i a).val ∧ (i a).val < win1_6.index t a * S1x512x1024.size a + S1x512x1024.size a := by
  show i ∈ ((View.whole main_v7).slice (win1_6.rect t)).set ↔ _
  rw [View.set_slice_whole, Rect.mem_set_unit]
  exact Iff.rfl

/-- What a point of head pair 7 writes back is its block of the specification's result. -/
theorem flushed_eq (c : Dev nD)
    (hbin : ∀ i : S2x2048x2048.Idx, marr V c i = (0 : EReal) ∨ marr V c i = (1 : EReal))
    (t : Fin cfg1.N) (hf : (cfg1.win 6).flush t = true) :
    (dat1 (F := Ideal) V c).flushed 6 t = ((cfg1.win 6).blk t).view.read (Elt Ideal) (Gout V c) := by
  have h7 : t.val % 8 = 7 := (flush1_6 t).mp hf
  obtain ⟨-, -, -, -, -, -, -, -, -, -, -, -, -, -, -, -, e0, e1, e2⟩ := idx_facts1 t
  show (cfg1.win 6).cut (grid1.coords t) ((dat1 (F := Ideal) V c).after 6 t) = _
  rw [after1_6]
  funext y
  show (outsAt1 (F := Ideal) V c t.val t.isLt).1 ((cfg1.win 6).xinj (grid1.coords t) y) = Gout V c (((cfg1.win 6).blk t).view.emb y)
  have hy : ((cfg1.win 6).xinj (grid1.coords t) y : S1x512x1024.Idx)
      = ix3 (0 : Fin 1) (⟨(y 1).val, (y 1).isLt⟩ : Fin 512) (⟨(y 2).val, (y 2).isLt⟩ : Fin 1024) :=
    funext fun a => match a with
      | ⟨0, _⟩ => Fin.ext (by have : (y 0).val < 1 := (y 0).isLt; show (y 0).val = 0; omega)
      | ⟨1, _⟩ => rfl
      | ⟨2, _⟩ => rfl
  refine (congrArg (outsAt1 (F := Ideal) V c t.val t.isLt).1 hy).trans ?_
  refine tile_apply V c hbin t h7 _ _ _ ?_ ?_ ?_
  · show win1_6.index t (0 : Fin 3) * 1 + 1 * (y 0).val = t.val / 32
    have : (y 0).val < 1 := (y 0).isLt
    rw [e0]; omega
  · show win1_6.index t (1 : Fin 3) * 512 + 1 * (y 1).val = t.val / 8 % 4 * 512 + (y 1).val
    rw [e1]; omega
  · show win1_6.index t (2 : Fin 3) * 1024 + 1 * (y 2).val = (y 2).val
    rw [e2]; omega

/-- Every index of the result array is in the block of its tile's last point. -/
theorem cover6 (i : S2x2048x1024.Idx) : ∃ t : Fin cfg1.N, (cfg1.win 6).flush t = true ∧ i ∈ ((cfg1.win 6).blk t).view.set := by
  have h0 : (i 0).val < 2 := (i 0).isLt
  have h1 : (i 1).val < 2048 := (i 1).isLt
  have h2 : (i 2).val < 1024 := (i 2).isLt
  refine ⟨⟨(i 0).val * 32 + (i 1).val / 512 * 8 + 7, by rw [show cfg1.N = 64 from N_1]; omega⟩, (flush1_6 _).mpr (by show ((i 0).val * 32 + (i 1).val / 512 * 8 + 7) % 8 = 7; omega), ?_⟩
  obtain ⟨-, -, -, -, -, -, -, -, -, -, -, -, -, -, -, -, e0, e1, e2⟩ :=
    idx_facts1 ⟨(i 0).val * 32 + (i 1).val / 512 * 8 + 7, by rw [show cfg1.N = 64 from N_1]; omega⟩
  rw [mem_blk6]
  intro a
  match a with
  | ⟨0, _⟩ =>
    show win1_6.index _ (0 : Fin 3) * 1 ≤ (i 0).val ∧ (i 0).val < win1_6.index _ (0 : Fin 3) * 1 + 1
    rw [e0]; show ((i 0).val * 32 + (i 1).val / 512 * 8 + 7) / 32 * 1 ≤ (i 0).val ∧ (i 0).val < ((i 0).val * 32 + (i 1).val / 512 * 8 + 7) / 32 * 1 + 1; omega
  | ⟨1, _⟩ =>
    show win1_6.index _ (1 : Fin 3) * 512 ≤ (i 1).val ∧ (i 1).val < win1_6.index _ (1 : Fin 3) * 512 + 512
    rw [e1]; show ((i 0).val * 32 + (i 1).val / 512 * 8 + 7) / 8 % 4 * 512 ≤ (i 1).val ∧ (i 1).val < ((i 0).val * 32 + (i 1).val / 512 * 8 + 7) / 8 % 4 * 512 + 512; omega
  | ⟨2, _⟩ =>
    show win1_6.index _ (2 : Fin 3) * 1024 ≤ (i 2).val ∧ (i 2).val < win1_6.index _ (2 : Fin 3) * 1024 + 1024
    rw [e2]; omega

/-- The result array after the region. -/
theorem arrAt1 (c : Dev nD)
    (hbin : ∀ i : S2x2048x2048.Idx, (V c main_arg1 : S2x2048x2048.Idx → EReal) i = (0 : EReal) ∨ (V c main_arg1 : S2x2048x2048.Idx → EReal) i = (1 : EReal))
    (β : Fin 2) (s : Fin 2048) (e : Fin 1024) :
    ((dat1 (F := Ideal) V c).arrAt 6 cfg1.N : S2x2048x1024.Idx → EReal) (ix3 β s e)
      = Cert.Attn.regionOut (Cert.Attn.arr3 (V c main_v5 : S2x2048x3072.Idx → EReal)) (Cert.Attn.arr3 (V c main_arg1 : S2x2048x2048.Idx → EReal))
          (Cert.Attn.mat (V c main_arg8 : S1024x1024.Idx → EReal)) (fun e => (V c main_v6 : S1x1024.Idx → EReal) (ix2 0 e)) β s e := by
  rw [(dat1 (F := Ideal) V c).arrAt_eq_of_cover 6 (Gout V c) (flushed_eq V c hbin) cover6]

end Cert.KernelIdeal.Val

end
-- ==== Proof.Algebra.lean ====
/-
  The kernel's arrangement computes the stated function.

  The region's accumulator, started at zero, adds for each of the eight head pairs the 128 products
  (attention output column) · (output weight row) of that pair's block. Column j' of block hp is column
  hp·128 + j' of the whole array, its head is 2·hp + j'/64, and the three projections are read off the
  side-by-side array at columns hp·128 + j', 1024 + hp·128 + j' and 2048 + hp·128 + j'. So each block term is
  the corresponding stretch of the sum over all 1024 columns, and the eight stretches make up the whole sum.
  Only 0 + a = a and the regrouping of a finite sum are used: nothing about finiteness, nothing about the mask.
-/
import proofs.«431443_j20203526160555_3_alg».proof.Proof.Spec2
import Mathlib.Algebra.BigOperators.Fin
import Mathlib.Algebra.BigOperators.Group.Finset.Basic
import Mathlib.Data.Fintype.BigOperators
import Mathlib.Logic.Equiv.Fin.Basic
import Mathlib.Data.EReal.Basic

noncomputable section

namespace Cert.Attn

open Idealize.ShloMosaic
open scoped BigOperators

/-! ## Eight blocks of 128 columns are the 1024 columns -/

/-- A sum over the 1024 columns, taken block by block: the pair (hp, j) names column hp·128 + j. -/
theorem sum_pairs_cols (F : Fin 1024 → EReal) :
    ∑ hp : Fin 8, ∑ j : Fin 128, F (worow hp j) = ∑ j : Fin 1024, F j := by
  rw [← Fintype.sum_prod_type' (fun hp j => F (worow hp j))]
  refine Fintype.sum_equiv (finProdFinEquiv (m := 8) (n := 128)) _ _ ?_
  rintro ⟨hp, j⟩
  refine congrArg F (Fin.ext ?_)
  simp only [worow, finProdFinEquiv_apply_val]
  omega

/-! ## Reading the three projections off the side-by-side array -/

section Columns

variable (x : Arr3 1024) (Wq : Mat) (bq : Vec1) (Wk : Mat) (bk : Vec1) (Wv : Mat) (bv : Vec1)

/-- Columns [0, 1024) hold the query projection. -/
theorem qkv_qcol (β : Fin 2) (s : Fin 2048) (hp : Fin 8) (j : Fin 128) :
    qkv x Wq bq Wk bk Wv bv β s (qcol hp j) = proj x Wq bq β s (worow hp j) := by
  have h1 : (qcol hp j).val < 1024 := by simp only [qcol]; omega
  simp only [qkv, dif_pos h1]
  exact congrArg (proj x Wq bq β s) (Fin.ext (by simp only [qcol, worow]))

/-- Columns [1024, 2048) hold the key projection. -/
theorem qkv_kcol (β : Fin 2) (s : Fin 2048) (hp : Fin 8) (j : Fin 128) :
    qkv x Wq bq Wk bk Wv bv β s (kcol hp j) = proj x Wk bk β s (worow hp j) := by
  have h1 : ¬ (kcol hp j).val < 1024 := by simp only [kcol]; omega
  have h2 : (kcol hp j).val < 2048 := by simp only [kcol]; omega
  simp only [qkv, dif_neg h1, dif_pos h2]
  exact congrArg (proj x Wk bk β s) (Fin.ext (by simp only [kcol, worow]; omega))

/-- Columns [2048, 3072) hold the value projection. -/
theorem qkv_vcol (β : Fin 2) (s : Fin 2048) (hp : Fin 8) (j : Fin 128) :
    qkv x Wq bq Wk bk Wv bv β s (vcol hp j) = proj x Wv bv β s (worow hp j) := by
  have h1 : ¬ (vcol hp j).val < 1024 := by simp only [vcol]; omega
  have h2 : ¬ (vcol hp j).val < 2048 := by simp only [vcol]; omega
  simp only [qkv, dif_neg h1, dif_neg h2]
  exact congrArg (proj x Wv bv β s) (Fin.ext (by simp only [vcol, worow]; omega))

end Columns

/-! ## A block's head columns inside the whole array -/

/-- Depth d of the head of block column j, as a column of the whole array: (hp·128 + j)/64 = 2·hp + j/64. -/
theorem worow_hcol (hp : Fin 8) (j : Fin 128) (d : Fin 64) :
    worow hp (hcol j d) = col (headOf (worow hp j)) d := by
  apply Fin.ext
  simp only [worow, hcol, col, headOf]
  omega

section Blocks

variable (x : Arr3 1024) (msk : Arr3 2048) (Wq : Mat) (bq : Vec1) (Wk : Mat) (bk : Vec1) (Wv : Mat) (bv : Vec1)

/-- The block's score is the score of the column's head. -/
theorem pairScore_qkv (β : Fin 2) (qi : Fin 4) (hp : Fin 8) (r : Fin 512) (j : Fin 128) (kk : Fin 2048) :
    pairScore (fun r j => qkv x Wq bq Wk bk Wv bv β (qrow qi r) (qcol hp j))
        (fun k j => qkv x Wq bq Wk bk Wv bv β k (kcol hp j)) r j kk
      = score (proj x Wq bq) (proj x Wk bk) β (headOf (worow hp j)) (qrow qi r) kk := by
  simp only [pairScore, score, qkv_qcol, qkv_kcol, worow_hcol]

/-- Column j of the block's attention output is column hp·128 + j of the whole attention output. -/
theorem blockAO_qkv (β : Fin 2) (qi : Fin 4) (hp : Fin 8) (r : Fin 512) (j : Fin 128) :
    blockAO (fun r j => qkv x Wq bq Wk bk Wv bv β (qrow qi r) (qcol hp j))
        (fun k j => qkv x Wq bq Wk bk Wv bv β k (kcol hp j))
        (fun k j => qkv x Wq bq Wk bk Wv bv β k (vcol hp j))
        (fun r k => msk β (qrow qi r) k) r j
      = headOut msk (proj x Wq bq) (proj x Wk bk) (proj x Wv bv) β (qrow qi r) (worow hp j) := by
  have hf : (fun kk' : Fin 2048 => if msk β (qrow qi r) kk' = 0 then (⊥ : EReal) else
        pairScore (fun r j => qkv x Wq bq Wk bk Wv bv β (qrow qi r) (qcol hp j))
          (fun k j => qkv x Wq bq Wk bk Wv bv β k (kcol hp j)) r j kk')
      = masked msk (proj x Wq bq) (proj x Wk bk) β (headOf (worow hp j)) (qrow qi r) := by
    funext kk'
    simp only [masked, pairScore_qkv]
  simp only [blockAO, headOut, hf, qkv_vcol]

end Blocks

/-! ## The accumulator is the sum of the block terms -/

section Acc

variable (x : Arr3 1024) (msk : Arr3 2048) (Wq : Mat) (bq : Vec1) (Wk : Mat) (bk : Vec1) (Wv : Mat) (bv : Vec1)
  (Wo : Mat)

/-- After head pair n the accumulator holds the terms of pairs 0 … n. -/
theorem accAfter_qkv (β : Fin 2) (qi : Fin 4) (r : Fin 512) (e : Fin 1024) :
    ∀ (n : ℕ) (h : n < 8),
      accAfter (qkv x Wq bq Wk bk Wv bv) msk Wo β qi n h r e
        = ∑ m : Fin (n + 1), ∑ j : Fin 128,
            headOut msk (proj x Wq bq) (proj x Wk bk) (proj x Wv bv) β (qrow qi r) (worow ⟨m.val, by omega⟩ j)
              * Wo (worow ⟨m.val, by omega⟩ j) e
  | 0, h => by
      simp only [accAfter, blockStep, blockAO_qkv, zero_add]
      rw [Fin.sum_univ_one]
      rfl
  | n + 1, h => by
      rw [Fin.sum_univ_castSucc]
      simp only [accAfter, blockStep, blockAO_qkv]
      rw [accAfter_qkv β qi r e n (Nat.lt_of_succ_lt h)]
      rfl

end Acc

/-! ## The region computes the function -/

theorem regionOut_qkv (x : Arr3 1024) (msk : Arr3 2048) (Wq : Mat) (bq : Vec1) (Wk : Mat) (bk : Vec1) (Wv : Mat) (bv : Vec1) (Wo : Mat) (bo : Vec1) :
    regionOut (qkv x Wq bq Wk bk Wv bv) msk Wo bo = out x msk Wq bq Wk bk Wv bv Wo bo := by
  funext β s e
  have hs : qrow ⟨s.val / 512, by omega⟩ ⟨s.val % 512, Nat.mod_lt _ (by decide)⟩ = s :=
    Fin.ext (by simp only [qrow]; omega)
  simp only [regionOut, out, proj]
  rw [accAfter_qkv, hs]
  exact congrArg (· + bo e)
    (sum_pairs_cols (fun j => headOut msk (proj x Wq bq) (proj x Wk bk) (proj x Wv bv) β s j * Wo j e))

end Cert.Attn

end
-- ==== Proof.PreMask.lean ====
/- The precondition's last conjunct, read back: every entry of the mask argument is 0 or 1.
   The precondition is printed as a chain of one-bit conjunctions, one `all` per argument array; its last
   conjunct is the `all` of `(mask = 0) ∨ (mask = 1)`, entry by entry. From "the chain is 1" the conjunctions
   are split off one by one down to that last `all`, the `all` gives the disjunction at each entry, and a
   comparison for equality against a broadcast constant that came out 1 says the entry IS that constant's
   extended real. -/
import proofs.«431443_j20203526160555_3_alg».proof.Defs
import Idealize.ShloMosaic.Lib.ReduceAll
import Idealize.ShloMosaic.Lib.StableHlo.Predicate
import Idealize.ShloMosaic.Lib.ValueIdx
import Idealize.ShloMosaic.PureOps.Ideal.Laws
import proofs.«431443_j20203526160555_3_alg».proof.Proof.Consts

noncomputable section

namespace Cert.PreMask

open Idealize.ShloMosaic Idealize.ShloMosaic.ValueIdx Cert.Pre_finite_inputs

/-- The rank-0 shape has one index. -/
instance : Subsingleton S_.Idx := ⟨fun a b => funext fun d => d.elim0⟩

/-- An equality comparison of extended reals that came out 1 compared equal things. -/
theorem eq_of_cmp_oeq {x y : EReal} (h : Ideal.cmp .oeq x y = 1#1) : x = y := by
  unfold Ideal.cmp at h
  exact of_decide_eq_true ((StableHlo.Predicate.ofBool_eq_one_iff _).1 h)

section Parts

variable [Facts]

/-- An entry of an array whose equality comparison against a broadcast scalar constant is 1 at that entry is the
    extended real the constant's pattern denotes. -/
theorem eq_const_of_cmpf {s : Shape} (hb : S_.BroadcastsInDim s (![] : Fin 0 → Fin s.rank)) (a : FVec Ideal s .f32)
    (b : BitVec 32) (i : s.Idx)
    (h : cmpf .oeq a (broadcastInDim s ![] hb (constant (F := Ideal) S_ .f32 b)) i = 1#1) : a i = Ideal.ofBits .f32 b := by
  rw [cmpf_apply, Ideal.cmpf_def, StableHlo.Predicate.bcast_scalar hb Facts.h_S_, constant_apply] at h
  exact eq_of_cmp_oeq h

/-- Part 3 of the chain is the conjunction of what came before with the `all` of `v50 ∨ (mask = 1)`: when it is 1,
    at every entry either `v50` is 1 or the mask entry is 1. -/
theorem part3 (a1 : FVec Ideal S2x2048x2048 .f32) (v48 : IVec S_ 1) (v50 : IVec S2x2048x2048 1)
    (h : fn_part3 (F := Ideal) a1 v48 v50 ix0 = 1#1) (i : S2x2048x2048.Idx) : v50 i = 1#1 ∨ a1 i = 1 := by
  dsimp only [fn_part3] at h
  obtain ⟨-, h2⟩ := IntOp.andi_eq_one.1 h
  have h3 := Host.reduce_andi_all _ _ _ _ _ h2 i
  rcases IntOp.ori_eq_one.1 h3 with h4 | h4
  · exact Or.inl h4
  · exact Or.inr ((eq_const_of_cmpf _ a1 _ i h4).trans Cert.Consts.ofBits_one)

/-- Part 2 hands part 3 the comparison `mask = 0` as its `v50`: when it is 1, every mask entry is 0 or 1. -/
theorem part2 (a1 : FVec Ideal S2x2048x2048 .f32) (a7 : FVec Ideal S1024 .f32) (a8 : FVec Ideal S1024x1024 .f32)
    (a9 : FVec Ideal S1024 .f32) (v33 : IVec S_ 1)
    (h : fn_part2 (F := Ideal) a1 a7 a8 a9 v33 ix0 = 1#1) (i : S2x2048x2048.Idx) : a1 i = 0 ∨ a1 i = 1 := by
  dsimp only [fn_part2] at h
  rcases part3 a1 _ _ h i with h4 | h4
  · exact Or.inl ((eq_const_of_cmpf _ a1 _ i h4).trans Cert.Consts.ofBits_zero)
  · exact Or.inr h4

/-- Part 1 ends in the call of part 2 on the same mask argument. -/
theorem part1 (a1 : FVec Ideal S2x2048x2048 .f32) (a4 : FVec Ideal S1024x1024 .f32) (a5 : FVec Ideal S1024 .f32)
    (a6 : FVec Ideal S1024x1024 .f32) (a7 : FVec Ideal S1024 .f32) (a8 : FVec Ideal S1024x1024 .f32)
    (a9 : FVec Ideal S1024 .f32) (v13 : IVec S_ 1) (v16 : IVec S1024 1)
    (h : fn_part1 (F := Ideal) a1 a4 a5 a6 a7 a8 a9 v13 v16 ix0 = 1#1) (i : S2x2048x2048.Idx) :
    a1 i = 0 ∨ a1 i = 1 := by
  dsimp only [fn_part1] at h
  exact part2 a1 _ _ _ _ h i

/-- The whole chain ends in the call of part 1 on the same mask argument. -/
theorem whole (a0 : FVec Ideal S2x2048x1024 .f32) (a1 : FVec Ideal S2x2048x2048 .f32) (a2 : FVec Ideal S1024x1024 .f32)
    (a3 : FVec Ideal S1024 .f32) (a4 : FVec Ideal S1024x1024 .f32) (a5 : FVec Ideal S1024 .f32)
    (a6 : FVec Ideal S1024x1024 .f32) (a7 : FVec Ideal S1024 .f32) (a8 : FVec Ideal S1024x1024 .f32)
    (a9 : FVec Ideal S1024 .f32)
    (h : fn (F := Ideal) a0 a1 a2 a3 a4 a5 a6 a7 a8 a9 ix0 = 1#1) (i : S2x2048x2048.Idx) : a1 i = 0 ∨ a1 i = 1 := by
  dsimp only [fn] at h
  exact part1 a1 _ _ _ _ _ _ _ _ h i

end Parts

/-- Under the precondition every entry of the mask argument, on every device, is 0 or 1. -/
theorem mask_binary [Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : Cert.KernelIdeal.S2x2048x2048.Idx) :
    m ((c.tc : Thread Cert.KernelIdeal.nD Cert.KernelIdeal.τ).loc Cert.KernelIdeal.main_arg1) i = (0 : EReal) ∨ m ((c.tc : Thread Cert.KernelIdeal.nD Cert.KernelIdeal.τ).loc Cert.KernelIdeal.main_arg1) i = (1 : EReal) :=
  whole _ _ _ _ _ _ _ _ _ _ (congrFun (h c) ix0) i

end Cert.PreMask

end
-- ==== Proof.KVal_Main.lean ====
/-
  The kernel's result as the specification: the array the second region leaves is the specification's result of the
  ten argument arrays. The first region leaves the three projections side by side; re-shaped, they are what the
  second region's windows read; under the precondition every mask entry is 0 or 1, so the kernel's test "mask ≥ 1/2"
  and the specification's "mask ≠ 0" keep the same keys; and the kernel's accumulation over head pairs is the
  specification's sum over all columns.
-/
import proofs.«431443_j20203526160555_3_alg».proof.Proof.KVal_Host
import proofs.«431443_j20203526160555_3_alg».proof.Proof.KVal_Reg0
import proofs.«431443_j20203526160555_3_alg».proof.Proof.KVal_Reg1
import proofs.«431443_j20203526160555_3_alg».proof.Proof.Algebra
import proofs.«431443_j20203526160555_3_alg».proof.Proof.PreMask
import proofs.«431443_j20203526160555_3_alg».proof.Proof.Coords

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Hand

variable (m : (ℓ : Loc nD τ sig) → Buf (Elt Ideal) ℓ)

/-- What the second region's query, key and value windows read is the three projections side by side. -/
theorem qkv_arr (c : Dev nD) :
    Cert.Attn.arr3 (Hand.V3 (F := Ideal) m c main_v5 : S2x2048x3072.Idx → EReal)
      = Cert.Attn.qkv (Cert.Attn.arr3 (argX m c)) (Cert.Attn.mat (argWq m c)) (Cert.Attn.vec1 (argBq m c))
          (Cert.Attn.mat (argWk m c)) (Cert.Attn.vec1 (argBk m c)) (Cert.Attn.mat (argWv m c)) (Cert.Attn.vec1 (argBv m c)) := by
  funext β s j
  show (Hand.V3 (F := Ideal) m c main_v5 : S2x2048x3072.Idx → EReal) (ix3 β s j) = _
  rw [V3_v5_apply]
  show ((dat0 (F := Ideal) (Hand.V1 m) c).arrAt 3 cfg0.N : S4096x3072.Idx → EReal) (ix2 _ j) = _
  rw [arrAt0_apply]
  have hx : ∀ k : Fin 1024, (Hand.V1 (F := Ideal) m c main_v0 : S4096x1024.Idx → EReal) (ix2 (⟨β.val * 2048 + s.val, by omega⟩ : Fin 4096) k)
      = Cert.Attn.arr3 (argX m c) β s k := fun k => V1_v0_apply m c β s k
  unfold Cert.Attn.qkv Cert.Attn.proj
  by_cases h1 : j.val < 1024
  · have hw : ∀ k : Fin 1024, (Hand.V1 (F := Ideal) m c main_v1 : S1024x3072.Idx → EReal) (ix2 k j) = Cert.Attn.mat (argWq m c) k ⟨j.val, h1⟩ :=
      fun k => by rw [V1_v1_apply, dif_pos h1]; rfl
    have hb : (Hand.V1 (F := Ideal) m c main_v3 : S1x3072.Idx → EReal) (ix2 (0 : Fin 1) j) = Cert.Attn.vec1 (argBq m c) ⟨j.val, h1⟩ := by
      rw [V1_v3_apply, dif_pos h1]; rfl
    simp only [dif_pos h1]
    exact congrArg₂ (fun a b : EReal => a + b) (Finset.sum_congr rfl fun k _ => congrArg₂ (fun a b : EReal => a * b) (hx k) (hw k)) hb
  · by_cases h2 : j.val < 2048
    · have hw : ∀ k : Fin 1024, (Hand.V1 (F := Ideal) m c main_v1 : S1024x3072.Idx → EReal) (ix2 k j) = Cert.Attn.mat (argWk m c) k ⟨j.val - 1024, by omega⟩ :=
        fun k => by rw [V1_v1_apply, dif_neg h1, dif_pos h2]; rfl
      have hb : (Hand.V1 (F := Ideal) m c main_v3 : S1x3072.Idx → EReal) (ix2 (0 : Fin 1) j) = Cert.Attn.vec1 (argBk m c) ⟨j.val - 1024, by omega⟩ := by
        rw [V1_v3_apply, dif_neg h1, dif_pos h2]; rfl
      simp only [dif_neg h1, dif_pos h2]
      exact congrArg₂ (fun a b : EReal => a + b) (Finset.sum_congr rfl fun k _ => congrArg₂ (fun a b : EReal => a * b) (hx k) (hw k)) hb
    · have hw : ∀ k : Fin 1024, (Hand.V1 (F := Ideal) m c main_v1 : S1024x3072.Idx → EReal) (ix2 k j) = Cert.Attn.mat (argWv m c) k ⟨j.val - 2048, by omega⟩ :=
        fun k => by rw [V1_v1_apply, dif_neg h1, dif_neg h2]; rfl
      have hb : (Hand.V1 (F := Ideal) m c main_v3 : S1x3072.Idx → EReal) (ix2 (0 : Fin 1) j) = Cert.Attn.vec1 (argBv m c) ⟨j.val - 2048, by omega⟩ := by
        rw [V1_v3_apply, dif_neg h1, dif_neg h2]; rfl
      simp only [dif_neg h1, dif_neg h2]
      exact congrArg₂ (fun a b : EReal => a + b) (Finset.sum_congr rfl fun k _ => congrArg₂ (fun a b : EReal => a * b) (hx k) (hw k)) hb

/-- The program's result array ends at the specification's result of the argument arrays. -/
theorem o7_eq [Cert.Pre_finite_inputs.Facts] (hpre : Cert.Pre_KernelIdeal m) (c : Dev nD) :
    (Hand.o7 (F := Ideal) m c : S2x2048x1024.Idx → EReal)
      = Cert.Attn.outArr (argX m c) (argM m c) (argWq m c) (argBq m c) (argWk m c) (argBk m c) (argWv m c) (argBv m c) (argWo m c) (argBo m c) := by
  funext i
  obtain ⟨β, s, e, rfl⟩ : ∃ (β : Fin 2) (s : Fin 2048) (e : Fin 1024), i = ix3 β s e := ⟨i 0, i 1, i 2, eq_ix3 i⟩
  show ((dat1 (F := Ideal) (Hand.V3 m) c).arrAt 6 cfg1.N : S2x2048x1024.Idx → EReal) (ix3 β s e) = _
  rw [arrAt1 (Hand.V3 m) c (fun i => by rw [V3_arg1]; exact Cert.PreMask.mask_binary m hpre c i) β s e]
  rw [qkv_arr, V3_arg1, V3_arg8]
  rw [show (fun e => (Hand.V3 (F := Ideal) m c main_v6 : S1x1024.Idx → EReal) (ix2 (0 : Fin 1) e)) = Cert.Attn.vec1 (argBo m c) from
    funext fun e => V3_v6_apply m c e]
  rw [Cert.Attn.regionOut_qkv]
  rfl

end Cert.KernelIdeal.Val

end
-- ==== Proof.lean ====
/-
  Masked multi-head attention with a fused output projection, against its jnp reference, over the extended reals.

  The kernel's program is two host stretches and two kernel regions. The first region is a dense layer over row
  blocks: the three projections x·Wq + bq, x·Wk + bk, x·Wv + bv side by side in 3072 columns. The second region
  runs over (batch, query tile, head pair): for the two heads of a pair it takes the scaled scores of the tile's 512
  queries against all 2048 keys, puts the fill value where the mask does not keep the key, takes each row's softmax
  and its product with the values, and adds the pair's 128 columns times their 128 rows of the output weight into an
  accumulator that starts at zero at the tile's first head pair; after the last it stores accumulator + bias. The
  reference computes the same projections, scores divided by 8, −∞ where the mask entry is 0, the row softmax, the
  product with the values, and one output projection over all 1024 columns.

  At the ideal instance a format change is the identity, the scale 0.125 is exactly 1/8, the fill value is named −∞
  (the one ledger entry, twice), and every operation is the extended reals' own, so the two sides are one function
  once the kernel's key test (mask ≥ 1/2) and the reference's (mask ≠ 0) agree: the precondition says every mask
  entry is 0 or 1. The sum over the eight head pairs of 128 columns is the sum over 1024 columns by associativity
  and commutativity alone; no finiteness of any entry is used.

  The frames: each kernel program's run, generic in the float instance, is proved once (from the launch through the
  host stretches and both regions, the second region's three windows on the projected array each holding a share of
  it), and read at the word-level instance for the kernel and at the ideal one for its idealization; the reference's
  frame is its run with the result dropped.
-/
import proofs.«431443_j20203526160555_3_alg».proof.Defs
import proofs.«431443_j20203526160555_3_alg».proof.Proof.Gen.Kernel
import proofs.«431443_j20203526160555_3_alg».proof.Proof.Gen.KernelIdeal
import proofs.«431443_j20203526160555_3_alg».proof.Proof.Gen.ReferenceIdeal
import proofs.«431443_j20203526160555_3_alg».proof.Proof.Gen.Pre_finite_inputs
import proofs.«431443_j20203526160555_3_alg».proof.Proof.Gen.ReferenceIdeal.Run
import proofs.«431443_j20203526160555_3_alg».proof.Proof.K_Run
import proofs.«431443_j20203526160555_3_alg».proof.Proof.KI_Run
import proofs.«431443_j20203526160555_3_alg».proof.Proof.RefValue
import proofs.«431443_j20203526160555_3_alg».proof.Proof.KVal_Main
import Idealize.ShloMosaic.Adequacy
import Idealize.ShloMosaic.Init

noncomputable section

namespace Cert.Proof

open Idealize.ShloMosaic Idealize.SL.Sem

/-- The word-level kernel runs and leaves its arguments as launched. -/
theorem frame_k [Cert.Kernel.Facts] [Cert.Pre_finite_inputs.Facts] : Cert.frame_Kernel := fun m ρ _ =>
  (θ_run Cert.Kernel.defs _ _).mono (fun _ h c => (h c).2) (Cert.Kernel.Hand.run_main (F := Bits) m ρ)

/-- So does its idealization. -/
theorem frame_ki [Cert.KernelIdeal.Facts] [Cert.Pre_finite_inputs.Facts] : Cert.frame_KernelIdeal := fun m ρ _ =>
  (θ_run Cert.KernelIdeal.defs _ _).mono (fun _ h c => (h c).2) (Cert.KernelIdeal.Hand.run_main (F := Ideal) m ρ)

/-- The reference's frame is its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The ledger: the mask fill, twice, is named −∞. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- Both idealized programs end with the specification's result of the arguments, which agree. -/
theorem algebraic [Cert.KernelIdeal.Facts] [Cert.ReferenceIdeal.Facts] [Cert.Pre_finite_inputs.Facts] : Cert.algebraic_KernelIdeal_ReferenceIdeal := by
  intro m ρ m' ρ' hpre hagree
  refine ⟨fun c => Cert.KernelIdeal.Hand.o7 (F := Ideal) m c, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.ref_out m' c, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2]
  exact (Cert.KernelIdeal.Val.o7_eq m hpre c).symm

theorem claim : Cert.Claim := ⟨Cert.Kernel.Gen.facts, Cert.KernelIdeal.Gen.facts, Cert.ReferenceIdeal.Gen.facts, Cert.Pre_finite_inputs.Gen.facts,
  @frame_k Cert.Kernel.Gen.facts Cert.Pre_finite_inputs.Gen.facts,
  @frame_ki Cert.KernelIdeal.Gen.facts Cert.Pre_finite_inputs.Gen.facts,
  @frame_ri Cert.ReferenceIdeal.Gen.facts Cert.Pre_finite_inputs.Gen.facts,
  preserves,
  @algebraic Cert.KernelIdeal.Gen.facts Cert.ReferenceIdeal.Gen.facts Cert.Pre_finite_inputs.Gen.facts⟩

end Cert.Proof

end
